-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096 : Shape := ⟨2, ![4, 4096]⟩
abbrev S256x256 : Shape := ⟨2, ![256, 256]⟩
abbrev S256 : Shape := ⟨1, ![256]⟩
abbrev S256x512 : Shape := ⟨2, ![256, 512]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S256x512 .f32) (main_arg8 : FVec F S256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x512 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4x4096x256 .f32) (main_arg1 : FVec F S4x4096x256 .f32) (main_arg2 : FVec F S4x4096 .f32) (main_arg3 : FVec F S256x256 .f32) (main_arg4 : FVec F S256 .f32) (main_arg5 : FVec F S256x256 .f32) (main_arg6 : FVec F S256 .f32) (main_arg7 : FVec F S256x512 .f32) (main_arg8 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S4x4096x256 : Shape := ⟨3, ![4, 4096, 256]⟩
abbrev S4x4096 : Shape := ⟨2, ![4, 4096]⟩
abbrev S256x256 : Shape := ⟨2, ![256, 256]⟩
abbrev S256 : Shape := ⟨1, ![256]⟩
abbrev S256x512 : Shape := ⟨2, ![256, 512]⟩
abbrev S512x256 : Shape := ⟨2, ![512, 256]⟩
abbrev S1x256 : Shape := ⟨2, ![1, 256]⟩
abbrev S4x1x4096 : Shape := ⟨3, ![4, 1, 4096]⟩
abbrev S_ : Shape := ⟨0, ![]⟩
abbrev S1x1024x256 : Shape := ⟨3, ![1, 1024, 256]⟩
abbrev S1x2048x256 : Shape := ⟨3, ![1, 2048, 256]⟩
abbrev S1x1x2048 : Shape := ⟨3, ![1, 1, 2048]⟩
abbrev S1024x256 : Shape := ⟨2, ![1024, 256]⟩
abbrev S1024x1 : Shape := ⟨2, ![1024, 1]⟩
abbrev S2x2048x256 : Shape := ⟨3, ![2, 2048, 256]⟩
abbrev S2048x256 : Shape := ⟨2, ![2048, 256]⟩
abbrev S1024x2048 : Shape := ⟨2, ![1024, 2048]⟩
abbrev S1x2048 : Shape := ⟨2, ![1, 2048]⟩
abbrev S1024 : Shape := ⟨1, ![1024]⟩
abbrev S1024x512 : Shape := ⟨2, ![1024, 512]⟩

abbrev nBuf : Space → Nat
  | .hbm => 23
  | .vmem => 20
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S512x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S4x1x4096, .f32⟩
  | .hbm, ⟨16, _⟩ => ⟨S_, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S1x2048x256, .f32⟩
  | .local _ .vmem, ⟨3, _⟩ => ⟨S1x2048x256, .f32⟩
  | .local _ .vmem, ⟨4, _⟩ => ⟨S1x1x2048, .f32⟩
  | .local _ .vmem, ⟨5, _⟩ => ⟨S1x1x2048, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S512x256, .f32⟩
  | .local _ .vmem, ⟨11, _⟩ => ⟨S1x256, .f32⟩
  | .local _ .vmem, ⟨12, _⟩ => ⟨S1x1024x256, .f32⟩
  | .local _ .vmem, ⟨13, _⟩ => ⟨S1x1024x256, .f32⟩
  | .local _ .vmem, ⟨14, _⟩ => ⟨S1024x256, .bf16⟩
  | .local _ .vmem, ⟨15, _⟩ => ⟨S1024x256, .f32⟩
  | .local _ .vmem, ⟨16, _⟩ => ⟨S1024x1, .f32⟩
  | .local _ .vmem, ⟨17, _⟩ => ⟨S1024x1, .f32⟩
  | .local _ .vmem, ⟨18, _⟩ => ⟨S2x2048x256, .bf16⟩
  | .local _ .vmem, ⟨19, _⟩ => ⟨S2x2048x256, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg2 : BitVec 32 := BitVec.ofNat 32 (i 2).val
  let v54 : Index := Scalar.indexCast arg2
  let c0_30 : Index := 0#32
  let c0_31 : Index := 0#32
  ![v54.toNat, 0, 0]
def k0_off2 (i : grid0.Coords) : Fin 3 → Nat :=
  let arg2 : BitVec 32 := BitVec.ofNat 32 (i 2).val
  let v6 : Index := Scalar.indexCast arg2
  let c0 : Index := 0#32
  let c0_3 : Index := 0#32
  ![v6.toNat, 0, 0]
def k0_cond3 (i : grid0.Coords) : BitVec 1 :=
  let arg2 : BitVec 32 := BitVec.ofNat 32 (i 2).val
  let c1_i32 : BitVec 32 := 1#32
  let v48 : BitVec 1 := Scalar.cmpi .eq arg2 c1_i32
  let v49 : BitVec 32 := Scalar.extui v48
  let c0_i32_26 : BitVec 32 := 0#32
  let v50 : BitVec 1 := Scalar.cmpi .ne v49 c0_i32_26
  v50

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

class Facts₀ : Prop where
  transposes_S256x256_S256x256_1_0 : S256x256.Transposes [1, 0] S256x256
  transposes_S256x512_S512x256_1_0 : S256x512.Transposes [1, 0] S512x256
  shapeCasts_S256_S1x256 : S256.ShapeCasts S1x256
  shapeCasts_S4x4096_S4x1x4096 : S4x4096.ShapeCasts S4x1x4096
  bcast_S_S4x1x4096 : S_.BroadcastsInDim S4x1x4096 (![] : Fin 0 → Fin S4x1x4096.rank)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  broadcasts_S1x256_S2048x256 : S1x256.Broadcasts S2048x256
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S1x1x2048_S1x2048 : S1x1x2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x256 : S1024x1.Broadcasts S1024x256
  concatenates_S1024x256_S1024x256_S1024x512_d1 : Shape.Concatenates [S1024x256, S1024x256] S1024x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S2048x256_S256x256_S2048x256_1_0_0_1_n_n_wf : DotDims.WF S2048x256 S256x256 S2048x256 [1] [0] [0] [1] [] []
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  dot_S1024x512_S512x256_S1024x256_1_0_0_1_n_n_wf : DotDims.WF S1024x512 S512x256 S1024x256 [1] [0] [0] [1] [] []
  hrank0 : 0 < grid0.rank
  k0_off1_inb : ∀ i : grid0.Coords, ∀ (k0_h2 : k0_cond2 i = 1#1), ∀ a, (k0_off1 i) a + S1x2048x256.size a ≤ S2x2048x256.size a
  k0_off1_packedbf16 : ∀ i : grid0.Coords, ∀ (k0_h2 : k0_cond2 i = 1#1), (Rect.unit (s := S2x2048x256) (k0_off1 i) S1x2048x256.size (k0_off1_inb i k0_h2)).PackedRows (EltTy.packing .bf16)
  k0_off2_inb : ∀ i : grid0.Coords, ∀ a, (k0_off2 i) a + S1x2048x256.size a ≤ S2x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S4x4096x256.size a
  hwx0_1 : ∀ i : grid0.Coords, EltTy.bits .f32 = 32 ∨ (Rect.block (s := S4x4096x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x4096.size a
  hwx0_2 : ∀ i : grid0.Coords, EltTy.bits .f32 = 32 ∨ (Rect.block (s := S4x1x4096) S1x1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S4x4096x256.size a
  hwx0_9 : ∀ i : grid0.Coords, EltTy.bits .f32 = 32 ∨ (Rect.block (s := S4x4096x256) S1x1024x256.size (cc0_transform_9 i) (hinb0_9 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S4x4096 : Shape := ⟨2, ![4, 4096]⟩
abbrev S256x256 : Shape := ⟨2, ![256, 256]⟩
abbrev S256 : Shape := ⟨1, ![256]⟩
abbrev S256x512 : Shape := ⟨2, ![256, 512]⟩
abbrev S1x1x256 : Shape := ⟨3, ![1, 1, 256]⟩
abbrev S_ : Shape := ⟨0, ![]⟩
abbrev S4x4096x4096 : Shape := ⟨3, ![4, 4096, 4096]⟩
abbrev S4x1x4096 : Shape := ⟨3, ![4, 1, 4096]⟩
abbrev S4x4096x1 : Shape := ⟨3, ![4, 4096, 1]⟩
abbrev S4x4096x512 : Shape := ⟨3, ![4, 4096, 512]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S4x4096x256, .f32⟩
  | .hbm, ⟨10, _⟩ => ⟨S1x1x256, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096x256, .f32⟩
  | .hbm, ⟨15, _⟩ => ⟨S4x4096x256, .f32⟩
  | .hbm, ⟨16, _⟩ => ⟨S4x4096x256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S_, .f32⟩
  | .hbm, ⟨21, _⟩ => ⟨S4x4096x256, .f32⟩
  | .hbm, ⟨22, _⟩ => ⟨S4x4096x256, .f32⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S4x1x4096, .f32⟩
  | .hbm, ⟨28, _⟩ => ⟨S_, .f32⟩
  | .hbm, ⟨29, _⟩ => ⟨S4x1x4096, .f32⟩
  | .hbm, ⟨30, _⟩ => ⟨S4x1x4096, .f32⟩
  | .hbm, ⟨31, _⟩ => ⟨S_, .f32⟩
  | .hbm, ⟨32, _⟩ => ⟨S4x1x4096, .f32⟩
  | .hbm, ⟨33, _⟩ => ⟨S4x1x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S4x4096x4096, .f32⟩
  | .hbm, ⟨49, _⟩ => ⟨S4x4096x4096, .f32⟩
  | .hbm, ⟨50, _⟩ => ⟨S4x4096x256, .f32⟩
  | .hbm, ⟨51, _⟩ => ⟨S4x4096x512, .f32⟩
  | .hbm, ⟨52, _⟩ => ⟨S4x4096x256, .f32⟩
  | .hbm, ⟨53, _⟩ => ⟨S1x1x256, .f32⟩
  | .hbm, ⟨54, _⟩ => ⟨S4x4096x256, .f32⟩
  | .hbm, ⟨55, _⟩ => ⟨S4x4096x256, .f32⟩
  | .hbm, ⟨56, _⟩ => ⟨S4x4096x256, .f32⟩
  | .hbm, ⟨57, _⟩ => ⟨S4x4096x256, .f32⟩
  | .hbm, ⟨58, _⟩ => ⟨S_, .f32⟩
  | .hbm, ⟨59, _⟩ => ⟨S4x4096x256, .f32⟩
  | .hbm, ⟨60, _⟩ => ⟨S4x4096x256, .f32⟩
  | .hbm, ⟨61, _⟩ => ⟨S_, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x256 : S_.BroadcastsInDim S4x4096x256 (![] : Fin 0 → Fin S4x4096x256.rank)
  bcast_S_S4x4096x4096 : S_.BroadcastsInDim S4x4096x4096 (![] : Fin 0 → Fin S4x4096x4096.rank)
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x4096x4096_0_1_2 : S4x1x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  concatenates_S4x4096x256_S4x4096x256_S4x4096x512_d2 : Shape.Concatenates [S4x4096x256, S4x4096x256] S4x4096x512 2
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]
  dot_S4x4096x512_S256x512_S4x4096x256_2_1_01_0_n_n_wf : DotDims.WF S4x4096x512 S256x512 S4x4096x256 [2] [1] [0, 1] [0] [] []

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf
def dot_S4x4096x512_S256x512_S4x4096x256_2_1_01_0_n_n : DotDims S4x4096x512 S256x512 S4x4096x256 where
  lhsContracting := [2]
  rhsContracting := [1]
  lhsNonContracting := [0, 1]
  rhsNonContracting := [0]
  lhsBatch := []
  rhsBatch := []
  wf := dot_S4x4096x512_S256x512_S4x4096x256_2_1_01_0_n_n_wf

class Facts : Prop extends Facts₀ where

variable [Facts]
-- ==== Proof.KWShared.lean ====
/-
  What the four runs of the attention body share: the three conditions the body branches on, decided over the 32 grid
  points (t = 8·b + 2·ld + kv): "first key tile" (kv = 0), "first query tile" (ld = 0), "last key tile" (kv = 1);
  where the output window is idle; the staging and scratch memrefs by name; and the launch's invariant with the six
  scratch buffers as memrefs owned at some contents.
-/
import proofs.«409618_j42356967473584_3_alg».proof.Proof.Gen.Kernel.Frame
import proofs.«409618_j42356967473584_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: this is the first key tile (kv = 0). -/
abbrev condKv0 (i : grid0.Coords) : Prop := (Scalar.cmpi .ne (Scalar.extui (Scalar.cmpi .eq (BitVec.ofNat 32 (i 2).val) 0#32)) 0#32) = 1#1
theorem hcondKv0 : ∀ t : Fin cfg0.N, condKv0 (grid0.coords t) ↔ t.val % 2 = 0 :=
  (by decide +kernel : ∀ t : Fin grid0.N, condKv0 (grid0.coords t) ↔ t.val % 2 = 0)
/-- The second branch is taken: this is the first query tile (ld = 0). -/
abbrev condLd0 (i : grid0.Coords) : Prop := k0_cond2 i = 1#1
theorem hcondLd0 : ∀ t : Fin cfg0.N, condLd0 (grid0.coords t) ↔ t.val % 8 < 2 :=
  (by decide +kernel : ∀ t : Fin grid0.N, condLd0 (grid0.coords t) ↔ t.val % 8 < 2)
/-- The third branch is taken: this is the last key tile (kv = 1). -/
abbrev condKv1 (i : grid0.Coords) : Prop := k0_cond3 i = 1#1
theorem hcondKv1 : ∀ t : Fin cfg0.N, condKv1 (grid0.coords t) ↔ t.val % 2 = 1 :=
  (by decide +kernel : ∀ t : Fin grid0.N, condKv1 (grid0.coords t) ↔ t.val % 2 = 1)

/-- The nine input windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
/-- The output window is idle exactly off the last key tile, and is not written back there. -/
theorem idleAt9 : ∀ t : Fin cfg0.N, ¬condKv1 (grid0.coords t) → cfg0.idle 9 (grid0.coords t) = true := by decide +kernel
theorem noFlush9 : ∀ t : Fin cfg0.N, ¬condKv1 (grid0.coords t) → (cfg0.win 9).flush t = false := by decide +kernel
theorem liveAt9 : ∀ t : Fin cfg0.N, condKv1 (grid0.coords t) → cfg0.idle 9 (grid0.coords t) = false := by decide +kernel

/-- Each window's current staging memref at point t, as the pipeline passes it, and its wholeness. -/
abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024x256 .f32 := win0_9.stage (cfg0.slots t 9)
abbrev hs9 (t : Fin cfg0.N) : (ms9 t).IsWhole := hstage0_9 ((cfg0.slots t 9).cast nbuf0_9)
/-- The six scratch operands: whole scoped buffers of the kernel's own. -/
abbrev sc0 : Memref sig .tc .vmem S1024x256 .bf16 := Memref.whole cc0_scratch0
abbrev sc1 : Memref sig .tc .vmem S1024x256 .f32 := Memref.whole cc0_scratch1
abbrev sc2 : Memref sig .tc .vmem S1024x1 .f32 := Memref.whole cc0_scratch2
abbrev sc3 : Memref sig .tc .vmem S1024x1 .f32 := Memref.whole cc0_scratch3
abbrev sc4 : Memref sig .tc .vmem S2x2048x256 .bf16 := Memref.whole cc0_scratch4
abbrev sc5 : Memref sig .tc .vmem S2x2048x256 .bf16 := Memref.whole cc0_scratch5

/-- The launch's invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

end Cert.Kernel.Body

end
-- ==== Proof.Spec.lean ====
/-
  The specification both programs are proved against: gated attention over the reals.
  For a batch b, a query row l and a key row j the score is
      sc b l j = (Σ_h relu(x·Wi + bi)(b,l,h) · relu(mem·Wm + bm)(b,j,h)) / 16 − pen · (1 − msk b j),
  the attended value is the softmax-weighted average of the memory rows,
      att b l d = (Σ_j exp (sc b l j) · mem b j d) / (Σ_j exp (sc b l j))
  (a softmax is unchanged by subtracting any finite number from every score, so no maximum appears),
  and the output is the gate  σ(z) · tanh z  of  z = [x, att]·W2 + b2.
  Everything is stated over plain functions on finite index types; `G` is the result array as extended reals.
-/
import Idealize.ShloMosaic.PureOps.Ideal
import Idealize.ShloMosaic.Lib.ValueIdx

noncomputable section

namespace Cert.Spec

open Idealize.ShloMosaic

/-- The real number the mask penalty's f32 word denotes (the float nearest 1e30). -/
def pen : ℝ := (Ideal.ofBits .f32 0x7149F2CA#32).toReal

/-- Query row r of query tile ld. -/
def row (ld : Fin 4) (r : Fin 1024) : Fin 4096 := ⟨ld.val * 1024 + r.val, by omega⟩

/-- Key row c of key tile t. -/
def tile (t : Fin 2) (c : Fin 2048) : Fin 4096 := ⟨t.val * 2048 + c.val, by omega⟩

/-- The nine argument arrays as real-valued functions of their coordinates. -/
structure Args where
  x : Fin 4 → Fin 4096 → Fin 256 → ℝ
  mem : Fin 4 → Fin 4096 → Fin 256 → ℝ
  msk : Fin 4 → Fin 4096 → ℝ
  wi : Fin 256 → Fin 256 → ℝ
  bi : Fin 256 → ℝ
  wm : Fin 256 → Fin 256 → ℝ
  bm : Fin 256 → ℝ
  w2 : Fin 256 → Fin 512 → ℝ
  b2 : Fin 256 → ℝ

variable (A : Args)

/-- The projected, rectified query row. -/
def qd (b : Fin 4) (l : Fin 4096) (h : Fin 256) : ℝ := max (∑ d, A.x b l d * A.wi h d + A.bi h) 0

/-- The projected, rectified key row. -/
def kd (b : Fin 4) (j : Fin 4096) (h : Fin 256) : ℝ := max (∑ d, A.mem b j d * A.wm h d + A.bm h) 0

/-- The masked, scaled score of query row l against key row j. -/
def sc (b : Fin 4) (l j : Fin 4096) : ℝ := (∑ h, qd A b l h * kd A b j h) / 16 - pen * (1 - A.msk b j)

/-- The attended value: the softmax-weighted average of the memory rows. -/
def att (b : Fin 4) (l : Fin 4096) (d : Fin 256) : ℝ :=
  (∑ j, Real.exp (sc A b l j) * A.mem b j d) / (∑ j, Real.exp (sc A b l j))

/-- The concatenation [x, att] along the feature axis. -/
def cat (b : Fin 4) (l : Fin 4096) (c : Fin 512) : ℝ :=
  if h : c.val < 256 then A.x b l ⟨c.val, h⟩ else att A b l ⟨c.val - 256, by omega⟩

/-- The gate's pre-activation. -/
def z (b : Fin 4) (l : Fin 4096) (o : Fin 256) : ℝ := ∑ c, cat A b l c * A.w2 o c + A.b2 o

/-- The result: σ(z) · tanh z. -/
def out (b : Fin 4) (l : Fin 4096) (o : Fin 256) : ℝ := (1 + Real.exp (-(z A b l o)))⁻¹ * Real.tanh (z A b l o)

/-- The result array, as extended reals, index by index. -/
def G (i : (⟨3, ![4, 4096, 256]⟩ : Shape).Idx) : EReal := ((out A (i 0) (i 1) (i 2) : ℝ) : EReal)

end Cert.Spec

end
-- ==== Proof.KWPay.lean ====
/-
  One output block of the kernel as ONE pure term of the blocks it reads, for any float family:
  a query tile x (1024 rows) against the two key tiles mem0, mem1 (2048 rows each) of its batch.
  The projected query q and, per key tile, the projected keys k_t and the values v_t are formed once;
  the running maximum m, denominator l and accumulator acc start at (−∞, 0, 0), absorb tile 0 and then tile 1
  by the online-softmax update; the block is the gate of [x, acc / l]·W2 + b2.
  Also: the argument blocks as they read when every argument array is real.
-/
import proofs.«409618_j42356967473584_3_alg».proof.Proof.Gen.Kernel.Skeleton
import proofs.«409618_j42356967473584_3_alg».proof.Proof.Spec

noncomputable section

namespace Cert.Kernel.Blk

open Cert.Kernel Cert.Kernel.Gen Idealize.ShloMosaic Cert.Spec

variable {F : FTy → Type} [FloatOps F]

/-- The running maximum after absorbing one key tile (projected keys k, bias row) into mp. -/
def mNext (k : Vec F S1x2048x256 .bf16) (q : Vec F S1024x256 .bf16) (bias : Vec F S1x1x2048 .f32)
    (mp : Vec F S1024x1 .f32) : Vec F S1024x1 .f32 :=
  k0_pay3 (k0_pay14 k q bias mp)

/-- The running denominator after absorbing one key tile. -/
def lNext (k : Vec F S1x2048x256 .bf16) (q : Vec F S1024x256 .bf16) (bias : Vec F S1x1x2048 .f32)
    (mp lp : Vec F S1024x1 .f32) : Vec F S1024x1 .f32 :=
  k0_pay1 (k0_pay17 k q bias mp lp)

/-- The running accumulator after absorbing one key tile (values v). -/
def accNext (v k : Vec F S1x2048x256 .bf16) (q : Vec F S1024x256 .bf16) (bias : Vec F S1x1x2048 .f32)
    (mp : Vec F S1024x1 .f32) (ap : Vec F S1024x256 .f32) : Vec F S1024x256 .f32 :=
  k0_pay2 (k0_pay12 v) (k0_pay15 k q bias mp) (k0_pay16 k q bias mp) ap

/-- The output block of a query tile x against key tiles mem0, mem1 with bias rows bias0, bias1. -/
def OutBlk (x : Vec F S1x1024x256 .f32) (mem0 mem1 : Vec F S1x2048x256 .f32) (bias0 bias1 : Vec F S1x1x2048 .f32)
    (wi : Vec F S256x256 .f32) (bi : Vec F S1x256 .f32) (wm : Vec F S256x256 .f32) (bm : Vec F S1x256 .f32)
    (w2 : Vec F S512x256 .f32) (b2 : Vec F S1x256 .f32) : Vec F S1x1024x256 .f32 :=
  let q := k0_pay5 x wi bi
  let k0 := k0_pay11 mem0 wm bm
  let v0 := k0_pay10 mem0
  let k1 := k0_pay11 mem1 wm bm
  let v1 := k0_pay10 mem1
  let m1 := mNext k0 q bias0 k0_pay6
  let l1 := lNext k0 q bias0 k0_pay6 k0_pay7
  let a1 := accNext v0 k0 q bias0 k0_pay6 k0_pay8
  let l2 := lNext k1 q bias1 m1 l1
  let a2 := accNext v1 k1 q bias1 m1 a1
  k0_pay4 a2 l2 x w2 b2

/-! ## The blocks when every argument array is real -/

variable (A : Args)

/-- Query tile ld of batch b. -/
def xB (b : Fin 4) (ld : Fin 4) : Vec Ideal S1x1024x256 .f32 := fun y => ((A.x b (row ld (y 1)) (y 2) : ℝ) : EReal)
/-- Key tile t of batch b. -/
def memB (b : Fin 4) (t : Fin 2) : Vec Ideal S1x2048x256 .f32 := fun y => ((A.mem b (tile t (y 1)) (y 2) : ℝ) : EReal)
/-- The additive mask bias of key tile t: (msk − 1) · pen. -/
def biasB (b : Fin 4) (t : Fin 2) : Vec Ideal S1x1x2048 .f32 := fun y => (((A.msk b (tile t (y 2)) - 1) * pen : ℝ) : EReal)
/-- The query projection's weights, transposed (feature, hidden). -/
def wiT : Vec Ideal S256x256 .f32 := fun y => ((A.wi (y 1) (y 0) : ℝ) : EReal)
def biR : Vec Ideal S1x256 .f32 := fun y => ((A.bi (y 1) : ℝ) : EReal)
/-- The key projection's weights, transposed. -/
def wmT : Vec Ideal S256x256 .f32 := fun y => ((A.wm (y 1) (y 0) : ℝ) : EReal)
def bmR : Vec Ideal S1x256 .f32 := fun y => ((A.bm (y 1) : ℝ) : EReal)
/-- The gate's weights, transposed (concatenated feature, output). -/
def w2T : Vec Ideal S512x256 .f32 := fun y => ((A.w2 (y 1) (y 0) : ℝ) : EReal)
def b2R : Vec Ideal S1x256 .f32 := fun y => ((A.b2 (y 1) : ℝ) : EReal)

end Cert.Kernel.Blk

end
-- ==== Proof.KWCache.lean ====
/-
  The two caches (projected keys, and the memory rows as values) hold one slab per key tile. The slab of key tile kv of a
  cache d is its slice  sl kv d = d[kv, ·, ·];  the key tile of a grid coordinate i is its last component.
-/
import proofs.«409618_j42356967473584_3_alg».proof.Proof.KWShared
import proofs.«409618_j42356967473584_3_alg».proof.Proof.KWPay
import Idealize.ShloMosaic.Lib.ValueIdx

set_option maxRecDepth 16384

noncomputable section

namespace Cert.Kernel.Body

open Cert.Kernel Cert.Kernel.Gen Cert.Kernel.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slab of key tile kv of a two-tile cache. -/
def sl (kv : Fin 2) (d : Vec F S2x2048x256 .bf16) : Vec F S1x2048x256 .bf16 :=
  fun y => d (ValueIdx.ix3 kv (y 1) (y 2))

/-- The key tile of a grid coordinate. -/
def kvC (i : grid0.Coords) : Fin 2 := ⟨(i 2).val, (i 2).isLt⟩

end Cert.Kernel.Body

end
-- ==== Proof.KWBlocks.lean ====
/-
  The blocks the body is handed at a grid point t = 8·b + 2·ld + kv, read off the arrays as the region finds them, with
  explicit coordinates: the query tile (b, ld) of the input, the key tile (b, kv) of the memory and of the mask bias,
  and the six whole-array windows. A block's coordinate on an axis is always index × size + the coordinate inside the block.
-/
import proofs.«409618_j42356967473584_3_alg».proof.Proof.KWShared
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid has 32 points. -/
theorem lt32 (t : Fin cfg0.N) : t.val < 32 := lt_of_lt_of_eq t.isLt N_0

/-- The batch, query tile and key tile of a grid point. -/
def bOf (t : Fin cfg0.N) : Fin 4 := ⟨t.val / 8, by have := lt32 t; omega⟩
def ldOf (t : Fin cfg0.N) : Fin 4 := ⟨(t.val / 2) % 4, by omega⟩
def kvOf (t : Fin cfg0.N) : Fin 2 := ⟨t.val % 2, by omega⟩

/-- Query tile ld of batch b of the input array. -/
def XBk (c : Dev nD) (b ld : Fin 4) : Vec F S1x1024x256 .f32 := fun y =>
  (V m c main_arg0 : Vec F S4x4096x256 .f32) (ValueIdx.ix3 b ⟨ld.val * 1024 + (y 1).val, by have h : (y 1).val < 1024 := (y 1).isLt; omega⟩ (y 2))
/-- Key tile kv of batch b of the memory array. -/
def MemBk (c : Dev nD) (b : Fin 4) (kv : Fin 2) : Vec F S1x2048x256 .f32 := fun y =>
  (V m c main_arg1 : Vec F S4x4096x256 .f32) (ValueIdx.ix3 b ⟨kv.val * 2048 + (y 1).val, by have h : (y 1).val < 2048 := (y 1).isLt; omega⟩ (y 2))
/-- Key tile kv of batch b of the mask bias the host computed. -/
def BiasBk (c : Dev nD) (b : Fin 4) (kv : Fin 2) : Vec F S1x1x2048 .f32 := fun y =>
  (V m c main_v10 : Vec F S4x1x4096 .f32) (ValueIdx.ix3 b (0 : Fin 1) ⟨kv.val * 2048 + (y 2).val, by have h : (y 2).val < 2048 := (y 2).isLt; omega⟩)

/-- Where each window's block sits at each point, decided over the grid. -/
theorem idx_facts : ∀ t : Fin cfg0.N,
    win0_0.index t (0 : Fin 3) = t.val / 8 ∧ win0_0.index t (1 : Fin 3) = (t.val / 2) % 4 ∧ win0_0.index t (2 : Fin 3) = 0
    ∧ win0_1.index t (0 : Fin 3) = t.val / 8 ∧ win0_1.index t (1 : Fin 3) = t.val % 2 ∧ win0_1.index t (2 : Fin 3) = 0
    ∧ win0_2.index t (0 : Fin 3) = t.val / 8 ∧ win0_2.index t (1 : Fin 3) = 0 ∧ win0_2.index t (2 : Fin 3) = t.val % 2
    ∧ win0_9.index t (0 : Fin 3) = t.val / 8 ∧ win0_9.index t (1 : Fin 3) = (t.val / 2) % 4 ∧ win0_9.index t (2 : Fin 3) = 0 :=
  (by decide +kernel : ∀ t : Fin grid0.N, _)
theorem idx_facts_w : ∀ t : Fin cfg0.N,
    win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0
    ∧ win0_7.index t (0 : Fin 2) = 0 ∧ win0_7.index t (1 : Fin 2) = 0 ∧ win0_8.index t (0 : Fin 2) = 0 ∧ win0_8.index t (1 : Fin 2) = 0 :=
  (by decide +kernel : ∀ t : Fin grid0.N, _)

/-- The input window's block at point t is query tile (b, ld). -/
theorem iblk0_eq (c : Dev nD) (t : Fin cfg0.N) : iblk m c 0 t = XBk m c (bOf t) (ldOf t) := by
  obtain ⟨e0, e1, e2, -⟩ := idx_facts t
  funext y
  show V m c main_arg0 (((cfg0.win 0).blk t).view.emb y) = V m c main_arg0 _
  refine congrArg (V m c main_arg0) (funext fun a => Fin.ext ?_)
  match a with
  | ⟨0, _⟩ => show win0_0.index t (0 : Fin 3) * 1 + 1 * (y 0).val = t.val / 8; have hj : (y 0).val < 1 := (y 0).isLt; omega
  | ⟨1, _⟩ => show win0_0.index t (1 : Fin 3) * 1024 + 1 * (y 1).val = (t.val / 2) % 4 * 1024 + (y 1).val; omega
  | ⟨2, _⟩ => show win0_0.index t (2 : Fin 3) * 256 + 1 * (y 2).val = (y 2).val; omega

/-- The memory window's block at point t is key tile (b, kv). -/
theorem iblk1_eq (c : Dev nD) (t : Fin cfg0.N) : iblk m c 1 t = MemBk m c (bOf t) (kvOf t) := by
  obtain ⟨-, -, -, e0, e1, e2, -⟩ := idx_facts t
  funext y
  show V m c main_arg1 (((cfg0.win 1).blk t).view.emb y) = V m c main_arg1 _
  refine congrArg (V m c main_arg1) (funext fun a => Fin.ext ?_)
  match a with
  | ⟨0, _⟩ => show win0_1.index t (0 : Fin 3) * 1 + 1 * (y 0).val = t.val / 8; have hj : (y 0).val < 1 := (y 0).isLt; omega
  | ⟨1, _⟩ => show win0_1.index t (1 : Fin 3) * 2048 + 1 * (y 1).val = t.val % 2 * 2048 + (y 1).val; omega
  | ⟨2, _⟩ => show win0_1.index t (2 : Fin 3) * 256 + 1 * (y 2).val = (y 2).val; omega

/-- The bias window's block at point t is key tile (b, kv) of the bias. -/
theorem iblk2_eq (c : Dev nD) (t : Fin cfg0.N) : iblk m c 2 t = BiasBk m c (bOf t) (kvOf t) := by
  obtain ⟨-, -, -, -, -, -, e0, e1, e2, -⟩ := idx_facts t
  funext y
  show V m c main_v10 (((cfg0.win 2).blk t).view.emb y) = V m c main_v10 _
  refine congrArg (V m c main_v10) (funext fun a => Fin.ext ?_)
  match a with
  | ⟨0, _⟩ => show win0_2.index t (0 : Fin 3) * 1 + 1 * (y 0).val = t.val / 8; have hj : (y 0).val < 1 := (y 0).isLt; omega
  | ⟨1, _⟩ => show win0_2.index t (1 : Fin 3) * 1 + 1 * (y 1).val = 0; have hj : (y 1).val < 1 := (y 1).isLt; omega
  | ⟨2, _⟩ => show win0_2.index t (2 : Fin 3) * 2048 + 1 * (y 2).val = t.val % 2 * 2048 + (y 2).val; omega

/-- The six weight and bias windows hold their whole arrays at every point. -/
theorem iblk3_eq (c : Dev nD) (t : Fin cfg0.N) : iblk m c 3 t = (V m c main_v0 : Vec F S256x256 .f32) := by
  have e := idx_facts_w t
  funext y
  show V m c main_v0 (((cfg0.win 3).blk t).view.emb y) = V m c main_v0 y
  refine congrArg (V m c main_v0) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem iblk4_eq (c : Dev nD) (t : Fin cfg0.N) : iblk m c 4 t = (V m c main_v3 : Vec F S1x256 .f32) := by
  have e := idx_facts_w t
  funext y
  show V m c main_v3 (((cfg0.win 4).blk t).view.emb y) = V m c main_v3 y
  refine congrArg (V m c main_v3) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega
theorem iblk5_eq (c : Dev nD) (t : Fin cfg0.N) : iblk m c 5 t = (V m c main_v1 : Vec F S256x256 .f32) := by
  have e := idx_facts_w t
  funext y
  show V m c main_v1 (((cfg0.win 5).blk t).view.emb y) = V m c main_v1 y
  refine congrArg (V m c main_v1) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega
theorem iblk6_eq (c : Dev nD) (t : Fin cfg0.N) : iblk m c 6 t = (V m c main_v4 : Vec F S1x256 .f32) := by
  have e := idx_facts_w t
  funext y
  show V m c main_v4 (((cfg0.win 6).blk t).view.emb y) = V m c main_v4 y
  refine congrArg (V m c main_v4) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega
theorem iblk7_eq (c : Dev nD) (t : Fin cfg0.N) : iblk m c 7 t = (V m c main_v2 : Vec F S512x256 .f32) := by
  have e := idx_facts_w t
  funext y
  show V m c main_v2 (((cfg0.win 7).blk t).view.emb y) = V m c main_v2 y
  refine congrArg (V m c main_v2) (funext fun a => Fin.ext ?_)
  match a with
  | ⟨0, _⟩ => show win0_7.index t (0 : Fin 2) * 512 + 1 * (y 0).val = (y 0).val; omega
  | ⟨1, _⟩ => show win0_7.index t (1 : Fin 2) * 256 + 1 * (y 1).val = (y 1).val; omega
theorem iblk8_eq (c : Dev nD) (t : Fin cfg0.N) : iblk m c 8 t = (V m c main_v5 : Vec F S1x256 .f32) := by
  have e := idx_facts_w t
  funext y
  show V m c main_v5 (((cfg0.win 8).blk t).view.emb y) = V m c main_v5 y
  refine congrArg (V m c main_v5) (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

end Cert.Kernel.Body

end
-- ==== Proof.KWFrame.lean ====
/-
  The frame of the attention kernel, with the state the body carries between grid points named.
  A grid point is t = 8·b + 2·ld + kv. Before a point s the six scratch buffers hold:
    when s is odd (the last key tile of a query tile is about to run): the query projection q of tile (b, ld) and the
      running maximum, denominator and accumulator after key tile 0;
    when s is odd or the query tile is not the first: slab 0 of both caches, the projected keys and the values of key tile 0;
    when the query tile is not the first: slab 1 as well.
  At the first point of a batch nothing is known and nothing is needed. The output block left at a last key tile is the
  gate of the normalised accumulator after both key tiles: one closed term of the point's blocks.
-/
import proofs.«409618_j42356967473584_3_alg».proof.Proof.KWCache
import proofs.«409618_j42356967473584_3_alg».proof.Proof.KWBlocks

set_option maxRecDepth 16384

noncomputable section

namespace Cert.Kernel.Body

open Cert.Kernel Cert.Kernel.Gen Cert.Kernel.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The named contents -/

/-- The batch and the query tile of a position, as total functions of the position. -/
def bN (s : ℕ) : Fin 4 := ⟨s / 8 % 4, Nat.mod_lt _ (by decide)⟩
def ldN (s : ℕ) : Fin 4 := ⟨s / 2 % 4, Nat.mod_lt _ (by decide)⟩

theorem bOf_eq (t : Fin cfg0.N) : bOf t = bN t.val := Fin.ext (by have := lt32 t; show t.val / 8 = t.val / 8 % 4; omega)
theorem ldOf_eq (t : Fin cfg0.N) : ldOf t = ldN t.val := rfl

/-- The weights and biases as the region finds them. -/
abbrev Wi (c : Dev nD) : Vec F S256x256 .f32 := V m c main_v0
abbrev Bi (c : Dev nD) : Vec F S1x256 .f32 := V m c main_v3
abbrev Wm (c : Dev nD) : Vec F S256x256 .f32 := V m c main_v1
abbrev Bm (c : Dev nD) : Vec F S1x256 .f32 := V m c main_v4
abbrev W2 (c : Dev nD) : Vec F S512x256 .f32 := V m c main_v2
abbrev B2 (c : Dev nD) : Vec F S1x256 .f32 := V m c main_v5

/-- The query projection of query tile (b, ld); the projected keys and the values of key tile (b, kv). -/
def Qv (c : Dev nD) (b ld : Fin 4) : Vec F S1024x256 .bf16 := k0_pay5 (XBk m c b ld) (Wi m c) (Bi m c)
def Kc (c : Dev nD) (b : Fin 4) (kv : Fin 2) : Vec F S1x2048x256 .bf16 := k0_pay11 (MemBk m c b kv) (Wm m c) (Bm m c)
def Vc (c : Dev nD) (b : Fin 4) (kv : Fin 2) : Vec F S1x2048x256 .bf16 := k0_pay10 (MemBk m c b kv)
/-- The running maximum, denominator and accumulator of query tile (b, ld) after key tile 0. -/
def M1 (c : Dev nD) (b ld : Fin 4) : Vec F S1024x1 .f32 := mNext (Kc m c b 0) (Qv m c b ld) (BiasBk m c b 0) k0_pay6
def L1 (c : Dev nD) (b ld : Fin 4) : Vec F S1024x1 .f32 := lNext (Kc m c b 0) (Qv m c b ld) (BiasBk m c b 0) k0_pay6 k0_pay7
def A1 (c : Dev nD) (b ld : Fin 4) : Vec F S1024x256 .f32 := accNext (Vc m c b 0) (Kc m c b 0) (Qv m c b ld) (BiasBk m c b 0) k0_pay6 k0_pay8
/-- The output block of query tile (b, ld): the gate of the normalised accumulator after both key tiles. -/
def OutAt (c : Dev nD) (b ld : Fin 4) : Vec F S1x1024x256 .f32 :=
  k0_pay4 (accNext (Vc m c b 1) (Kc m c b 1) (Qv m c b ld) (BiasBk m c b 1) (M1 m c b ld) (A1 m c b ld))
    (lNext (Kc m c b 1) (Qv m c b ld) (BiasBk m c b 1) (M1 m c b ld) (L1 m c b ld)) (XBk m c b ld) (W2 m c) (B2 m c)

/-- It is the one-term block of the two key tiles. -/
theorem OutAt_eq (c : Dev nD) (b ld : Fin 4) :
    OutAt m c b ld = OutBlk (XBk m c b ld) (MemBk m c b 0) (MemBk m c b 1) (BiasBk m c b 0) (BiasBk m c b 1)
      (Wi m c) (Bi m c) (Wm m c) (Bm m c) (W2 m c) (B2 m c) := rfl

/-! ## The invariant -/

/-- What the scratch buffers hold before position s. -/
def Inv (c : Dev nD) (s : ℕ) (d0 : Vec F S1024x256 .bf16) (d1 : Vec F S1024x256 .f32) (d2 d3 : Vec F S1024x1 .f32)
    (d4 d5 : Vec F S2x2048x256 .bf16) : Prop :=
  (s % 2 = 1 → d0 = Qv m c (bN s) (ldN s) ∧ d1 = A1 m c (bN s) (ldN s) ∧ d2 = M1 m c (bN s) (ldN s) ∧ d3 = L1 m c (bN s) (ldN s))
  ∧ ((s % 2 = 1 ∨ 2 ≤ s % 8) → sl 0 d4 = Kc m c (bN s) 0 ∧ sl 0 d5 = Vc m c (bN s) 0)
  ∧ (2 ≤ s % 8 → sl 1 d4 = Kc m c (bN s) 1 ∧ sl 1 d5 = Vc m c (bN s) 1)

/-- The scratch buffers owned at contents satisfying the invariant, and the generator register. -/
def Phi (c : Dev nD) (s : ℕ) : sProp 𝕄 :=
  iprop(iprop(∃ d0 d1 d2 d3 d4 d5, ⌜Inv m c s d0 d1 d2 d3 d4 d5⌝ ∗ owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4 ∗ owns (c : Thread nD τ) sc5 fullShare d5) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => OutAt m c (bN t.val) (ldN t.val)
  Φ s := Phi m c s.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = OutAt m c (bN t.val) (ldN t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem Phi_castSucc (c : Dev nD) (t : Fin cfg0.N) : (dats m 0 c).Φ t.castSucc = Phi m c t.val := rfl
theorem Phi_succ (c : Dev nD) (t : Fin cfg0.N) : (dats m 0 c).Φ t.succ = Phi m c (t.val + 1) := rfl

end Cert.Kernel.Body

end
-- ==== Proof.KWStep.lean ====
/-
  How the scratch invariant moves across one grid point, case by case, as facts about positions s = 8·b + 2·ld + kv:
  the batch does not change inside a batch's eight points, nor the query tile between a tile's two points;
  a first key tile (s even) leaves the query projection and the state after key tile 0; a last key tile (s odd) leaves
  nothing to name but the caches; the caches are written at the first query tile (s mod 8 < 2) and only read after it.
-/
import proofs.«409618_j42356967473584_3_alg».proof.Proof.KWFrame

set_option maxRecDepth 16384

noncomputable section

namespace Cert.Kernel.Body

open Cert.Kernel Cert.Kernel.Gen Cert.Kernel.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem bN_succ (s : ℕ) (h : s % 8 ≠ 7) : bN (s + 1) = bN s := Fin.ext (by show (s + 1) / 8 % 4 = s / 8 % 4; omega)
theorem ldN_succ (s : ℕ) (h : s % 2 = 0) : ldN (s + 1) = ldN s := Fin.ext (by show (s + 1) / 2 % 4 = s / 2 % 4; omega)

/-- The key tile of a point's coordinates is the point's parity. -/
theorem kvC_coords : ∀ t : Fin cfg0.N, (kvC (grid0.coords t)).val = t.val % 2 :=
  (by decide +kernel : ∀ t : Fin grid0.N, (kvC (grid0.coords t)).val = t.val % 2)
theorem kvOf_val (t : Fin cfg0.N) : (kvOf t).val = t.val % 2 := rfl
theorem kvC_eq_kvOf (t : Fin cfg0.N) : kvC (grid0.coords t) = kvOf t := Fin.ext ((kvC_coords t).trans (kvOf_val t).symm)

/-- Nothing is known before the first point. -/
theorem inv_zero (c : Dev nD) (d0 : Vec F S1024x256 .bf16) (d1 : Vec F S1024x256 .f32) (d2 d3 : Vec F S1024x1 .f32)
    (d4 d5 : Vec F S2x2048x256 .bf16) : Inv m c 0 d0 d1 d2 d3 d4 d5 :=
  ⟨fun h => absurd h (by decide), fun h => by rcases h with h | h <;> exact absurd h (by decide), fun h => absurd h (by decide)⟩

/-- Case A (first key tile, first query tile): the state after key tile 0, and slab 0 of the caches as just written. -/
theorem inv_A (c : Dev nD) (s : ℕ) (h : s % 8 = 0) {S4' S5' : Vec F S2x2048x256 .bf16}
    (h4 : sl 0 S4' = Kc m c (bN s) 0) (h5 : sl 0 S5' = Vc m c (bN s) 0) :
    Inv m c (s + 1) (Qv m c (bN s) (ldN s)) (A1 m c (bN s) (ldN s)) (M1 m c (bN s) (ldN s)) (L1 m c (bN s) (ldN s)) S4' S5' := by
  have hb : bN (s + 1) = bN s := bN_succ s (by omega)
  have hl : ldN (s + 1) = ldN s := ldN_succ s (by omega)
  refine ⟨fun _ => ?_, fun _ => ?_, fun h2 => ?_⟩
  · rw [hb, hl]; exact ⟨rfl, rfl, rfl, rfl⟩
  · rw [hb]; exact ⟨h4, h5⟩
  · omega

/-- Case B (first key tile, a later query tile): the state after key tile 0; the caches as they were. -/
theorem inv_B (c : Dev nD) (s : ℕ) (h : 2 ≤ s % 8) (he : s % 2 = 0) {d0 : Vec F S1024x256 .bf16} {d1 : Vec F S1024x256 .f32}
    {d2 d3 : Vec F S1024x1 .f32} {d4 d5 : Vec F S2x2048x256 .bf16} (hi : Inv m c s d0 d1 d2 d3 d4 d5) :
    Inv m c (s + 1) (Qv m c (bN s) (ldN s)) (A1 m c (bN s) (ldN s)) (M1 m c (bN s) (ldN s)) (L1 m c (bN s) (ldN s)) d4 d5 := by
  have hb : bN (s + 1) = bN s := bN_succ s (by omega)
  have hl : ldN (s + 1) = ldN s := ldN_succ s he
  refine ⟨fun _ => ?_, fun _ => ?_, fun _ => ?_⟩
  · rw [hb, hl]; exact ⟨rfl, rfl, rfl, rfl⟩
  · rw [hb]; exact hi.2.1 (Or.inr h)
  · rw [hb]; exact hi.2.2 h

/-- Case C (last key tile, first query tile): slab 0 as it was, slab 1 as just written. -/
theorem inv_C (c : Dev nD) (s : ℕ) (h : s % 8 = 1) {d0 : Vec F S1024x256 .bf16} {d1 : Vec F S1024x256 .f32}
    {d2 d3 : Vec F S1024x1 .f32} {d4 d5 : Vec F S2x2048x256 .bf16} (hi : Inv m c s d0 d1 d2 d3 d4 d5)
    {S4' S5' : Vec F S2x2048x256 .bf16} (h40 : sl 0 S4' = sl 0 d4) (h41 : sl 1 S4' = Kc m c (bN s) 1)
    (h50 : sl 0 S5' = sl 0 d5) (h51 : sl 1 S5' = Vc m c (bN s) 1)
    (e0 : Vec F S1024x256 .bf16) (e1 : Vec F S1024x256 .f32) (e2 e3 : Vec F S1024x1 .f32) :
    Inv m c (s + 1) e0 e1 e2 e3 S4' S5' := by
  have hb : bN (s + 1) = bN s := bN_succ s (by omega)
  have h0 := hi.2.1 (Or.inl (by omega))
  refine ⟨fun h1 => by omega, fun _ => ?_, fun _ => ?_⟩
  · rw [hb]; exact ⟨h40.trans h0.1, h50.trans h0.2⟩
  · rw [hb]; exact ⟨h41, h51⟩

/-- Case D (last key tile, a later query tile): the caches as they were, while the batch lasts. -/
theorem inv_D (c : Dev nD) (s : ℕ) (h : 2 ≤ s % 8) (ho : s % 2 = 1) {d0 : Vec F S1024x256 .bf16} {d1 : Vec F S1024x256 .f32}
    {d2 d3 : Vec F S1024x1 .f32} {d4 d5 : Vec F S2x2048x256 .bf16} (hi : Inv m c s d0 d1 d2 d3 d4 d5)
    (e0 : Vec F S1024x256 .bf16) (e1 : Vec F S1024x256 .f32) (e2 e3 : Vec F S1024x1 .f32) :
    Inv m c (s + 1) e0 e1 e2 e3 d4 d5 := by
  refine ⟨fun h1 => by omega, fun h2 => ?_, fun h2 => ?_⟩
  · have h2' : 2 ≤ (s + 1) % 8 := by rcases h2 with h2 | h2 <;> omega
    have hb : bN (s + 1) = bN s := bN_succ s (by omega)
    rw [hb]; exact hi.2.1 (Or.inr h)
  · have hb : bN (s + 1) = bN s := bN_succ s (by omega)
    rw [hb]; exact hi.2.2 h

end Cert.Kernel.Body

end
-- ==== Proof.KWPoint.lean ====
/-
  The four cases at a point, over the blocks the body is handed: if the handed blocks are the point's tiles
  (query tile (b, ld), key tile (b, kv), its bias row, the weights), then what the run leaves in the scratch buffers
  satisfies the invariant at the next position, and at a last key tile the stored block is the tile's output block.
-/
import proofs.«409618_j42356967473584_3_alg».proof.Proof.KWStep

set_option maxRecDepth 16384

noncomputable section

namespace Cert.Kernel.Body

open Cert.Kernel Cert.Kernel.Gen Cert.Kernel.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Case A at position s (s mod 8 = 0). -/
theorem inv_A_gen (c : Dev nD) (s : ℕ) (h8 : s % 8 = 0)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32)
    (hx0 : x0 = XBk m c (bN s) (ldN s)) (hx1 : x1 = MemBk m c (bN s) 0) (hx2 : x2 = BiasBk m c (bN s) 0)
    (hx3 : x3 = Wi m c) (hx4 : x4 = Bi m c) (hx5 : x5 = Wm m c) (hx6 : x6 = Bm m c)
    {S4' S5' : Vec F S2x2048x256 .bf16} (h4 : sl 0 S4' = k0_pay11 x1 x5 x6) (h5 : sl 0 S5' = k0_pay10 x1) :
    Inv m c (s + 1) (k0_pay5 x0 x3 x4)
      (accNext (k0_pay10 x1) (k0_pay11 x1 x5 x6) (k0_pay5 x0 x3 x4) x2 k0_pay6 k0_pay8)
      (mNext (k0_pay11 x1 x5 x6) (k0_pay5 x0 x3 x4) x2 k0_pay6)
      (lNext (k0_pay11 x1 x5 x6) (k0_pay5 x0 x3 x4) x2 k0_pay6 k0_pay7) S4' S5' := by
  subst hx0 hx1 hx2 hx3 hx4 hx5 hx6
  exact inv_A m c s h8 h4 h5

/-- Case B at position s (s even, the query tile not the first): the slabs of key tile 0 are read from the caches. -/
theorem inv_B_gen (c : Dev nD) (s : ℕ) (h : 2 ≤ s % 8) (he : s % 2 = 0) {d0 : Vec F S1024x256 .bf16} {d1 : Vec F S1024x256 .f32} {d2 d3 : Vec F S1024x1 .f32} {d4 d5 : Vec F S2x2048x256 .bf16}
    (hi : Inv m c s d0 d1 d2 d3 d4 d5)
    (x0 : Vec F S1x1024x256 .f32) (x2 : Vec F S1x1x2048 .f32) (x3 : Vec F S256x256 .f32) (x4 : Vec F S1x256 .f32)
    (hx0 : x0 = XBk m c (bN s) (ldN s)) (hx2 : x2 = BiasBk m c (bN s) 0) (hx3 : x3 = Wi m c) (hx4 : x4 = Bi m c) :
    Inv m c (s + 1) (k0_pay5 x0 x3 x4)
      (accNext (sl 0 d5) (sl 0 d4) (k0_pay5 x0 x3 x4) x2 k0_pay6 k0_pay8)
      (mNext (sl 0 d4) (k0_pay5 x0 x3 x4) x2 k0_pay6)
      (lNext (sl 0 d4) (k0_pay5 x0 x3 x4) x2 k0_pay6 k0_pay7) d4 d5 := by
  subst hx0 hx2 hx3 hx4
  rw [(hi.2.1 (Or.inr h)).1, (hi.2.1 (Or.inr h)).2]
  exact inv_B m c s h he hi

/-- Case C at position s (s mod 8 = 1): slab 1 is written, and the stored block is the tile's output block. -/
theorem inv_C_gen (c : Dev nD) (s : ℕ) (h : s % 8 = 1) {d0 : Vec F S1024x256 .bf16} {d1 : Vec F S1024x256 .f32} {d2 d3 : Vec F S1024x1 .f32} {d4 d5 : Vec F S2x2048x256 .bf16}
    (hi : Inv m c s d0 d1 d2 d3 d4 d5)
    (x0 : Vec F S1x1024x256 .f32) (x1 : Vec F S1x2048x256 .f32) (x2 : Vec F S1x1x2048 .f32) (x5 : Vec F S256x256 .f32) (x6 : Vec F S1x256 .f32) (x7 : Vec F S512x256 .f32) (x8 : Vec F S1x256 .f32)
    (hx0 : x0 = XBk m c (bN s) (ldN s)) (hx1 : x1 = MemBk m c (bN s) 1) (hx2 : x2 = BiasBk m c (bN s) 1)
    (hx5 : x5 = Wm m c) (hx6 : x6 = Bm m c) (hx7 : x7 = W2 m c) (hx8 : x8 = B2 m c)
    {S4' S5' : Vec F S2x2048x256 .bf16} (h41 : sl 1 S4' = k0_pay11 x1 x5 x6) (h40 : sl 0 S4' = sl 0 d4)
    (h51 : sl 1 S5' = k0_pay10 x1) (h50 : sl 0 S5' = sl 0 d5)
    (e0 : Vec F S1024x256 .bf16) (e1 : Vec F S1024x256 .f32) (e2 e3 : Vec F S1024x1 .f32) :
    Inv m c (s + 1) e0 e1 e2 e3 S4' S5'
    ∧ k0_pay4 (accNext (k0_pay10 x1) (k0_pay11 x1 x5 x6) d0 x2 d2 d1) (lNext (k0_pay11 x1 x5 x6) d0 x2 d2 d3) x0 x7 x8
        = OutAt m c (bN s) (ldN s) := by
  obtain ⟨rfl, rfl, rfl, rfl⟩ := hi.1 (by omega)
  subst hx0 hx1 hx2 hx5 hx6 hx7 hx8
  exact ⟨inv_C m c s h hi h40 h41 h50 h51 e0 e1 e2 e3, rfl⟩

/-- Case D at position s (s odd, the query tile not the first): slab 1 is read, and the stored block is the tile's output block. -/
theorem inv_D_gen (c : Dev nD) (s : ℕ) (h : 2 ≤ s % 8) (ho : s % 2 = 1) {d0 : Vec F S1024x256 .bf16} {d1 : Vec F S1024x256 .f32} {d2 d3 : Vec F S1024x1 .f32} {d4 d5 : Vec F S2x2048x256 .bf16}
    (hi : Inv m c s d0 d1 d2 d3 d4 d5)
    (x0 : Vec F S1x1024x256 .f32) (x2 : Vec F S1x1x2048 .f32) (x7 : Vec F S512x256 .f32) (x8 : Vec F S1x256 .f32)
    (hx0 : x0 = XBk m c (bN s) (ldN s)) (hx2 : x2 = BiasBk m c (bN s) 1) (hx7 : x7 = W2 m c) (hx8 : x8 = B2 m c)
    (e0 : Vec F S1024x256 .bf16) (e1 : Vec F S1024x256 .f32) (e2 e3 : Vec F S1024x1 .f32) :
    Inv m c (s + 1) e0 e1 e2 e3 d4 d5
    ∧ k0_pay4 (accNext (sl 1 d5) (sl 1 d4) d0 x2 d2 d1) (lNext (sl 1 d4) d0 x2 d2 d3) x0 x7 x8
        = OutAt m c (bN s) (ldN s) := by
  have hinv := inv_D m c s h ho hi e0 e1 e2 e3
  obtain ⟨rfl, rfl, rfl, rfl⟩ := hi.1 ho
  subst hx0 hx2 hx7 hx8
  rw [(hi.2.2 h).1, (hi.2.2 h).2]
  exact ⟨hinv, rfl⟩

end Cert.Kernel.Body

end
-- ==== Proof.KWRunA.lean ====
/-
  The attention body run in case A: the first key tile, the first query tile.
  On whole memrefs — the nine inputs at their contents, the output and the six scratch buffers at given contents —
  the body runs to the end and hands back the inputs as they were, the output untouched, and each scratch buffer
  with the stores it received written over what it held; those stores, as pieces, are the witness the run finds.
-/
import proofs.«409618_j42356967473584_3_alg».proof.Proof.KWShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    Σ' (LS0 : List (View.Piece (Elt F) S1024x256 .bf16)) (LS1 : List (View.Piece (Elt F) S1024x256 .f32)) (LS2 : List (View.Piece (Elt F) S1024x1 .f32)) (LS3 : List (View.Piece (Elt F) S1024x1 .f32)) (LS4 : List (View.Piece (Elt F) S2x2048x256 .bf16)), { LS5 : List (View.Piece (Elt F) S2x2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3) ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0__gated_attention_kernel_eq_skeleton]; unfold cc0__gated_attention_kernel_skel
    simp only [k0_part1_eq_skeleton]
    try simp only [View.writes_nil]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [HS0]; · iexact HS0
    isplitl [HS1]; · iexact HS1
    isplitl [HS2]; · iexact HS2
    isplitl [HS3]; · iexact HS3
    isplitl [HS4]; · iexact HS4
    iexact HS5

end Cert.Kernel.Body

end
-- ==== Proof.KWSpecA.lean ====
/-
  The attention body in case A — the first key tile of the first query tile: the query projection and the running state are formed afresh, this key tile's slab of each cache is written from the memory block and then used — with every buffer's contents after the run named:
  the inputs as they were; the query projection q; the running maximum, denominator and accumulator after absorbing this
  key tile (mNext, lNext, accNext of the projected keys k and the values v of the tile); the caches slab by slab.
-/
import proofs.«409618_j42356967473584_3_alg».proof.Proof.KWRunA
import proofs.«409618_j42356967473584_3_alg».proof.Proof.KWCache
import Idealize.ShloMosaic.Lib.WritesUnit
import Idealize.ShloMosaic.Lib.Pipeline.Value

set_option maxRecDepth 16384

noncomputable section

namespace Cert.Kernel.Body

open Cert.Kernel Cert.Kernel.Gen Cert.Kernel.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each scratch buffer reads after the run

The run hands each scratch buffer back as the list of stores it received, written over what the buffer held. A buffer
stored whole reads as its last store's payload, whose own loads read the inputs as they are and the earlier stores of
this same run; a cache stored through the one-slab rectangle at the key tile's offset reads as the payload on that slab
and as before on the other. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The cache offset the body computes is the key tile's slab. -/
theorem off1_eq (i : grid0.Coords) : k0_off1 i = ![(kvC i).val, 0, 0] := by
  have h2 : (i 2).val < 2 := (i 2).isLt
  have e : (Scalar.indexCast (BitVec.ofNat 32 (i 2).val)).toNat = (i 2).val := by
    obtain h | h : (i 2).val = 0 ∨ (i 2).val = 1 := by omega
    · rw [h]; rfl
    · rw [h]; rfl
  unfold k0_off1 kvC
  dsimp only
  rw [e]

section Reads

variable (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16)

/-- The query projection's buffer holds the projection of the query tile. -/
theorem rdQ : arg13.view.read (Elt F) (arg13.view.writes (Elt F) (harg13.unread xs0) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).1) = k0_pay5 x0 x3 x4 := by
  unfold kernelRun_A
  dsimp only
  sl_unfold_words
  refine (View.read_writes_eq_canon _ _ _ ?_).trans ?_
  · intro y; exact ⟨_, List.mem_cons_self, View.mem_set_unit_zero hz2 inb_S1024x256_S1024x256_0_0 y⟩
  rw [View.canon_unit_zero hz2]
  simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2]

/-- The accumulator after absorbing this key tile into the fresh state. -/
theorem rdAcc : arg14.view.read (Elt F) (arg14.view.writes (Elt F) (harg14.unread xs1) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.1)
    = accNext (k0_pay10 x1) (k0_pay11 x1 x5 x6) (k0_pay5 x0 x3 x4) x2 k0_pay6 k0_pay8 := by
  unfold kernelRun_A
  dsimp only
  sl_unfold_words
  refine (View.read_writes_eq_canon _ _ _ ?_).trans ?_
  · intro y; exact ⟨_, List.mem_cons_self, View.mem_set_unit_zero hz2 inb_S1024x256_S1024x256_0_0 y⟩
  rw [View.canon_cons_unit_zero (S := S1024x256) hz2]
  unfold accNext
  simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.readCov_unit_zero (S := S1024x256) _ hz2, View.readCov_unit_zero (S := S1024x1) _ hz2, View.readCov_cons_toLoadRect]

/-- The running maximum after absorbing this key tile. -/
theorem rdM : arg15.view.read (Elt F) (arg15.view.writes (Elt F) (harg15.unread xs2) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.1)
    = mNext (k0_pay11 x1 x5 x6) (k0_pay5 x0 x3 x4) x2 k0_pay6 := by
  unfold kernelRun_A
  dsimp only
  sl_unfold_words
  refine (View.read_writes_eq_canon _ _ _ ?_).trans ?_
  · intro y; exact ⟨_, List.mem_cons_self, View.mem_set_unit_zero hz2 inb_S1024x1_S1024x1_0_0 y⟩
  rw [View.canon_cons_unit_zero (S := S1024x1) hz2]
  unfold mNext
  simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.readCov_unit_zero (S := S1024x256) _ hz2, View.readCov_unit_zero (S := S1024x1) _ hz2, View.readCov_cons_toLoadRect]

/-- The running denominator after absorbing this key tile. -/
theorem rdL : arg16.view.read (Elt F) (arg16.view.writes (Elt F) (harg16.unread xs3) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.1)
    = lNext (k0_pay11 x1 x5 x6) (k0_pay5 x0 x3 x4) x2 k0_pay6 k0_pay7 := by
  unfold kernelRun_A
  dsimp only
  sl_unfold_words
  refine (View.read_writes_eq_canon _ _ _ ?_).trans ?_
  · intro y; exact ⟨_, List.mem_cons_self, View.mem_set_unit_zero hz2 inb_S1024x1_S1024x1_0_0 y⟩
  rw [View.canon_cons_unit_zero (S := S1024x1) hz2]
  unfold lNext
  simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.readCov_unit_zero (S := S1024x256) _ hz2, View.readCov_unit_zero (S := S1024x1) _ hz2, View.readCov_cons_toLoadRect]

/-- The key cache: this key tile's slab holds the projected keys. -/
theorem rdK_hit : sl (kvC i) (arg17.view.read (Elt F) (arg17.view.writes (Elt F) (harg17.unread xs4) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1))
    = k0_pay11 x1 x5 x6 := by
  unfold kernelRun_A
  dsimp only
  sl_unfold_words
  funext y
  refine (View.read_writes_cons_unit_of_mem _ _ _ _ [] _ y (off' := ![(kvC i).val, 0, 0]) (off1_eq i) ?_).trans ?_
  · intro a
    have h0 : (y 0).val < 1 := (y 0).isLt
    match a with
    | ⟨0, _⟩ => show (kvC i).val = (kvC i).val + (y 0).val; omega
    | ⟨1, _⟩ => show (y 1).val = 0 + (y 1).val; omega
    | ⟨2, _⟩ => show (y 2).val = 0 + (y 2).val; omega
  · simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2]

/-- The key cache: the other slab is as it was. -/
theorem rdK_miss (kv : Fin 2) (hkv : kv ≠ kvC i) :
    sl kv (arg17.view.read (Elt F) (arg17.view.writes (Elt F) (harg17.unread xs4) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1)) = sl kv xs4 := by
  unfold kernelRun_A
  dsimp only
  sl_unfold_words
  funext y
  refine (View.read_writes_cons_unit_of_not_mem _ _ _ _ [] _ (off' := ![(kvC i).val, 0, 0]) (off1_eq i) 0 ?_).trans ?_
  · show kv.val < (kvC i).val ∨ (kvC i).val + 1 ≤ kv.val
    have : kv.val ≠ (kvC i).val := fun h => hkv (Fin.ext h)
    omega
  · rw [View.writes_nil, harg17.read_unread]

/-- The value cache: this key tile's slab holds the memory rows as values. -/
theorem rdV_hit : sl (kvC i) (arg18.view.read (Elt F) (arg18.view.writes (Elt F) (harg18.unread xs5) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1))
    = k0_pay10 x1 := by
  unfold kernelRun_A
  dsimp only
  sl_unfold_words
  funext y
  refine (View.read_writes_cons_unit_of_mem _ _ _ _ [] _ y (off' := ![(kvC i).val, 0, 0]) (off1_eq i) ?_).trans ?_
  · intro a
    have h0 : (y 0).val < 1 := (y 0).isLt
    match a with
    | ⟨0, _⟩ => show (kvC i).val = (kvC i).val + (y 0).val; omega
    | ⟨1, _⟩ => show (y 1).val = 0 + (y 1).val; omega
    | ⟨2, _⟩ => show (y 2).val = 0 + (y 2).val; omega
  · simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2]

/-- The value cache: the other slab is as it was. -/
theorem rdV_miss (kv : Fin 2) (hkv : kv ≠ kvC i) :
    sl kv (arg18.view.read (Elt F) (arg18.view.writes (Elt F) (harg18.unread xs5) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1)) = sl kv xs5 := by
  unfold kernelRun_A
  dsimp only
  sl_unfold_words
  funext y
  refine (View.read_writes_cons_unit_of_not_mem _ _ _ _ [] _ (off' := ![(kvC i).val, 0, 0]) (off1_eq i) 0 ?_).trans ?_
  · show kv.val < (kvC i).val ∨ (kvC i).val + 1 ≤ kv.val
    have : kv.val ≠ (kvC i).val := fun h => hkv (Fin.ext h)
    omega
  · rw [View.writes_nil, harg18.read_unread]

end Reads

/-! ## The body's triple in case A, with the contents named -/

theorem run_A_spec (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    ∃ (S4' S5' : Vec F S2x2048x256 .bf16),
      (sl (kvC i) S4' = (k0_pay11 x1 x5 x6) ∧ ∀ kv : Fin 2, kv ≠ kvC i → sl kv S4' = sl kv xs4)
      ∧ (sl (kvC i) S5' = (k0_pay10 x1) ∧ ∀ kv : Fin 2, kv ≠ kvC i → sl kv S5' = sl kv xs5)
      ∧ ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare (k0_pay5 x0 x3 x4) ∗ owns (c : Thread nD τ) arg14 fullShare (accNext (k0_pay10 x1) (k0_pay11 x1 x5 x6) (k0_pay5 x0 x3 x4) x2 k0_pay6 k0_pay8) ∗ owns (c : Thread nD τ) arg15 fullShare (mNext (k0_pay11 x1 x5 x6) (k0_pay5 x0 x3 x4) x2 k0_pay6) ∗ owns (c : Thread nD τ) arg16 fullShare (lNext (k0_pay11 x1 x5 x6) (k0_pay5 x0 x3 x4) x2 k0_pay6 k0_pay7) ∗ owns (c : Thread nD τ) arg17 fullShare S4' ∗ owns (c : Thread nD τ) arg18 fullShare S5') -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  refine ⟨arg17.view.read (Elt F) (arg17.view.writes (Elt F) (harg17.unread xs4) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1),
    arg18.view.read (Elt F) (arg18.view.writes (Elt F) (harg18.unread xs5) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1),
    ⟨rdK_hit c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5, rdK_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5⟩, ⟨rdV_hit c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5, rdV_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5⟩, fun E K => ?_⟩
  iintro ⟨H0, H1, H2, H3, H4, H5, H6, H7, H8, H9, H10, H11, H12, H13, H14, H15, Hk⟩
  iapply ((kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨G0, G1, G2, G3, G4, G5, G6, G7, G8, G9, G10, G11, G12, G13, G14, G15⟩
  iapply Hk
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]
  · unfold owns; iexists _; isplitr; swap; · iexact G10
    ipureintro; exact rdQ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [G11]
  · unfold owns; iexists _; isplitr; swap; · iexact G11
    ipureintro; exact rdAcc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [G12]
  · unfold owns; iexists _; isplitr; swap; · iexact G12
    ipureintro; exact rdM c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [G13]
  · unfold owns; iexists _; isplitr; swap; · iexact G13
    ipureintro; exact rdL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [G14]
  · unfold owns; iexists _; isplitr; swap; · iexact G14
    ipureintro; rfl
  unfold owns; iexists _; isplitr; swap; · iexact G15
  ipureintro; rfl

end Cert.Kernel.Body

end
-- ==== Proof.KWRunB.lean ====
/-
  The attention body run in case B: the first key tile, a later query tile.
  On whole memrefs — the nine inputs at their contents, the output and the six scratch buffers at given contents —
  the body runs to the end and hands back the inputs as they were, the output untouched, and each scratch buffer
  with the stores it received written over what it held; those stores, as pieces, are the witness the run finds.
-/
import proofs.«409618_j42356967473584_3_alg».proof.Proof.KWShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    Σ' (LS0 : List (View.Piece (Elt F) S1024x256 .bf16)) (LS1 : List (View.Piece (Elt F) S1024x256 .f32)) (LS2 : List (View.Piece (Elt F) S1024x1 .f32)) (LS3 : List (View.Piece (Elt F) S1024x1 .f32)) (LS4 : List (View.Piece (Elt F) S2x2048x256 .bf16)), { LS5 : List (View.Piece (Elt F) S2x2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3) ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, [], [], fun E K => ?run⟩
  case run =>
    simp only [cc0__gated_attention_kernel_eq_skeleton]; unfold cc0__gated_attention_kernel_skel
    simp only [k0_part1_eq_skeleton]
    simp only [View.writes_nil]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [HS0]; · iexact HS0
    isplitl [HS1]; · iexact HS1
    isplitl [HS2]; · iexact HS2
    isplitl [HS3]; · iexact HS3
    isplitl [HS4]; · iexact HS4
    iexact HS5

end Cert.Kernel.Body

end
-- ==== Proof.KWSpecB.lean ====
/-
  The attention body in case B — the first key tile of a later query tile: the query projection and the running state are formed afresh, this key tile's slabs are read from the caches, which stay as they are — with every buffer's contents after the run named:
  the inputs as they were; the query projection q; the running maximum, denominator and accumulator after absorbing this
  key tile (mNext, lNext, accNext of the projected keys k and the values v of the tile); the caches slab by slab.
-/
import proofs.«409618_j42356967473584_3_alg».proof.Proof.KWRunB
import proofs.«409618_j42356967473584_3_alg».proof.Proof.KWCache
import Idealize.ShloMosaic.Lib.Pipeline.Value

set_option maxRecDepth 16384

noncomputable section

namespace Cert.Kernel.Body

open Cert.Kernel Cert.Kernel.Gen Cert.Kernel.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem specB_hz2 : (![0, 0] : Fin 2 → Nat) = fun _ => 0 := funext fun a => by fin_cases a <;> rfl
theorem specB_hz3 : (![0, 0, 0] : Fin 3 → Nat) = fun _ => 0 := funext fun a => by fin_cases a <;> rfl

/-- Contents whose last store went through the whole-shape rectangle at zero offsets read as that store's payload,
    whatever was stored before and whatever the buffer held. -/
theorem specB_read_writes_cons_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- The slab offset of a grid point is its key tile: a word made of a number below 2 is that number. -/
theorem specB_off2_eq (i : grid0.Coords) : k0_off2 i = ![(kvC i).val, 0, 0] := by
  have h2 : (i 2).val < 2 := (i 2).isLt
  unfold k0_off2 kvC
  dsimp only [Scalar.indexCast]
  rw [BitVec.toNat_ofNat, Nat.mod_eq_of_lt (by omega)]

/-- A load of one slab of a cache reads the cache's slice at that key tile. -/
theorem specB_ld_slab (i : grid0.Coords) (X : Vec F S2x2048x256 .bf16) (inb : ∀ a, k0_off2 i a + S1x2048x256.size a ≤ S2x2048x256.size a) :
    View.ld X (Rect.unit (s := S2x2048x256) (k0_off2 i) S1x2048x256.size inb) = sl (kvC i) X := by
  have e0 : k0_off2 i 0 = (kvC i).val := by rw [specB_off2_eq]; rfl
  have e1 : k0_off2 i 1 = 0 := by rw [specB_off2_eq]; rfl
  have e2 : k0_off2 i 2 = 0 := by rw [specB_off2_eq]; rfl
  funext y
  show X _ = X _
  congr 1
  funext a
  apply Fin.ext
  have h0 : (y 0).val = 0 := by have : (y 0).val < 1 := (y 0).isLt; omega
  match a with
  | ⟨0, _⟩ => show k0_off2 i 0 + 1 * (y 0).val = (kvC i).val; rw [e0, h0]; omega
  | ⟨1, _⟩ => show k0_off2 i 1 + 1 * (y 1).val = (y 1).val; rw [e1]; omega
  | ⟨2, _⟩ => show k0_off2 i 2 + 1 * (y 2).val = (y 2).val; rw [e2]; omega

/-- The query projection's buffer after the run: the projection of this query tile. -/
theorem specB_LS0 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg13.view.read (Elt F) (arg13.view.writes (Elt F) (harg13.unread xs0) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).1) = k0_pay5 x0 x3 x4 := by
  unfold kernelRun_B
  dsimp only
  sl_unfold_run_names
  rw [specB_read_writes_cons_unit_zero (S := S1024x256) _ _ specB_hz2]
  simp only [View.readAt_eq_ld, harg3.read_unread, harg5.read_unread, harg6.read_unread, harg7.read_unread, harg17.read_unread, harg18.read_unread, View.ld_unit_zero (S := S1x1024x256) specB_hz3, View.ld_unit_zero (S := S256x256) specB_hz2, View.ld_unit_zero (S := S1x256) specB_hz2, View.ld_unit_zero (S := S1x1x2048) specB_hz3, View.readCov_unit_zero (S := S1024x256) _ specB_hz2, View.readCov_unit_zero (S := S1024x1) _ specB_hz2]

/-- The accumulator after the run: reset, then this key tile absorbed. -/
theorem specB_LS1 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg14.view.read (Elt F) (arg14.view.writes (Elt F) (harg14.unread xs1) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.1) = accNext (sl (kvC i) xs5) (sl (kvC i) xs4) (k0_pay5 x0 x3 x4) x2 k0_pay6 k0_pay8 := by
  unfold kernelRun_B
  dsimp only
  sl_unfold_run_names
  rw [specB_read_writes_cons_unit_zero (S := S1024x256) _ _ specB_hz2]
  unfold accNext
  simp only [View.readAt_eq_ld, harg3.read_unread, harg5.read_unread, harg6.read_unread, harg7.read_unread, harg17.read_unread, harg18.read_unread, View.ld_unit_zero (S := S1x1024x256) specB_hz3, View.ld_unit_zero (S := S256x256) specB_hz2, View.ld_unit_zero (S := S1x256) specB_hz2, View.ld_unit_zero (S := S1x1x2048) specB_hz3, View.readCov_unit_zero (S := S1024x256) _ specB_hz2, View.readCov_unit_zero (S := S1024x1) _ specB_hz2]
  rw [← specB_ld_slab i xs5 (k0_off2_inb i), ← specB_ld_slab i xs4 (k0_off2_inb i)]

/-- The running maximum after the run: reset, then this key tile absorbed. -/
theorem specB_LS2 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg15.view.read (Elt F) (arg15.view.writes (Elt F) (harg15.unread xs2) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.1) = mNext (sl (kvC i) xs4) (k0_pay5 x0 x3 x4) x2 k0_pay6 := by
  unfold kernelRun_B
  dsimp only
  sl_unfold_run_names
  rw [specB_read_writes_cons_unit_zero (S := S1024x1) _ _ specB_hz2]
  unfold mNext
  simp only [View.readAt_eq_ld, harg3.read_unread, harg5.read_unread, harg6.read_unread, harg7.read_unread, harg17.read_unread, harg18.read_unread, View.ld_unit_zero (S := S1x1024x256) specB_hz3, View.ld_unit_zero (S := S256x256) specB_hz2, View.ld_unit_zero (S := S1x256) specB_hz2, View.ld_unit_zero (S := S1x1x2048) specB_hz3, View.readCov_unit_zero (S := S1024x256) _ specB_hz2, View.readCov_unit_zero (S := S1024x1) _ specB_hz2]
  rw [← specB_ld_slab i xs4 (k0_off2_inb i)]

/-- The running denominator after the run: reset, then this key tile absorbed. -/
theorem specB_LS3 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg16.view.read (Elt F) (arg16.view.writes (Elt F) (harg16.unread xs3) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.1) = lNext (sl (kvC i) xs4) (k0_pay5 x0 x3 x4) x2 k0_pay6 k0_pay7 := by
  unfold kernelRun_B
  dsimp only
  sl_unfold_run_names
  rw [specB_read_writes_cons_unit_zero (S := S1024x1) _ _ specB_hz2]
  unfold lNext
  simp only [View.readAt_eq_ld, harg3.read_unread, harg5.read_unread, harg6.read_unread, harg7.read_unread, harg17.read_unread, harg18.read_unread, View.ld_unit_zero (S := S1x1024x256) specB_hz3, View.ld_unit_zero (S := S256x256) specB_hz2, View.ld_unit_zero (S := S1x256) specB_hz2, View.ld_unit_zero (S := S1x1x2048) specB_hz3, View.readCov_unit_zero (S := S1024x256) _ specB_hz2, View.readCov_unit_zero (S := S1024x1) _ specB_hz2]
  rw [← specB_ld_slab i xs4 (k0_off2_inb i)]

/-- The key cache is only read: it comes back as it was. -/
theorem specB_LS4 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg17.view.read (Elt F) (arg17.view.writes (Elt F) (harg17.unread xs4) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1) = xs4 := by
  unfold kernelRun_B
  dsimp only
  exact harg17.read_unread xs4

/-- The value cache is only read: it comes back as it was. -/
theorem specB_LS5 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg18.view.read (Elt F) (arg18.view.writes (Elt F) (harg18.unread xs5) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1) = xs5 := by
  unfold kernelRun_B
  dsimp only
  exact harg18.read_unread xs5

/-- The body's run in case B with every buffer's contents after it named. -/
theorem run_B_spec (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare (k0_pay5 x0 x3 x4) ∗ owns (c : Thread nD τ) arg14 fullShare (accNext (sl (kvC i) xs5) (sl (kvC i) xs4) (k0_pay5 x0 x3 x4) x2 k0_pay6 k0_pay8) ∗ owns (c : Thread nD τ) arg15 fullShare (mNext (sl (kvC i) xs4) (k0_pay5 x0 x3 x4) x2 k0_pay6) ∗ owns (c : Thread nD τ) arg16 fullShare (lNext (sl (kvC i) xs4) (k0_pay5 x0 x3 x4) x2 k0_pay6 k0_pay7) ∗ owns (c : Thread nD τ) arg17 fullShare xs4 ∗ owns (c : Thread nD τ) arg18 fullShare xs5) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  intro E K
  iintro ⟨H0, H1, H2, H3, H4, H5, H6, H7, H8, H9, HS0, HS1, HS2, HS3, HS4, HS5, Hk⟩
  iapply ((kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]
  · unfold owns; iexists _; isplitr; swap; iexact HS0
    ipureintro; exact specB_LS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS1]
  · unfold owns; iexists _; isplitr; swap; iexact HS1
    ipureintro; exact specB_LS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS2]
  · unfold owns; iexists _; isplitr; swap; iexact HS2
    ipureintro; exact specB_LS2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS3]
  · unfold owns; iexists _; isplitr; swap; iexact HS3
    ipureintro; exact specB_LS3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS4]
  · unfold owns; iexists _; isplitr; swap; iexact HS4
    ipureintro; exact specB_LS4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  · unfold owns; iexists _; isplitr; swap; iexact HS5
    ipureintro; exact specB_LS5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5

end Cert.Kernel.Body

end
-- ==== Proof.KWRunC.lean ====
/-
  The attention body run in case C: the last key tile, the first query tile.
  On whole memrefs — the nine inputs at their contents, the output and the six scratch buffers at given contents —
  the body runs to the end and hands back the inputs as they were, the output with its store written, and each scratch buffer
  with the stores it received written over what it held; those stores, as pieces, are the witness the run finds.
-/
import proofs.«409618_j42356967473584_3_alg».proof.Proof.KWShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    Σ' (L9 : List (View.Piece (Elt F) S1x1024x256 .f32)) (LS0 : List (View.Piece (Elt F) S1024x256 .bf16)) (LS1 : List (View.Piece (Elt F) S1024x256 .f32)) (LS2 : List (View.Piece (Elt F) S1024x1 .f32)) (LS3 : List (View.Piece (Elt F) S1024x1 .f32)) (LS4 : List (View.Piece (Elt F) S2x2048x256 .bf16)), { LS5 : List (View.Piece (Elt F) S2x2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (arg12.view.loc (c : Thread nD τ) ↦[arg12.view.set]{fullShare} arg12.view.writes (Elt F) (harg12.unread xi9) L9) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3) ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], ?_, ?_, ?_, ?_, ?_, fun E K => ?run⟩
  case run =>
    simp only [cc0__gated_attention_kernel_eq_skeleton]; unfold cc0__gated_attention_kernel_skel
    simp only [k0_part1_eq_skeleton]
    try simp only [View.writes_nil]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexact H9
    isplitl [HS0]; · iexact HS0
    isplitl [HS1]; · iexact HS1
    isplitl [HS2]; · iexact HS2
    isplitl [HS3]; · iexact HS3
    isplitl [HS4]; · iexact HS4
    iexact HS5

end Cert.Kernel.Body

end
-- ==== Proof.KWSpecC.lean ====
/-
  The attention body in case C — the last key tile of the first query tile: this key tile's slab of each cache is written and used, the running state absorbs it, and the output block is the gate of the normalised accumulator — with every buffer's contents after the run named:
  the inputs as they were; the query projection q; the running maximum, denominator and accumulator after absorbing this
  key tile (mNext, lNext, accNext of the projected keys k and the values v of the tile); the caches slab by slab.
-/
import proofs.«409618_j42356967473584_3_alg».proof.Proof.KWRunC
import proofs.«409618_j42356967473584_3_alg».proof.Proof.KWCache
import Idealize.ShloMosaic.Lib.Pipeline.Value
import Idealize.ShloMosaic.Lib.WritesUnit
import Idealize.ShloMosaic.Lib.Exec.Geometry

set_option maxRecDepth 16384

noncomputable section

namespace Cert.Kernel.Body

open Cert.Kernel Cert.Kernel.Gen Cert.Kernel.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces the run found leave in each buffer -/

namespace SpecC

section General

variable {sg : RefSig} {κ : Kind} {sp : Space} {S : Shape} {e : EltTy} {Val : EltTy → Type}

/-- One store through the whole shape leaves its payload, whatever the buffer held. -/
theorem read_writes_unit_zero (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  subst h; exact View.read_writes_whole v f w

/-- A load through the rectangle the one store was made through reads the stored payload. -/
theorem readCov_unit_same [∀ e, Nonempty (Val e)] (v : View sg κ sp S e) {off size : Fin S.rank → Nat}
    (inb inb' : ∀ a, off a + size a ≤ S.size a) (w : (Rect.unit off size inb).shape.Idx → Val e) :
    v.readCov [(⟨Rect.unit off size inb, w⟩ : View.Piece Val S e)] (Rect.unit off size inb').toLoadRect = w := by
  funext j
  exact View.read_writes_cons_emb v v.junk (Rect.unit off size inb) w [] j

/-- After one store of a slab into a two-slab cache, the stored slab reads the payload. -/
theorem cache_hit (v : View sg κ sp S2x2048x256 e) (f : v.ty.Contents Val) (kv : Fin 2) {off : Fin 3 → Nat}
    (hoff : off = ![kv.val, 0, 0]) (inb : ∀ a, off a + S1x2048x256.size a ≤ S2x2048x256.size a)
    (w : (Rect.unit (s := S2x2048x256) off S1x2048x256.size inb).shape.Idx → Val e) (y : S1x2048x256.Idx) :
    v.read Val (v.writes Val f [(⟨Rect.unit (s := S2x2048x256) off S1x2048x256.size inb, w⟩ : View.Piece Val S2x2048x256 e)])
      (ValueIdx.ix3 kv (y 1) (y 2)) = w y := by
  refine View.read_writes_cons_unit_of_mem v f inb w [] (ValueIdx.ix3 kv (y 1) (y 2)) y hoff ?_
  intro a
  fin_cases a
  · show kv.val = kv.val + (y 0).val
    have h0 : (y 0).val < 1 := (y 0).isLt
    omega
  · show (y 1).val = 0 + (y 1).val
    omega
  · show (y 2).val = 0 + (y 2).val
    omega

/-- and the other slab reads what the cache held. -/
theorem cache_miss (v : View sg κ sp S2x2048x256 e) (f : v.ty.Contents Val) (kv kv' : Fin 2) (hne : kv' ≠ kv)
    {off : Fin 3 → Nat} (hoff : off = ![kv.val, 0, 0]) (inb : ∀ a, off a + S1x2048x256.size a ≤ S2x2048x256.size a)
    (w : (Rect.unit (s := S2x2048x256) off S1x2048x256.size inb).shape.Idx → Val e) (y : S1x2048x256.Idx) :
    v.read Val (v.writes Val f [(⟨Rect.unit (s := S2x2048x256) off S1x2048x256.size inb, w⟩ : View.Piece Val S2x2048x256 e)])
      (ValueIdx.ix3 kv' (y 1) (y 2)) = v.read Val f (ValueIdx.ix3 kv' (y 1) (y 2)) := by
  refine View.read_writes_cons_unit_of_not_mem v f inb w [] (ValueIdx.ix3 kv' (y 1) (y 2)) hoff 0 ?_
  have h : kv'.val ≠ kv.val := fun h => hne (Fin.ext h)
  show kv'.val < kv.val ∨ kv.val + 1 ≤ kv'.val
  omega

end General

theorem hz2 : (![0, 0] : Fin 2 → Nat) = fun _ => 0 := funext fun a => by fin_cases a <;> rfl
theorem hz3 : (![0, 0, 0] : Fin 3 → Nat) = fun _ => 0 := funext fun a => by fin_cases a <;> rfl

/-- The slab the body stores and loads is the key tile's. -/
theorem off1_eq (i : grid0.Coords) : k0_off1 i = ![(kvC i).val, 0, 0] := by
  have h : (i 2).val < 2 := (i 2).isLt
  unfold k0_off1 kvC
  simp only [Scalar.indexCast, BitVec.toNat_ofNat]
  rw [Nat.mod_eq_of_lt (by omega)]

/-- The query projection is left as it was. -/
theorem read_LS0 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg13.view.read (Elt F) (arg13.view.writes (Elt F) (harg13.unread xs0) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.1) = xs0 := by
  unfold kernelRun_C
  dsimp only
  exact harg13.read_unread xs0

/-- The running maximum the body leaves. -/
theorem read_LS2 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg15.view.read (Elt F) (arg15.view.writes (Elt F) (harg15.unread xs2) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.1) = mNext (k0_pay11 x1 x5 x6) xs0 x2 xs2 := by
  unfold kernelRun_C
  dsimp only
  sl_unfold_words
  rw [read_writes_unit_zero (S := S1024x1) _ _ hz2]
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]
  generalize hA : View.readCov (Val := Elt F) arg17.view _ _ = A
  obtain rfl : A = k0_pay11 x1 x5 x6 := hA.symm.trans (readCov_unit_same (S := S2x2048x256) arg17.view _ _ _)
  rfl

/-- The running denominator the body leaves. -/
theorem read_LS3 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg16.view.read (Elt F) (arg16.view.writes (Elt F) (harg16.unread xs3) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1) = lNext (k0_pay11 x1 x5 x6) xs0 x2 xs2 xs3 := by
  unfold kernelRun_C
  dsimp only
  sl_unfold_words
  rw [read_writes_unit_zero (S := S1024x1) _ _ hz2]
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]
  generalize hA : View.readCov (Val := Elt F) arg17.view _ _ = A
  obtain rfl : A = k0_pay11 x1 x5 x6 := hA.symm.trans (readCov_unit_same (S := S2x2048x256) arg17.view _ _ _)
  rfl

/-- The running accumulator the body leaves. -/
theorem read_LS1 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg14.view.read (Elt F) (arg14.view.writes (Elt F) (harg14.unread xs1) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.1) = accNext (k0_pay10 x1) (k0_pay11 x1 x5 x6) xs0 x2 xs2 xs1 := by
  unfold kernelRun_C
  dsimp only
  sl_unfold_words
  rw [read_writes_unit_zero (S := S1024x256) _ _ hz2]
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]
  generalize hA : View.readCov (Val := Elt F) arg17.view _ _ = A
  obtain rfl : A = k0_pay11 x1 x5 x6 := hA.symm.trans (readCov_unit_same (S := S2x2048x256) arg17.view _ _ _)
  generalize hB : View.readCov (Val := Elt F) arg18.view _ _ = B
  obtain rfl : B = k0_pay10 x1 := hB.symm.trans (readCov_unit_same (S := S2x2048x256) arg18.view _ _ _)
  rfl

/-- The output block the body leaves: the gate of the accumulator over the denominator, both as just updated. -/
theorem read_L9 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg12.view.read (Elt F) (arg12.view.writes (Elt F) (harg12.unread xi9) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).1) = k0_pay4 (accNext (k0_pay10 x1) (k0_pay11 x1 x5 x6) xs0 x2 xs2 xs1) (lNext (k0_pay11 x1 x5 x6) xs0 x2 xs2 xs3) x0 x7 x8 := by
  unfold kernelRun_C
  dsimp only
  sl_unfold_words
  rw [read_writes_unit_zero (S := S1x1024x256) _ _ hz3]
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]
  generalize hA : View.readCov (Val := Elt F) arg17.view _ _ = A
  obtain rfl : A = k0_pay11 x1 x5 x6 := hA.symm.trans (readCov_unit_same (S := S2x2048x256) arg17.view _ _ _)
  generalize hB : View.readCov (Val := Elt F) arg18.view _ _ = B
  obtain rfl : B = k0_pay10 x1 := hB.symm.trans (readCov_unit_same (S := S2x2048x256) arg18.view _ _ _)
  rfl

/-- The key tile's slab of the key cache holds what the body stored there. -/
theorem hit_LS4 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    sl (kvC i) (arg17.view.read (Elt F) (arg17.view.writes (Elt F) (harg17.unread xs4) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1)) = k0_pay11 x1 x5 x6 := by
  unfold kernelRun_C
  dsimp only
  sl_unfold_words
  funext y
  try unfold sl
  refine (cache_hit arg17.view _ (kvC i) (off1_eq i) _ _ y).trans ?_
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]

/-- The other slab of the key cache holds what it held. -/
theorem miss_LS4 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) (kv : Fin 2) (hkv : kv ≠ kvC i) :
    sl kv (arg17.view.read (Elt F) (arg17.view.writes (Elt F) (harg17.unread xs4) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1)) = sl kv xs4 := by
  unfold kernelRun_C
  dsimp only
  sl_unfold_words
  funext y
  try unfold sl
  refine (cache_miss arg17.view _ (kvC i) kv hkv (off1_eq i) _ _ y).trans ?_
  rw [harg17.read_unread]

/-- The key tile's slab of the value cache holds what the body stored there. -/
theorem hit_LS5 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    sl (kvC i) (arg18.view.read (Elt F) (arg18.view.writes (Elt F) (harg18.unread xs5) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.1)) = k0_pay10 x1 := by
  unfold kernelRun_C
  dsimp only
  sl_unfold_words
  funext y
  try unfold sl
  refine (cache_hit arg18.view _ (kvC i) (off1_eq i) _ _ y).trans ?_
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]

/-- The other slab of the value cache holds what it held. -/
theorem miss_LS5 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) (kv : Fin 2) (hkv : kv ≠ kvC i) :
    sl kv (arg18.view.read (Elt F) (arg18.view.writes (Elt F) (harg18.unread xs5) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.1)) = sl kv xs5 := by
  unfold kernelRun_C
  dsimp only
  sl_unfold_words
  funext y
  try unfold sl
  refine (cache_miss arg18.view _ (kvC i) kv hkv (off1_eq i) _ _ y).trans ?_
  rw [harg18.read_unread]

end SpecC

/-- The body in case C, with every buffer's contents after the run named. -/
theorem run_C_spec (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    ∃ (S4' S5' : Vec F S2x2048x256 .bf16),
      (sl (kvC i) S4' = (k0_pay11 x1 x5 x6) ∧ ∀ kv : Fin 2, kv ≠ kvC i → sl kv S4' = sl kv xs4)
      ∧ (sl (kvC i) S5' = (k0_pay10 x1) ∧ ∀ kv : Fin 2, kv ≠ kvC i → sl kv S5' = sl kv xs5)
      ∧ ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay4 (accNext (k0_pay10 x1) (k0_pay11 x1 x5 x6) xs0 x2 xs2 xs1) (lNext (k0_pay11 x1 x5 x6) xs0 x2 xs2 xs3) x0 x7 x8) ∗ owns (c : Thread nD τ) arg13 fullShare xs0 ∗ owns (c : Thread nD τ) arg14 fullShare (accNext (k0_pay10 x1) (k0_pay11 x1 x5 x6) xs0 x2 xs2 xs1) ∗ owns (c : Thread nD τ) arg15 fullShare (mNext (k0_pay11 x1 x5 x6) xs0 x2 xs2) ∗ owns (c : Thread nD τ) arg16 fullShare (lNext (k0_pay11 x1 x5 x6) xs0 x2 xs2 xs3) ∗ owns (c : Thread nD τ) arg17 fullShare S4' ∗ owns (c : Thread nD τ) arg18 fullShare S5') -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  refine ⟨arg17.view.read (Elt F) (arg17.view.writes (Elt F) (harg17.unread xs4) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1),
    arg18.view.read (Elt F) (arg18.view.writes (Elt F) (harg18.unread xs5) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.1),
    ⟨SpecC.hit_LS4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5, fun kv hkv => SpecC.miss_LS4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5 kv hkv⟩,
    ⟨SpecC.hit_LS5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5, fun kv hkv => SpecC.miss_LS5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5 kv hkv⟩, fun E K => ?_⟩
  iintro ⟨H0, H1, H2, H3, H4, H5, H6, H7, H8, H9, HS0, HS1, HS2, HS3, HS4, HS5, Hk⟩
  iapply ((kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact SpecC.read_L9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS0]
  · unfold owns; iexists _; isplitr; swap; · iexact HS0
    ipureintro; exact SpecC.read_LS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS1]
  · unfold owns; iexists _; isplitr; swap; · iexact HS1
    ipureintro; exact SpecC.read_LS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS2]
  · unfold owns; iexists _; isplitr; swap; · iexact HS2
    ipureintro; exact SpecC.read_LS2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS3]
  · unfold owns; iexists _; isplitr; swap; · iexact HS3
    ipureintro; exact SpecC.read_LS3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS4]
  · unfold owns; iexists _; isplitr; swap; · iexact HS4
    ipureintro; exact rfl
  unfold owns; iexists _; isplitr; swap; · iexact HS5
  ipureintro; exact rfl

end Cert.Kernel.Body

end
-- ==== Proof.KWRunD.lean ====
/-
  The attention body run in case D: the last key tile, a later query tile.
  On whole memrefs — the nine inputs at their contents, the output and the six scratch buffers at given contents —
  the body runs to the end and hands back the inputs as they were, the output with its store written, and each scratch buffer
  with the stores it received written over what it held; those stores, as pieces, are the witness the run finds.
-/
import proofs.«409618_j42356967473584_3_alg».proof.Proof.KWShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_D (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    Σ' (L9 : List (View.Piece (Elt F) S1x1024x256 .f32)) (LS0 : List (View.Piece (Elt F) S1024x256 .bf16)) (LS1 : List (View.Piece (Elt F) S1024x256 .f32)) (LS2 : List (View.Piece (Elt F) S1024x1 .f32)) (LS3 : List (View.Piece (Elt F) S1024x1 .f32)) (LS4 : List (View.Piece (Elt F) S2x2048x256 .bf16)), { LS5 : List (View.Piece (Elt F) S2x2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (arg12.view.loc (c : Thread nD τ) ↦[arg12.view.set]{fullShare} arg12.view.writes (Elt F) (harg12.unread xi9) L9) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3) ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], ?_, ?_, ?_, [], [], fun E K => ?run⟩
  case run =>
    simp only [cc0__gated_attention_kernel_eq_skeleton]; unfold cc0__gated_attention_kernel_skel
    simp only [k0_part1_eq_skeleton]
    try simp only [View.writes_nil]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexact H9
    isplitl [HS0]; · iexact HS0
    isplitl [HS1]; · iexact HS1
    isplitl [HS2]; · iexact HS2
    isplitl [HS3]; · iexact HS3
    isplitl [HS4]; · iexact HS4
    iexact HS5

end Cert.Kernel.Body

end
-- ==== Proof.KWSpecD.lean ====
/-
  The attention body in case D — the last key tile of a later query tile: this key tile's slabs are read from the caches, the running state absorbs it, and the output block is the gate of the normalised accumulator — with every buffer's contents after the run named:
  the inputs as they were; the query projection q; the running maximum, denominator and accumulator after absorbing this
  key tile (mNext, lNext, accNext of the projected keys k and the values v of the tile); the caches slab by slab.
-/
import proofs.«409618_j42356967473584_3_alg».proof.Proof.KWRunD
import proofs.«409618_j42356967473584_3_alg».proof.Proof.KWCache
import Idealize.ShloMosaic.Lib.Pipeline.Value

set_option maxRecDepth 16384

noncomputable section

namespace Cert.Kernel.Body

open Cert.Kernel Cert.Kernel.Gen Cert.Kernel.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a whole buffer and a cache slab -/

theorem runD_hz2 : (![0, 0] : Fin 2 → Nat) = fun _ => 0 := funext fun a => by fin_cases a <;> rfl
theorem runD_hz3 : (![0, 0, 0] : Fin 3 → Nat) = fun _ => 0 := funext fun a => by fin_cases a <;> rfl

/-- One store through the whole-shape rectangle at zero offsets leaves its payload, whatever the buffer held. -/
theorem runD_read_unit {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- The first offset of the slab load is the key tile: the word of a number below 2 is the number. -/
theorem runD_off2 (i : grid0.Coords) : k0_off2 i 0 = (kvC i).val := by
  have h : (i 2).val < 2 := (i 2).isLt
  show (BitVec.ofNat 32 (i 2).val).toNat = (i 2).val
  rw [BitVec.toNat_ofNat]; exact Nat.mod_eq_of_lt (by omega)

/-- A load of one slab of a cache, at the key tile's offset, reads the slab. -/
theorem runD_ld_slab (i : grid0.Coords) (inb : ∀ a, k0_off2 i a + S1x2048x256.size a ≤ S2x2048x256.size a)
    (d : Vec F S2x2048x256 .bf16) :
    View.ld d (Rect.unit (s := S2x2048x256) (k0_off2 i) S1x2048x256.size inb) = sl (kvC i) d := by
  funext y
  show d _ = d _
  congr 1
  funext a
  apply Fin.ext
  match a with
  | ⟨0, _⟩ =>
    have h0 : (y 0).val < 1 := (y 0).isLt
    show k0_off2 i 0 + 1 * (y 0).val = (kvC i).val
    rw [runD_off2]; omega
  | ⟨1, _⟩ => show 0 + 1 * (y 1).val = (y 1).val; omega
  | ⟨2, _⟩ => show 0 + 1 * (y 2).val = (y 2).val; omega

/-! ## What the run leaves in each written buffer -/

/-- The denominator buffer ends at the denominator after this key tile. -/
theorem runD_l (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg16.view.read (Elt F) (arg16.view.writes (Elt F) (harg16.unread xs3) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1)
      = lNext (sl (kvC i) xs4) xs0 x2 xs2 xs3 := by
  unfold kernelRun_D
  dsimp only
  sl_unfold_run_names
  rw [runD_read_unit (S := S1024x1) _ _ runD_hz2]
  simp only [View.readCov_unit_zero (S := S1024x256) _ runD_hz2, View.readCov_unit_zero (S := S1024x1) _ runD_hz2, View.readAt_eq_ld, harg3.read_unread, harg5.read_unread, harg10.read_unread, harg11.read_unread, harg13.read_unread, harg14.read_unread, harg15.read_unread, harg16.read_unread, harg17.read_unread, harg18.read_unread, View.ld_unit_zero (S := S1x1024x256) runD_hz3, View.ld_unit_zero (S := S1x1x2048) runD_hz3, View.ld_unit_zero (S := S1024x256) runD_hz2, View.ld_unit_zero (S := S1024x1) runD_hz2, View.ld_unit_zero (S := S512x256) runD_hz2, View.ld_unit_zero (S := S1x256) runD_hz2, lNext, mNext, accNext]
  rw [runD_ld_slab i _ xs4]

/-- The maximum buffer ends at the maximum after this key tile. -/
theorem runD_m (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg15.view.read (Elt F) (arg15.view.writes (Elt F) (harg15.unread xs2) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.1)
      = mNext (sl (kvC i) xs4) xs0 x2 xs2 := by
  unfold kernelRun_D
  dsimp only
  sl_unfold_run_names
  rw [runD_read_unit (S := S1024x1) _ _ runD_hz2]
  simp only [View.readCov_unit_zero (S := S1024x256) _ runD_hz2, View.readCov_unit_zero (S := S1024x1) _ runD_hz2, View.readAt_eq_ld, harg3.read_unread, harg5.read_unread, harg10.read_unread, harg11.read_unread, harg13.read_unread, harg14.read_unread, harg15.read_unread, harg16.read_unread, harg17.read_unread, harg18.read_unread, View.ld_unit_zero (S := S1x1024x256) runD_hz3, View.ld_unit_zero (S := S1x1x2048) runD_hz3, View.ld_unit_zero (S := S1024x256) runD_hz2, View.ld_unit_zero (S := S1024x1) runD_hz2, View.ld_unit_zero (S := S512x256) runD_hz2, View.ld_unit_zero (S := S1x256) runD_hz2, lNext, mNext, accNext]
  rw [runD_ld_slab i _ xs4]

/-- The accumulator buffer ends at the accumulator after this key tile. -/
theorem runD_acc (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg14.view.read (Elt F) (arg14.view.writes (Elt F) (harg14.unread xs1) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.1)
      = accNext (sl (kvC i) xs5) (sl (kvC i) xs4) xs0 x2 xs2 xs1 := by
  unfold kernelRun_D
  dsimp only
  sl_unfold_run_names
  rw [runD_read_unit (S := S1024x256) _ _ runD_hz2]
  simp only [View.readCov_unit_zero (S := S1024x256) _ runD_hz2, View.readCov_unit_zero (S := S1024x1) _ runD_hz2, View.readAt_eq_ld, harg3.read_unread, harg5.read_unread, harg10.read_unread, harg11.read_unread, harg13.read_unread, harg14.read_unread, harg15.read_unread, harg16.read_unread, harg17.read_unread, harg18.read_unread, View.ld_unit_zero (S := S1x1024x256) runD_hz3, View.ld_unit_zero (S := S1x1x2048) runD_hz3, View.ld_unit_zero (S := S1024x256) runD_hz2, View.ld_unit_zero (S := S1024x1) runD_hz2, View.ld_unit_zero (S := S512x256) runD_hz2, View.ld_unit_zero (S := S1x256) runD_hz2, lNext, mNext, accNext]
  rw [runD_ld_slab i _ xs4, runD_ld_slab i _ xs5]

/-- The output block ends at the gate of the normalised accumulator. -/
theorem runD_out (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg12.view.read (Elt F) (arg12.view.writes (Elt F) (harg12.unread xi9) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).1)
      = k0_pay4 (accNext (sl (kvC i) xs5) (sl (kvC i) xs4) xs0 x2 xs2 xs1) (lNext (sl (kvC i) xs4) xs0 x2 xs2 xs3) x0 x7 x8 := by
  unfold kernelRun_D
  dsimp only
  sl_unfold_run_names
  rw [runD_read_unit (S := S1x1024x256) _ _ runD_hz3]
  simp only [View.readCov_unit_zero (S := S1024x256) _ runD_hz2, View.readCov_unit_zero (S := S1024x1) _ runD_hz2, View.readAt_eq_ld, harg3.read_unread, harg5.read_unread, harg10.read_unread, harg11.read_unread, harg13.read_unread, harg14.read_unread, harg15.read_unread, harg16.read_unread, harg17.read_unread, harg18.read_unread, View.ld_unit_zero (S := S1x1024x256) runD_hz3, View.ld_unit_zero (S := S1x1x2048) runD_hz3, View.ld_unit_zero (S := S1024x256) runD_hz2, View.ld_unit_zero (S := S1024x1) runD_hz2, View.ld_unit_zero (S := S512x256) runD_hz2, View.ld_unit_zero (S := S1x256) runD_hz2, lNext, mNext, accNext]
  rw [runD_ld_slab i _ xs4, runD_ld_slab i _ xs5]

/-- The query projection's buffer received no store. -/
theorem runD_q (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg13.view.read (Elt F) (arg13.view.writes (Elt F) (harg13.unread xs0) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.1) = xs0 := by
  unfold kernelRun_D
  dsimp only
  rw [View.writes_nil]; exact harg13.read_unread xs0

/-- The key cache received no store. -/
theorem runD_kc (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg17.view.read (Elt F) (arg17.view.writes (Elt F) (harg17.unread xs4) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1) = xs4 := by
  unfold kernelRun_D
  dsimp only
  rw [View.writes_nil]; exact harg17.read_unread xs4

/-- The value cache received no store. -/
theorem runD_vc (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg18.view.read (Elt F) (arg18.view.writes (Elt F) (harg18.unread xs5) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.1) = xs5 := by
  unfold kernelRun_D
  dsimp only
  rw [View.writes_nil]; exact harg18.read_unread xs5

theorem run_D_spec (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay4 (accNext (sl (kvC i) xs5) (sl (kvC i) xs4) xs0 x2 xs2 xs1) (lNext (sl (kvC i) xs4) xs0 x2 xs2 xs3) x0 x7 x8) ∗ owns (c : Thread nD τ) arg13 fullShare xs0 ∗ owns (c : Thread nD τ) arg14 fullShare (accNext (sl (kvC i) xs5) (sl (kvC i) xs4) xs0 x2 xs2 xs1) ∗ owns (c : Thread nD τ) arg15 fullShare (mNext (sl (kvC i) xs4) xs0 x2 xs2) ∗ owns (c : Thread nD τ) arg16 fullShare (lNext (sl (kvC i) xs4) xs0 x2 xs2 xs3) ∗ owns (c : Thread nD τ) arg17 fullShare xs4 ∗ owns (c : Thread nD τ) arg18 fullShare xs5) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  intro E K
  iintro ⟨H0, H1, H2, H3, H4, H5, H6, H7, H8, H9, HS0, HS1, HS2, HS3, HS4, HS5, Hk⟩
  iapply ((kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨G0, G1, G2, G3, G4, G5, G6, G7, G8, G9, GS0, GS1, GS2, GS3, GS4, GS5⟩
  iapply Hk
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]
  · unfold owns; iexists _; isplitr
    swap; · iexact G9
    ipureintro; exact runD_out c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS0]
  · unfold owns; iexists _; isplitr
    swap; · iexact GS0
    ipureintro; exact runD_q c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS1]
  · unfold owns; iexists _; isplitr
    swap; · iexact GS1
    ipureintro; exact runD_acc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS2]
  · unfold owns; iexists _; isplitr
    swap; · iexact GS2
    ipureintro; exact runD_m c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS3]
  · unfold owns; iexists _; isplitr
    swap; · iexact GS3
    ipureintro; exact runD_l c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS4]
  · unfold owns; iexists _; isplitr
    swap; · iexact GS4
    ipureintro; exact runD_kc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  unfold owns; iexists _; isplitr
  swap; · iexact GS5
  ipureintro; exact runD_vc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5

end Cert.Kernel.Body

end
-- ==== Proof.KWObl.lean ====
/-
  The body obligation of the attention kernel at every grid point, the run and the frame.
  At a point the scratch buffers hold what the invariant says and each input window's buffer holds its block. The point's
  parity says whether it is a first or a last key tile, its position in the batch whether the query tile is the first:
  four cases, each with its run; what the run leaves satisfies the invariant at the next position, and at a last key tile
  the output window's buffer holds the tile's output block. Before the first point nothing is known of the scratch
  buffers and after the last nothing is kept, so the launch's own invariant yields the tracking one and gets it back.
-/
import proofs.«409618_j42356967473584_3_alg».proof.Proof.KWPoint
import proofs.«409618_j42356967473584_3_alg».proof.Proof.KWSpecA
import proofs.«409618_j42356967473584_3_alg».proof.Proof.KWSpecB
import proofs.«409618_j42356967473584_3_alg».proof.Proof.KWSpecC
import proofs.«409618_j42356967473584_3_alg».proof.Proof.KWSpecD

set_option maxRecDepth 16384

noncomputable section

namespace Cert.Kernel.Body

open Cert.Kernel Cert.Kernel.Gen Cert.Kernel.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Into and out of the tracking invariant -/

theorem hin (c : Dev nD) : Pipeline.ΦA spec0 c ⊢ (dats (F := F) m 0 c).Φ 0 := by
  rw [PhiA_eq]
  show _ ⊢ Phi m c 0
  unfold Phi
  iintro ⟨⟨⟨%d0, H0⟩, ⟨%d1, H1⟩, ⟨%d2, H2⟩, ⟨%d3, H3⟩, ⟨%d4, H4⟩, ⟨%d5, H5⟩⟩, Hr⟩
  isplitr [Hr]
  · iexists d0; iexists d1; iexists d2; iexists d3; iexists d4; iexists d5
    isplitr; · ipureintro; exact inv_zero m c d0 d1 d2 d3 d4 d5
    isplitl [H0]; · iexact H0
    isplitl [H1]; · iexact H1
    isplitl [H2]; · iexact H2
    isplitl [H3]; · iexact H3
    isplitl [H4]; · iexact H4
    iexact H5
  · iexact Hr

theorem hout (c : Dev nD) : (dats (F := F) m 0 c).Φ (Fin.last cfg0.N) ⊢ Pipeline.ΦA spec0 c := by
  rw [PhiA_eq]
  show Phi m c _ ⊢ _
  unfold Phi
  iintro ⟨⟨%d0, %d1, %d2, %d3, %d4, %d5, -, H0, H1, H2, H3, H4, H5⟩, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  · iexact Hr

/-! ## The body obligation at a point -/

/-- What the output window's buffer holds after the body: the tile's output block where the window is live (a last
    key tile), what it held where it is idle and not written back. -/
def out9 (c : Dev nD) (t : Fin cfg0.N) : sProp 𝕄 :=
  match cfg0.idle 9 (cfg0.grid.coords t) with
  | true =>
    match (cfg0.win 9).flush t with
    | false => iprop(∃ d, owns (c : Thread nD τ) (ms9 t) fullShare ((dats m 0 c).before 9 t d))
    | true => owns (c : Thread nD τ) (ms9 t) fullShare ((dats m 0 c).after 9 t)
  | false => owns (c : Thread nD τ) (ms9 t) fullShare ((dats m 0 c).after 9 t)

theorem out9_idle (c : Dev nD) (t : Fin cfg0.N) (h : ¬condKv1 (grid0.coords t)) :
    out9 m c t = iprop(∃ d, owns (c : Thread nD τ) (ms9 t) fullShare ((dats m 0 c).before 9 t d)) := by
  unfold out9; rw [idleAt9 t h, noFlush9 t h]
theorem out9_live (c : Dev nD) (t : Fin cfg0.N) (h : condKv1 (grid0.coords t)) :
    out9 m c t = owns (c : Thread nD τ) (ms9 t) fullShare ((dats m 0 c).after 9 t) := by
  unfold out9; rw [liveAt9 t h]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ out9 m c t)

/-- The body at any point: the scratch buffers hold what the invariant says, each input window's buffer holds its block;
    the point's parity says whether it is a first or a last key tile, its position in the batch whether the query tile is
    the first; the case's run applies, and what it leaves satisfies the invariant at the next position. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [Phi_castSucc, Phi_succ, show (dats m 0 c).owesAt () t.succ = (dats m 0 c).owesAt () t.castSucc from rfl,
    after0_0, after0_1, after0_2, after0_3, after0_4, after0_5, after0_6, after0_7, after0_8]
  have h32 := lt32 t
  have hx0 : iblk m c 0 t = XBk m c (bN t.val) (ldN t.val) := (iblk0_eq m c t).trans (by rw [bOf_eq, ldOf_eq])
  have hx3 : iblk m c 3 t = Wi m c := iblk3_eq m c t
  have hx4 : iblk m c 4 t = Bi m c := iblk4_eq m c t
  have hx5 : iblk m c 5 t = Wm m c := iblk5_eq m c t
  have hx6 : iblk m c 6 t = Bm m c := iblk6_eq m c t
  have hx7 : iblk m c 7 t = W2 m c := iblk7_eq m c t
  have hx8 : iblk m c 8 t = B2 m c := iblk8_eq m c t
  by_cases h1 : condKv0 (grid0.coords t)
  · -- a first key tile
    have hk : t.val % 2 = 0 := (hcondKv0 t).mp h1
    have h3 : ¬condKv1 (grid0.coords t) := fun h => by have := (hcondKv1 t).mp h; omega
    have hk0 : kvOf t = 0 := Fin.ext (show t.val % 2 = 0 from hk)
    have hkC : kvC (grid0.coords t) = 0 := (kvC_eq_kvOf t).trans hk0
    have hx1 : iblk m c 1 t = MemBk m c (bN t.val) 0 := (iblk1_eq m c t).trans (by rw [bOf_eq, hk0])
    have hx2 : iblk m c 2 t = BiasBk m c (bN t.val) 0 := (iblk2_eq m c t).trans (by rw [bOf_eq, hk0])
    rw [out9_idle m c t h3]
    unfold Phi
    iintro ⟨⟨⟨%d0, %d1, %d2, %d3, %d4, %d5, %hinv, HS0, HS1, HS2, HS3, HS4, HS5⟩, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
    by_cases h2 : condLd0 (grid0.coords t)
    · -- the first query tile: case A
      have h8 : t.val % 8 = 0 := by have := (hcondLd0 t).mp h2; omega
      obtain ⟨S4', S5', ⟨h4a, h4b⟩, ⟨h5a, h5b⟩, hrun⟩ := run_A_spec (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) h1 h2 h3 (iblk m c 0 t) (iblk m c 1 t) (iblk m c 2 t) (iblk m c 3 t) (iblk m c 4 t) (iblk m c 5 t) (iblk m c 6 t) (iblk m c 7 t) (iblk m c 8 t) ((dats m 0 c).before 9 t e9) d0 d1 d2 d3 d4 d5
      rw [hkC] at h4a h5a
      have hnext := inv_A_gen m c t.val h8 (iblk m c 0 t) (iblk m c 1 t) (iblk m c 2 t) (iblk m c 3 t) (iblk m c 4 t) (iblk m c 5 t) (iblk m c 6 t) hx0 hx1 hx2 hx3 hx4 hx5 hx6 h4a h5a
      iapply (hrun Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hr]
      · isplitr [Hr]
        · iexists _; iexists _; iexists _; iexists _; iexists _; iexists _
          isplitr
          swap
          · isplitl [HS0]; · iexact HS0
            isplitl [HS1]; · iexact HS1
            isplitl [HS2]; · iexact HS2
            isplitl [HS3]; · iexact HS3
            isplitl [HS4]; · iexact HS4
            iexact HS5
          · ipureintro
            exact hnext
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · -- a later query tile: case B
      have h8 : 2 ≤ t.val % 8 := by have := (hcondLd0 t).not.mp h2; omega
      have hrun := run_B_spec (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) h1 h2 h3 (iblk m c 0 t) (iblk m c 1 t) (iblk m c 2 t) (iblk m c 3 t) (iblk m c 4 t) (iblk m c 5 t) (iblk m c 6 t) (iblk m c 7 t) (iblk m c 8 t) ((dats m 0 c).before 9 t e9) d0 d1 d2 d3 d4 d5
      rw [hkC] at hrun
      have hnext := inv_B_gen m c t.val h8 hk hinv (iblk m c 0 t) (iblk m c 2 t) (iblk m c 3 t) (iblk m c 4 t) hx0 hx2 hx3 hx4
      iapply (hrun Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hr]
      · isplitr [Hr]
        · iexists _; iexists _; iexists _; iexists _; iexists _; iexists _
          isplitr
          swap
          · isplitl [HS0]; · iexact HS0
            isplitl [HS1]; · iexact HS1
            isplitl [HS2]; · iexact HS2
            isplitl [HS3]; · iexact HS3
            isplitl [HS4]; · iexact HS4
            iexact HS5
          · ipureintro
            exact hnext
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · -- a last key tile
    have hk : t.val % 2 = 1 := by have := (hcondKv0 t).not.mp h1; omega
    have h3 : condKv1 (grid0.coords t) := (hcondKv1 t).mpr hk
    have hk1 : kvOf t = 1 := Fin.ext (show t.val % 2 = 1 from hk)
    have hkC : kvC (grid0.coords t) = 1 := (kvC_eq_kvOf t).trans hk1
    have hx1 : iblk m c 1 t = MemBk m c (bN t.val) 1 := (iblk1_eq m c t).trans (by rw [bOf_eq, hk1])
    have hx2 : iblk m c 2 t = BiasBk m c (bN t.val) 1 := (iblk2_eq m c t).trans (by rw [bOf_eq, hk1])
    rw [out9_live m c t h3, after0_9]
    unfold Phi
    iintro ⟨⟨⟨%d0, %d1, %d2, %d3, %d4, %d5, %hinv, HS0, HS1, HS2, HS3, HS4, HS5⟩, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
    by_cases h2 : condLd0 (grid0.coords t)
    · -- the first query tile: case C
      have h8 : t.val % 8 = 1 := by have := (hcondLd0 t).mp h2; omega
      obtain ⟨S4', S5', ⟨h4a, h4b⟩, ⟨h5a, h5b⟩, hrun⟩ := run_C_spec (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) h1 h2 h3 (iblk m c 0 t) (iblk m c 1 t) (iblk m c 2 t) (iblk m c 3 t) (iblk m c 4 t) (iblk m c 5 t) (iblk m c 6 t) (iblk m c 7 t) (iblk m c 8 t) ((dats m 0 c).before 9 t e9) d0 d1 d2 d3 d4 d5
      rw [hkC] at h4a h5a
      have h40 := h4b 0 (by rw [hkC]; decide)
      have h50 := h5b 0 (by rw [hkC]; decide)
      have hgen := fun e0 e1 e2 e3 => inv_C_gen m c t.val h8 hinv (iblk m c 0 t) (iblk m c 1 t) (iblk m c 2 t) (iblk m c 5 t) (iblk m c 6 t) (iblk m c 7 t) (iblk m c 8 t) hx0 hx1 hx2 hx5 hx6 hx7 hx8 h4a h40 h5a h50 e0 e1 e2 e3
      rw [(hgen d0 d1 d2 d3).2] at hrun
      iapply (hrun Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hr]
      · isplitr [Hr]
        · iexists _; iexists _; iexists _; iexists _; iexists _; iexists _
          isplitr
          swap
          · isplitl [HS0]; · iexact HS0
            isplitl [HS1]; · iexact HS1
            isplitl [HS2]; · iexact HS2
            isplitl [HS3]; · iexact HS3
            isplitl [HS4]; · iexact HS4
            iexact HS5
          · ipureintro
            exact (hgen _ _ _ _).1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a later query tile: case D
      have h8 : 2 ≤ t.val % 8 := by have := (hcondLd0 t).not.mp h2; omega
      have hrun := run_D_spec (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) h1 h2 h3 (iblk m c 0 t) (iblk m c 1 t) (iblk m c 2 t) (iblk m c 3 t) (iblk m c 4 t) (iblk m c 5 t) (iblk m c 6 t) (iblk m c 7 t) (iblk m c 8 t) ((dats m 0 c).before 9 t e9) d0 d1 d2 d3 d4 d5
      rw [hkC] at hrun
      have hgen := fun e0 e1 e2 e3 => inv_D_gen m c t.val h8 hk hinv (iblk m c 0 t) (iblk m c 2 t) (iblk m c 7 t) (iblk m c 8 t) hx0 hx2 hx7 hx8 e0 e1 e2 e3
      rw [(hgen d0 d1 d2 d3).2] at hrun
      iapply (hrun Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hr]
      · isplitr [Hr]
        · iexists _; iexists _; iexists _; iexists _; iexists _; iexists _
          isplitr
          swap
          · isplitl [HS0]; · iexact HS0
            isplitl [HS1]; · iexact HS1
            isplitl [HS2]; · iexact HS2
            isplitl [HS3]; · iexact HS3
            isplitl [HS4]; · iexact HS4
            iexact HS5
          · ipureintro
            exact (hgen _ _ _ _).1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, every
    array of the launch at what the proof data computes, every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and leaves its nine argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.KIShared.lean ====
/-
  What the four runs of the attention body share: the three conditions the body branches on, decided over the 32 grid
  points (t = 8·b + 2·ld + kv): "first key tile" (kv = 0), "first query tile" (ld = 0), "last key tile" (kv = 1);
  where the output window is idle; the staging and scratch memrefs by name; and the launch's invariant with the six
  scratch buffers as memrefs owned at some contents.
-/
import proofs.«409618_j42356967473584_3_alg».proof.Proof.Gen.KernelIdeal.Frame
import proofs.«409618_j42356967473584_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: this is the first key tile (kv = 0). -/
abbrev condKv0 (i : grid0.Coords) : Prop := (Scalar.cmpi .ne (Scalar.extui (Scalar.cmpi .eq (BitVec.ofNat 32 (i 2).val) 0#32)) 0#32) = 1#1
theorem hcondKv0 : ∀ t : Fin cfg0.N, condKv0 (grid0.coords t) ↔ t.val % 2 = 0 :=
  (by decide +kernel : ∀ t : Fin grid0.N, condKv0 (grid0.coords t) ↔ t.val % 2 = 0)
/-- The second branch is taken: this is the first query tile (ld = 0). -/
abbrev condLd0 (i : grid0.Coords) : Prop := k0_cond2 i = 1#1
theorem hcondLd0 : ∀ t : Fin cfg0.N, condLd0 (grid0.coords t) ↔ t.val % 8 < 2 :=
  (by decide +kernel : ∀ t : Fin grid0.N, condLd0 (grid0.coords t) ↔ t.val % 8 < 2)
/-- The third branch is taken: this is the last key tile (kv = 1). -/
abbrev condKv1 (i : grid0.Coords) : Prop := k0_cond3 i = 1#1
theorem hcondKv1 : ∀ t : Fin cfg0.N, condKv1 (grid0.coords t) ↔ t.val % 2 = 1 :=
  (by decide +kernel : ∀ t : Fin grid0.N, condKv1 (grid0.coords t) ↔ t.val % 2 = 1)

/-- The nine input windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
/-- The output window is idle exactly off the last key tile, and is not written back there. -/
theorem idleAt9 : ∀ t : Fin cfg0.N, ¬condKv1 (grid0.coords t) → cfg0.idle 9 (grid0.coords t) = true := by decide +kernel
theorem noFlush9 : ∀ t : Fin cfg0.N, ¬condKv1 (grid0.coords t) → (cfg0.win 9).flush t = false := by decide +kernel
theorem liveAt9 : ∀ t : Fin cfg0.N, condKv1 (grid0.coords t) → cfg0.idle 9 (grid0.coords t) = false := by decide +kernel

/-- Each window's current staging memref at point t, as the pipeline passes it, and its wholeness. -/
abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024x256 .f32 := win0_9.stage (cfg0.slots t 9)
abbrev hs9 (t : Fin cfg0.N) : (ms9 t).IsWhole := hstage0_9 ((cfg0.slots t 9).cast nbuf0_9)
/-- The six scratch operands: whole scoped buffers of the kernel's own. -/
abbrev sc0 : Memref sig .tc .vmem S1024x256 .bf16 := Memref.whole cc0_scratch0
abbrev sc1 : Memref sig .tc .vmem S1024x256 .f32 := Memref.whole cc0_scratch1
abbrev sc2 : Memref sig .tc .vmem S1024x1 .f32 := Memref.whole cc0_scratch2
abbrev sc3 : Memref sig .tc .vmem S1024x1 .f32 := Memref.whole cc0_scratch3
abbrev sc4 : Memref sig .tc .vmem S2x2048x256 .bf16 := Memref.whole cc0_scratch4
abbrev sc5 : Memref sig .tc .vmem S2x2048x256 .bf16 := Memref.whole cc0_scratch5

/-- The launch's invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

end Cert.KernelIdeal.Body

end
-- ==== Proof.KBlocks.lean ====
/-
  One output block of the kernel as ONE pure term of the blocks it reads, for any float family:
  a query tile x (1024 rows) against the two key tiles mem0, mem1 (2048 rows each) of its batch.
  The projected query q and, per key tile, the projected keys k_t and the values v_t are formed once;
  the running maximum m, denominator l and accumulator acc start at (−∞, 0, 0), absorb tile 0 and then tile 1
  by the online-softmax update; the block is the gate of [x, acc / l]·W2 + b2.
  Also: the argument blocks as they read when every argument array is real.
-/
import proofs.«409618_j42356967473584_3_alg».proof.Proof.Gen.KernelIdeal.Skeleton
import proofs.«409618_j42356967473584_3_alg».proof.Proof.Spec

noncomputable section

namespace Cert.KernelIdeal.Blk

open Cert.KernelIdeal Cert.KernelIdeal.Gen Idealize.ShloMosaic Cert.Spec

variable {F : FTy → Type} [FloatOps F]

/-- The running maximum after absorbing one key tile (projected keys k, bias row) into mp. -/
def mNext (k : Vec F S1x2048x256 .bf16) (q : Vec F S1024x256 .bf16) (bias : Vec F S1x1x2048 .f32)
    (mp : Vec F S1024x1 .f32) : Vec F S1024x1 .f32 :=
  k0_pay3 (k0_pay14 k q bias mp)

/-- The running denominator after absorbing one key tile. -/
def lNext (k : Vec F S1x2048x256 .bf16) (q : Vec F S1024x256 .bf16) (bias : Vec F S1x1x2048 .f32)
    (mp lp : Vec F S1024x1 .f32) : Vec F S1024x1 .f32 :=
  k0_pay1 (k0_pay17 k q bias mp lp)

/-- The running accumulator after absorbing one key tile (values v). -/
def accNext (v k : Vec F S1x2048x256 .bf16) (q : Vec F S1024x256 .bf16) (bias : Vec F S1x1x2048 .f32)
    (mp : Vec F S1024x1 .f32) (ap : Vec F S1024x256 .f32) : Vec F S1024x256 .f32 :=
  k0_pay2 (k0_pay12 v) (k0_pay15 k q bias mp) (k0_pay16 k q bias mp) ap

/-- The output block of a query tile x against key tiles mem0, mem1 with bias rows bias0, bias1. -/
def OutBlk (x : Vec F S1x1024x256 .f32) (mem0 mem1 : Vec F S1x2048x256 .f32) (bias0 bias1 : Vec F S1x1x2048 .f32)
    (wi : Vec F S256x256 .f32) (bi : Vec F S1x256 .f32) (wm : Vec F S256x256 .f32) (bm : Vec F S1x256 .f32)
    (w2 : Vec F S512x256 .f32) (b2 : Vec F S1x256 .f32) : Vec F S1x1024x256 .f32 :=
  let q := k0_pay5 x wi bi
  let k0 := k0_pay11 mem0 wm bm
  let v0 := k0_pay10 mem0
  let k1 := k0_pay11 mem1 wm bm
  let v1 := k0_pay10 mem1
  let m1 := mNext k0 q bias0 k0_pay6
  let l1 := lNext k0 q bias0 k0_pay6 k0_pay7
  let a1 := accNext v0 k0 q bias0 k0_pay6 k0_pay8
  let l2 := lNext k1 q bias1 m1 l1
  let a2 := accNext v1 k1 q bias1 m1 a1
  k0_pay4 a2 l2 x w2 b2

/-! ## The blocks when every argument array is real -/

variable (A : Args)

/-- Query tile ld of batch b. -/
def xB (b : Fin 4) (ld : Fin 4) : Vec Ideal S1x1024x256 .f32 := fun y => ((A.x b (row ld (y 1)) (y 2) : ℝ) : EReal)
/-- Key tile t of batch b. -/
def memB (b : Fin 4) (t : Fin 2) : Vec Ideal S1x2048x256 .f32 := fun y => ((A.mem b (tile t (y 1)) (y 2) : ℝ) : EReal)
/-- The additive mask bias of key tile t: (msk − 1) · pen. -/
def biasB (b : Fin 4) (t : Fin 2) : Vec Ideal S1x1x2048 .f32 := fun y => (((A.msk b (tile t (y 2)) - 1) * pen : ℝ) : EReal)
/-- The query projection's weights, transposed (feature, hidden). -/
def wiT : Vec Ideal S256x256 .f32 := fun y => ((A.wi (y 1) (y 0) : ℝ) : EReal)
def biR : Vec Ideal S1x256 .f32 := fun y => ((A.bi (y 1) : ℝ) : EReal)
/-- The key projection's weights, transposed. -/
def wmT : Vec Ideal S256x256 .f32 := fun y => ((A.wm (y 1) (y 0) : ℝ) : EReal)
def bmR : Vec Ideal S1x256 .f32 := fun y => ((A.bm (y 1) : ℝ) : EReal)
/-- The gate's weights, transposed (concatenated feature, output). -/
def w2T : Vec Ideal S512x256 .f32 := fun y => ((A.w2 (y 1) (y 0) : ℝ) : EReal)
def b2R : Vec Ideal S1x256 .f32 := fun y => ((A.b2 (y 1) : ℝ) : EReal)

end Cert.KernelIdeal.Blk

end
-- ==== Proof.KICache.lean ====
/-
  The two caches (projected keys, and the memory rows as values) hold one slab per key tile. The slab of key tile kv of a
  cache d is its slice  sl kv d = d[kv, ·, ·];  the key tile of a grid coordinate i is its last component.
-/
import proofs.«409618_j42356967473584_3_alg».proof.Proof.KIShared
import proofs.«409618_j42356967473584_3_alg».proof.Proof.KBlocks
import Idealize.ShloMosaic.Lib.ValueIdx

set_option maxRecDepth 16384

noncomputable section

namespace Cert.KernelIdeal.Body

open Cert.KernelIdeal Cert.KernelIdeal.Gen Cert.KernelIdeal.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slab of key tile kv of a two-tile cache. -/
def sl (kv : Fin 2) (d : Vec F S2x2048x256 .bf16) : Vec F S1x2048x256 .bf16 :=
  fun y => d (ValueIdx.ix3 kv (y 1) (y 2))

/-- The key tile of a grid coordinate. -/
def kvC (i : grid0.Coords) : Fin 2 := ⟨(i 2).val, (i 2).isLt⟩

end Cert.KernelIdeal.Body

end
-- ==== Proof.KIBlocks.lean ====
/-
  The blocks the body is handed at a grid point t = 8·b + 2·ld + kv, read off the arrays as the region finds them, with
  explicit coordinates: the query tile (b, ld) of the input, the key tile (b, kv) of the memory and of the mask bias,
  and the six whole-array windows. A block's coordinate on an axis is always index × size + the coordinate inside the block.
-/
import proofs.«409618_j42356967473584_3_alg».proof.Proof.KIShared
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid has 32 points. -/
theorem lt32 (t : Fin cfg0.N) : t.val < 32 := lt_of_lt_of_eq t.isLt N_0

/-- The batch, query tile and key tile of a grid point. -/
def bOf (t : Fin cfg0.N) : Fin 4 := ⟨t.val / 8, by have := lt32 t; omega⟩
def ldOf (t : Fin cfg0.N) : Fin 4 := ⟨(t.val / 2) % 4, by omega⟩
def kvOf (t : Fin cfg0.N) : Fin 2 := ⟨t.val % 2, by omega⟩

/-- Query tile ld of batch b of the input array. -/
def XBk (c : Dev nD) (b ld : Fin 4) : Vec F S1x1024x256 .f32 := fun y =>
  (V m c main_arg0 : Vec F S4x4096x256 .f32) (ValueIdx.ix3 b ⟨ld.val * 1024 + (y 1).val, by have h : (y 1).val < 1024 := (y 1).isLt; omega⟩ (y 2))
/-- Key tile kv of batch b of the memory array. -/
def MemBk (c : Dev nD) (b : Fin 4) (kv : Fin 2) : Vec F S1x2048x256 .f32 := fun y =>
  (V m c main_arg1 : Vec F S4x4096x256 .f32) (ValueIdx.ix3 b ⟨kv.val * 2048 + (y 1).val, by have h : (y 1).val < 2048 := (y 1).isLt; omega⟩ (y 2))
/-- Key tile kv of batch b of the mask bias the host computed. -/
def BiasBk (c : Dev nD) (b : Fin 4) (kv : Fin 2) : Vec F S1x1x2048 .f32 := fun y =>
  (V m c main_v10 : Vec F S4x1x4096 .f32) (ValueIdx.ix3 b (0 : Fin 1) ⟨kv.val * 2048 + (y 2).val, by have h : (y 2).val < 2048 := (y 2).isLt; omega⟩)

/-- Where each window's block sits at each point, decided over the grid. -/
theorem idx_facts : ∀ t : Fin cfg0.N,
    win0_0.index t (0 : Fin 3) = t.val / 8 ∧ win0_0.index t (1 : Fin 3) = (t.val / 2) % 4 ∧ win0_0.index t (2 : Fin 3) = 0
    ∧ win0_1.index t (0 : Fin 3) = t.val / 8 ∧ win0_1.index t (1 : Fin 3) = t.val % 2 ∧ win0_1.index t (2 : Fin 3) = 0
    ∧ win0_2.index t (0 : Fin 3) = t.val / 8 ∧ win0_2.index t (1 : Fin 3) = 0 ∧ win0_2.index t (2 : Fin 3) = t.val % 2
    ∧ win0_9.index t (0 : Fin 3) = t.val / 8 ∧ win0_9.index t (1 : Fin 3) = (t.val / 2) % 4 ∧ win0_9.index t (2 : Fin 3) = 0 :=
  (by decide +kernel : ∀ t : Fin grid0.N, _)
theorem idx_facts_w : ∀ t : Fin cfg0.N,
    win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0
    ∧ win0_7.index t (0 : Fin 2) = 0 ∧ win0_7.index t (1 : Fin 2) = 0 ∧ win0_8.index t (0 : Fin 2) = 0 ∧ win0_8.index t (1 : Fin 2) = 0 :=
  (by decide +kernel : ∀ t : Fin grid0.N, _)

/-- The input window's block at point t is query tile (b, ld). -/
theorem iblk0_eq (c : Dev nD) (t : Fin cfg0.N) : iblk m c 0 t = XBk m c (bOf t) (ldOf t) := by
  obtain ⟨e0, e1, e2, -⟩ := idx_facts t
  funext y
  show V m c main_arg0 (((cfg0.win 0).blk t).view.emb y) = V m c main_arg0 _
  refine congrArg (V m c main_arg0) (funext fun a => Fin.ext ?_)
  match a with
  | ⟨0, _⟩ => show win0_0.index t (0 : Fin 3) * 1 + 1 * (y 0).val = t.val / 8; have hj : (y 0).val < 1 := (y 0).isLt; omega
  | ⟨1, _⟩ => show win0_0.index t (1 : Fin 3) * 1024 + 1 * (y 1).val = (t.val / 2) % 4 * 1024 + (y 1).val; omega
  | ⟨2, _⟩ => show win0_0.index t (2 : Fin 3) * 256 + 1 * (y 2).val = (y 2).val; omega

/-- The memory window's block at point t is key tile (b, kv). -/
theorem iblk1_eq (c : Dev nD) (t : Fin cfg0.N) : iblk m c 1 t = MemBk m c (bOf t) (kvOf t) := by
  obtain ⟨-, -, -, e0, e1, e2, -⟩ := idx_facts t
  funext y
  show V m c main_arg1 (((cfg0.win 1).blk t).view.emb y) = V m c main_arg1 _
  refine congrArg (V m c main_arg1) (funext fun a => Fin.ext ?_)
  match a with
  | ⟨0, _⟩ => show win0_1.index t (0 : Fin 3) * 1 + 1 * (y 0).val = t.val / 8; have hj : (y 0).val < 1 := (y 0).isLt; omega
  | ⟨1, _⟩ => show win0_1.index t (1 : Fin 3) * 2048 + 1 * (y 1).val = t.val % 2 * 2048 + (y 1).val; omega
  | ⟨2, _⟩ => show win0_1.index t (2 : Fin 3) * 256 + 1 * (y 2).val = (y 2).val; omega

/-- The bias window's block at point t is key tile (b, kv) of the bias. -/
theorem iblk2_eq (c : Dev nD) (t : Fin cfg0.N) : iblk m c 2 t = BiasBk m c (bOf t) (kvOf t) := by
  obtain ⟨-, -, -, -, -, -, e0, e1, e2, -⟩ := idx_facts t
  funext y
  show V m c main_v10 (((cfg0.win 2).blk t).view.emb y) = V m c main_v10 _
  refine congrArg (V m c main_v10) (funext fun a => Fin.ext ?_)
  match a with
  | ⟨0, _⟩ => show win0_2.index t (0 : Fin 3) * 1 + 1 * (y 0).val = t.val / 8; have hj : (y 0).val < 1 := (y 0).isLt; omega
  | ⟨1, _⟩ => show win0_2.index t (1 : Fin 3) * 1 + 1 * (y 1).val = 0; have hj : (y 1).val < 1 := (y 1).isLt; omega
  | ⟨2, _⟩ => show win0_2.index t (2 : Fin 3) * 2048 + 1 * (y 2).val = t.val % 2 * 2048 + (y 2).val; omega

/-- The six weight and bias windows hold their whole arrays at every point. -/
theorem iblk3_eq (c : Dev nD) (t : Fin cfg0.N) : iblk m c 3 t = (V m c main_v0 : Vec F S256x256 .f32) := by
  have e := idx_facts_w t
  funext y
  show V m c main_v0 (((cfg0.win 3).blk t).view.emb y) = V m c main_v0 y
  refine congrArg (V m c main_v0) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem iblk4_eq (c : Dev nD) (t : Fin cfg0.N) : iblk m c 4 t = (V m c main_v3 : Vec F S1x256 .f32) := by
  have e := idx_facts_w t
  funext y
  show V m c main_v3 (((cfg0.win 4).blk t).view.emb y) = V m c main_v3 y
  refine congrArg (V m c main_v3) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega
theorem iblk5_eq (c : Dev nD) (t : Fin cfg0.N) : iblk m c 5 t = (V m c main_v1 : Vec F S256x256 .f32) := by
  have e := idx_facts_w t
  funext y
  show V m c main_v1 (((cfg0.win 5).blk t).view.emb y) = V m c main_v1 y
  refine congrArg (V m c main_v1) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega
theorem iblk6_eq (c : Dev nD) (t : Fin cfg0.N) : iblk m c 6 t = (V m c main_v4 : Vec F S1x256 .f32) := by
  have e := idx_facts_w t
  funext y
  show V m c main_v4 (((cfg0.win 6).blk t).view.emb y) = V m c main_v4 y
  refine congrArg (V m c main_v4) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega
theorem iblk7_eq (c : Dev nD) (t : Fin cfg0.N) : iblk m c 7 t = (V m c main_v2 : Vec F S512x256 .f32) := by
  have e := idx_facts_w t
  funext y
  show V m c main_v2 (((cfg0.win 7).blk t).view.emb y) = V m c main_v2 y
  refine congrArg (V m c main_v2) (funext fun a => Fin.ext ?_)
  match a with
  | ⟨0, _⟩ => show win0_7.index t (0 : Fin 2) * 512 + 1 * (y 0).val = (y 0).val; omega
  | ⟨1, _⟩ => show win0_7.index t (1 : Fin 2) * 256 + 1 * (y 1).val = (y 1).val; omega
theorem iblk8_eq (c : Dev nD) (t : Fin cfg0.N) : iblk m c 8 t = (V m c main_v5 : Vec F S1x256 .f32) := by
  have e := idx_facts_w t
  funext y
  show V m c main_v5 (((cfg0.win 8).blk t).view.emb y) = V m c main_v5 y
  refine congrArg (V m c main_v5) (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

end Cert.KernelIdeal.Body

end
-- ==== Proof.KIFrame.lean ====
/-
  The frame of the attention kernel, with the state the body carries between grid points named.
  A grid point is t = 8·b + 2·ld + kv. Before a point s the six scratch buffers hold:
    when s is odd (the last key tile of a query tile is about to run): the query projection q of tile (b, ld) and the
      running maximum, denominator and accumulator after key tile 0;
    when s is odd or the query tile is not the first: slab 0 of both caches, the projected keys and the values of key tile 0;
    when the query tile is not the first: slab 1 as well.
  At the first point of a batch nothing is known and nothing is needed. The output block left at a last key tile is the
  gate of the normalised accumulator after both key tiles: one closed term of the point's blocks.
-/
import proofs.«409618_j42356967473584_3_alg».proof.Proof.KICache
import proofs.«409618_j42356967473584_3_alg».proof.Proof.KIBlocks

set_option maxRecDepth 16384

noncomputable section

namespace Cert.KernelIdeal.Body

open Cert.KernelIdeal Cert.KernelIdeal.Gen Cert.KernelIdeal.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The named contents -/

/-- The batch and the query tile of a position, as total functions of the position. -/
def bN (s : ℕ) : Fin 4 := ⟨s / 8 % 4, Nat.mod_lt _ (by decide)⟩
def ldN (s : ℕ) : Fin 4 := ⟨s / 2 % 4, Nat.mod_lt _ (by decide)⟩

theorem bOf_eq (t : Fin cfg0.N) : bOf t = bN t.val := Fin.ext (by have := lt32 t; show t.val / 8 = t.val / 8 % 4; omega)
theorem ldOf_eq (t : Fin cfg0.N) : ldOf t = ldN t.val := rfl

/-- The weights and biases as the region finds them. -/
abbrev Wi (c : Dev nD) : Vec F S256x256 .f32 := V m c main_v0
abbrev Bi (c : Dev nD) : Vec F S1x256 .f32 := V m c main_v3
abbrev Wm (c : Dev nD) : Vec F S256x256 .f32 := V m c main_v1
abbrev Bm (c : Dev nD) : Vec F S1x256 .f32 := V m c main_v4
abbrev W2 (c : Dev nD) : Vec F S512x256 .f32 := V m c main_v2
abbrev B2 (c : Dev nD) : Vec F S1x256 .f32 := V m c main_v5

/-- The query projection of query tile (b, ld); the projected keys and the values of key tile (b, kv). -/
def Qv (c : Dev nD) (b ld : Fin 4) : Vec F S1024x256 .bf16 := k0_pay5 (XBk m c b ld) (Wi m c) (Bi m c)
def Kc (c : Dev nD) (b : Fin 4) (kv : Fin 2) : Vec F S1x2048x256 .bf16 := k0_pay11 (MemBk m c b kv) (Wm m c) (Bm m c)
def Vc (c : Dev nD) (b : Fin 4) (kv : Fin 2) : Vec F S1x2048x256 .bf16 := k0_pay10 (MemBk m c b kv)
/-- The running maximum, denominator and accumulator of query tile (b, ld) after key tile 0. -/
def M1 (c : Dev nD) (b ld : Fin 4) : Vec F S1024x1 .f32 := mNext (Kc m c b 0) (Qv m c b ld) (BiasBk m c b 0) k0_pay6
def L1 (c : Dev nD) (b ld : Fin 4) : Vec F S1024x1 .f32 := lNext (Kc m c b 0) (Qv m c b ld) (BiasBk m c b 0) k0_pay6 k0_pay7
def A1 (c : Dev nD) (b ld : Fin 4) : Vec F S1024x256 .f32 := accNext (Vc m c b 0) (Kc m c b 0) (Qv m c b ld) (BiasBk m c b 0) k0_pay6 k0_pay8
/-- The output block of query tile (b, ld): the gate of the normalised accumulator after both key tiles. -/
def OutAt (c : Dev nD) (b ld : Fin 4) : Vec F S1x1024x256 .f32 :=
  k0_pay4 (accNext (Vc m c b 1) (Kc m c b 1) (Qv m c b ld) (BiasBk m c b 1) (M1 m c b ld) (A1 m c b ld))
    (lNext (Kc m c b 1) (Qv m c b ld) (BiasBk m c b 1) (M1 m c b ld) (L1 m c b ld)) (XBk m c b ld) (W2 m c) (B2 m c)

/-- It is the one-term block of the two key tiles. -/
theorem OutAt_eq (c : Dev nD) (b ld : Fin 4) :
    OutAt m c b ld = OutBlk (XBk m c b ld) (MemBk m c b 0) (MemBk m c b 1) (BiasBk m c b 0) (BiasBk m c b 1)
      (Wi m c) (Bi m c) (Wm m c) (Bm m c) (W2 m c) (B2 m c) := rfl

/-! ## The invariant -/

/-- What the scratch buffers hold before position s. -/
def Inv (c : Dev nD) (s : ℕ) (d0 : Vec F S1024x256 .bf16) (d1 : Vec F S1024x256 .f32) (d2 d3 : Vec F S1024x1 .f32)
    (d4 d5 : Vec F S2x2048x256 .bf16) : Prop :=
  (s % 2 = 1 → d0 = Qv m c (bN s) (ldN s) ∧ d1 = A1 m c (bN s) (ldN s) ∧ d2 = M1 m c (bN s) (ldN s) ∧ d3 = L1 m c (bN s) (ldN s))
  ∧ ((s % 2 = 1 ∨ 2 ≤ s % 8) → sl 0 d4 = Kc m c (bN s) 0 ∧ sl 0 d5 = Vc m c (bN s) 0)
  ∧ (2 ≤ s % 8 → sl 1 d4 = Kc m c (bN s) 1 ∧ sl 1 d5 = Vc m c (bN s) 1)

/-- The scratch buffers owned at contents satisfying the invariant, and the generator register. -/
def Phi (c : Dev nD) (s : ℕ) : sProp 𝕄 :=
  iprop(iprop(∃ d0 d1 d2 d3 d4 d5, ⌜Inv m c s d0 d1 d2 d3 d4 d5⌝ ∗ owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4 ∗ owns (c : Thread nD τ) sc5 fullShare d5) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => OutAt m c (bN t.val) (ldN t.val)
  Φ s := Phi m c s.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = OutAt m c (bN t.val) (ldN t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem Phi_castSucc (c : Dev nD) (t : Fin cfg0.N) : (dats m 0 c).Φ t.castSucc = Phi m c t.val := rfl
theorem Phi_succ (c : Dev nD) (t : Fin cfg0.N) : (dats m 0 c).Φ t.succ = Phi m c (t.val + 1) := rfl

end Cert.KernelIdeal.Body

end
-- ==== Proof.KIStep.lean ====
/-
  How the scratch invariant moves across one grid point, case by case, as facts about positions s = 8·b + 2·ld + kv:
  the batch does not change inside a batch's eight points, nor the query tile between a tile's two points;
  a first key tile (s even) leaves the query projection and the state after key tile 0; a last key tile (s odd) leaves
  nothing to name but the caches; the caches are written at the first query tile (s mod 8 < 2) and only read after it.
-/
import proofs.«409618_j42356967473584_3_alg».proof.Proof.KIFrame

set_option maxRecDepth 16384

noncomputable section

namespace Cert.KernelIdeal.Body

open Cert.KernelIdeal Cert.KernelIdeal.Gen Cert.KernelIdeal.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem bN_succ (s : ℕ) (h : s % 8 ≠ 7) : bN (s + 1) = bN s := Fin.ext (by show (s + 1) / 8 % 4 = s / 8 % 4; omega)
theorem ldN_succ (s : ℕ) (h : s % 2 = 0) : ldN (s + 1) = ldN s := Fin.ext (by show (s + 1) / 2 % 4 = s / 2 % 4; omega)

/-- The key tile of a point's coordinates is the point's parity. -/
theorem kvC_coords : ∀ t : Fin cfg0.N, (kvC (grid0.coords t)).val = t.val % 2 :=
  (by decide +kernel : ∀ t : Fin grid0.N, (kvC (grid0.coords t)).val = t.val % 2)
theorem kvOf_val (t : Fin cfg0.N) : (kvOf t).val = t.val % 2 := rfl
theorem kvC_eq_kvOf (t : Fin cfg0.N) : kvC (grid0.coords t) = kvOf t := Fin.ext ((kvC_coords t).trans (kvOf_val t).symm)

/-- Nothing is known before the first point. -/
theorem inv_zero (c : Dev nD) (d0 : Vec F S1024x256 .bf16) (d1 : Vec F S1024x256 .f32) (d2 d3 : Vec F S1024x1 .f32)
    (d4 d5 : Vec F S2x2048x256 .bf16) : Inv m c 0 d0 d1 d2 d3 d4 d5 :=
  ⟨fun h => absurd h (by decide), fun h => by rcases h with h | h <;> exact absurd h (by decide), fun h => absurd h (by decide)⟩

/-- Case A (first key tile, first query tile): the state after key tile 0, and slab 0 of the caches as just written. -/
theorem inv_A (c : Dev nD) (s : ℕ) (h : s % 8 = 0) {S4' S5' : Vec F S2x2048x256 .bf16}
    (h4 : sl 0 S4' = Kc m c (bN s) 0) (h5 : sl 0 S5' = Vc m c (bN s) 0) :
    Inv m c (s + 1) (Qv m c (bN s) (ldN s)) (A1 m c (bN s) (ldN s)) (M1 m c (bN s) (ldN s)) (L1 m c (bN s) (ldN s)) S4' S5' := by
  have hb : bN (s + 1) = bN s := bN_succ s (by omega)
  have hl : ldN (s + 1) = ldN s := ldN_succ s (by omega)
  refine ⟨fun _ => ?_, fun _ => ?_, fun h2 => ?_⟩
  · rw [hb, hl]; exact ⟨rfl, rfl, rfl, rfl⟩
  · rw [hb]; exact ⟨h4, h5⟩
  · omega

/-- Case B (first key tile, a later query tile): the state after key tile 0; the caches as they were. -/
theorem inv_B (c : Dev nD) (s : ℕ) (h : 2 ≤ s % 8) (he : s % 2 = 0) {d0 : Vec F S1024x256 .bf16} {d1 : Vec F S1024x256 .f32}
    {d2 d3 : Vec F S1024x1 .f32} {d4 d5 : Vec F S2x2048x256 .bf16} (hi : Inv m c s d0 d1 d2 d3 d4 d5) :
    Inv m c (s + 1) (Qv m c (bN s) (ldN s)) (A1 m c (bN s) (ldN s)) (M1 m c (bN s) (ldN s)) (L1 m c (bN s) (ldN s)) d4 d5 := by
  have hb : bN (s + 1) = bN s := bN_succ s (by omega)
  have hl : ldN (s + 1) = ldN s := ldN_succ s he
  refine ⟨fun _ => ?_, fun _ => ?_, fun _ => ?_⟩
  · rw [hb, hl]; exact ⟨rfl, rfl, rfl, rfl⟩
  · rw [hb]; exact hi.2.1 (Or.inr h)
  · rw [hb]; exact hi.2.2 h

/-- Case C (last key tile, first query tile): slab 0 as it was, slab 1 as just written. -/
theorem inv_C (c : Dev nD) (s : ℕ) (h : s % 8 = 1) {d0 : Vec F S1024x256 .bf16} {d1 : Vec F S1024x256 .f32}
    {d2 d3 : Vec F S1024x1 .f32} {d4 d5 : Vec F S2x2048x256 .bf16} (hi : Inv m c s d0 d1 d2 d3 d4 d5)
    {S4' S5' : Vec F S2x2048x256 .bf16} (h40 : sl 0 S4' = sl 0 d4) (h41 : sl 1 S4' = Kc m c (bN s) 1)
    (h50 : sl 0 S5' = sl 0 d5) (h51 : sl 1 S5' = Vc m c (bN s) 1)
    (e0 : Vec F S1024x256 .bf16) (e1 : Vec F S1024x256 .f32) (e2 e3 : Vec F S1024x1 .f32) :
    Inv m c (s + 1) e0 e1 e2 e3 S4' S5' := by
  have hb : bN (s + 1) = bN s := bN_succ s (by omega)
  have h0 := hi.2.1 (Or.inl (by omega))
  refine ⟨fun h1 => by omega, fun _ => ?_, fun _ => ?_⟩
  · rw [hb]; exact ⟨h40.trans h0.1, h50.trans h0.2⟩
  · rw [hb]; exact ⟨h41, h51⟩

/-- Case D (last key tile, a later query tile): the caches as they were, while the batch lasts. -/
theorem inv_D (c : Dev nD) (s : ℕ) (h : 2 ≤ s % 8) (ho : s % 2 = 1) {d0 : Vec F S1024x256 .bf16} {d1 : Vec F S1024x256 .f32}
    {d2 d3 : Vec F S1024x1 .f32} {d4 d5 : Vec F S2x2048x256 .bf16} (hi : Inv m c s d0 d1 d2 d3 d4 d5)
    (e0 : Vec F S1024x256 .bf16) (e1 : Vec F S1024x256 .f32) (e2 e3 : Vec F S1024x1 .f32) :
    Inv m c (s + 1) e0 e1 e2 e3 d4 d5 := by
  refine ⟨fun h1 => by omega, fun h2 => ?_, fun h2 => ?_⟩
  · have h2' : 2 ≤ (s + 1) % 8 := by rcases h2 with h2 | h2 <;> omega
    have hb : bN (s + 1) = bN s := bN_succ s (by omega)
    rw [hb]; exact hi.2.1 (Or.inr h)
  · have hb : bN (s + 1) = bN s := bN_succ s (by omega)
    rw [hb]; exact hi.2.2 h

end Cert.KernelIdeal.Body

end
-- ==== Proof.KIPoint.lean ====
/-
  The four cases at a point, over the blocks the body is handed: if the handed blocks are the point's tiles
  (query tile (b, ld), key tile (b, kv), its bias row, the weights), then what the run leaves in the scratch buffers
  satisfies the invariant at the next position, and at a last key tile the stored block is the tile's output block.
-/
import proofs.«409618_j42356967473584_3_alg».proof.Proof.KIStep

set_option maxRecDepth 16384

noncomputable section

namespace Cert.KernelIdeal.Body

open Cert.KernelIdeal Cert.KernelIdeal.Gen Cert.KernelIdeal.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Case A at position s (s mod 8 = 0). -/
theorem inv_A_gen (c : Dev nD) (s : ℕ) (h8 : s % 8 = 0)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32)
    (hx0 : x0 = XBk m c (bN s) (ldN s)) (hx1 : x1 = MemBk m c (bN s) 0) (hx2 : x2 = BiasBk m c (bN s) 0)
    (hx3 : x3 = Wi m c) (hx4 : x4 = Bi m c) (hx5 : x5 = Wm m c) (hx6 : x6 = Bm m c)
    {S4' S5' : Vec F S2x2048x256 .bf16} (h4 : sl 0 S4' = k0_pay11 x1 x5 x6) (h5 : sl 0 S5' = k0_pay10 x1) :
    Inv m c (s + 1) (k0_pay5 x0 x3 x4)
      (accNext (k0_pay10 x1) (k0_pay11 x1 x5 x6) (k0_pay5 x0 x3 x4) x2 k0_pay6 k0_pay8)
      (mNext (k0_pay11 x1 x5 x6) (k0_pay5 x0 x3 x4) x2 k0_pay6)
      (lNext (k0_pay11 x1 x5 x6) (k0_pay5 x0 x3 x4) x2 k0_pay6 k0_pay7) S4' S5' := by
  subst hx0 hx1 hx2 hx3 hx4 hx5 hx6
  exact inv_A m c s h8 h4 h5

/-- Case B at position s (s even, the query tile not the first): the slabs of key tile 0 are read from the caches. -/
theorem inv_B_gen (c : Dev nD) (s : ℕ) (h : 2 ≤ s % 8) (he : s % 2 = 0) {d0 : Vec F S1024x256 .bf16} {d1 : Vec F S1024x256 .f32} {d2 d3 : Vec F S1024x1 .f32} {d4 d5 : Vec F S2x2048x256 .bf16}
    (hi : Inv m c s d0 d1 d2 d3 d4 d5)
    (x0 : Vec F S1x1024x256 .f32) (x2 : Vec F S1x1x2048 .f32) (x3 : Vec F S256x256 .f32) (x4 : Vec F S1x256 .f32)
    (hx0 : x0 = XBk m c (bN s) (ldN s)) (hx2 : x2 = BiasBk m c (bN s) 0) (hx3 : x3 = Wi m c) (hx4 : x4 = Bi m c) :
    Inv m c (s + 1) (k0_pay5 x0 x3 x4)
      (accNext (sl 0 d5) (sl 0 d4) (k0_pay5 x0 x3 x4) x2 k0_pay6 k0_pay8)
      (mNext (sl 0 d4) (k0_pay5 x0 x3 x4) x2 k0_pay6)
      (lNext (sl 0 d4) (k0_pay5 x0 x3 x4) x2 k0_pay6 k0_pay7) d4 d5 := by
  subst hx0 hx2 hx3 hx4
  rw [(hi.2.1 (Or.inr h)).1, (hi.2.1 (Or.inr h)).2]
  exact inv_B m c s h he hi

/-- Case C at position s (s mod 8 = 1): slab 1 is written, and the stored block is the tile's output block. -/
theorem inv_C_gen (c : Dev nD) (s : ℕ) (h : s % 8 = 1) {d0 : Vec F S1024x256 .bf16} {d1 : Vec F S1024x256 .f32} {d2 d3 : Vec F S1024x1 .f32} {d4 d5 : Vec F S2x2048x256 .bf16}
    (hi : Inv m c s d0 d1 d2 d3 d4 d5)
    (x0 : Vec F S1x1024x256 .f32) (x1 : Vec F S1x2048x256 .f32) (x2 : Vec F S1x1x2048 .f32) (x5 : Vec F S256x256 .f32) (x6 : Vec F S1x256 .f32) (x7 : Vec F S512x256 .f32) (x8 : Vec F S1x256 .f32)
    (hx0 : x0 = XBk m c (bN s) (ldN s)) (hx1 : x1 = MemBk m c (bN s) 1) (hx2 : x2 = BiasBk m c (bN s) 1)
    (hx5 : x5 = Wm m c) (hx6 : x6 = Bm m c) (hx7 : x7 = W2 m c) (hx8 : x8 = B2 m c)
    {S4' S5' : Vec F S2x2048x256 .bf16} (h41 : sl 1 S4' = k0_pay11 x1 x5 x6) (h40 : sl 0 S4' = sl 0 d4)
    (h51 : sl 1 S5' = k0_pay10 x1) (h50 : sl 0 S5' = sl 0 d5)
    (e0 : Vec F S1024x256 .bf16) (e1 : Vec F S1024x256 .f32) (e2 e3 : Vec F S1024x1 .f32) :
    Inv m c (s + 1) e0 e1 e2 e3 S4' S5'
    ∧ k0_pay4 (accNext (k0_pay10 x1) (k0_pay11 x1 x5 x6) d0 x2 d2 d1) (lNext (k0_pay11 x1 x5 x6) d0 x2 d2 d3) x0 x7 x8
        = OutAt m c (bN s) (ldN s) := by
  obtain ⟨rfl, rfl, rfl, rfl⟩ := hi.1 (by omega)
  subst hx0 hx1 hx2 hx5 hx6 hx7 hx8
  exact ⟨inv_C m c s h hi h40 h41 h50 h51 e0 e1 e2 e3, rfl⟩

/-- Case D at position s (s odd, the query tile not the first): slab 1 is read, and the stored block is the tile's output block. -/
theorem inv_D_gen (c : Dev nD) (s : ℕ) (h : 2 ≤ s % 8) (ho : s % 2 = 1) {d0 : Vec F S1024x256 .bf16} {d1 : Vec F S1024x256 .f32} {d2 d3 : Vec F S1024x1 .f32} {d4 d5 : Vec F S2x2048x256 .bf16}
    (hi : Inv m c s d0 d1 d2 d3 d4 d5)
    (x0 : Vec F S1x1024x256 .f32) (x2 : Vec F S1x1x2048 .f32) (x7 : Vec F S512x256 .f32) (x8 : Vec F S1x256 .f32)
    (hx0 : x0 = XBk m c (bN s) (ldN s)) (hx2 : x2 = BiasBk m c (bN s) 1) (hx7 : x7 = W2 m c) (hx8 : x8 = B2 m c)
    (e0 : Vec F S1024x256 .bf16) (e1 : Vec F S1024x256 .f32) (e2 e3 : Vec F S1024x1 .f32) :
    Inv m c (s + 1) e0 e1 e2 e3 d4 d5
    ∧ k0_pay4 (accNext (sl 1 d5) (sl 1 d4) d0 x2 d2 d1) (lNext (sl 1 d4) d0 x2 d2 d3) x0 x7 x8
        = OutAt m c (bN s) (ldN s) := by
  have hinv := inv_D m c s h ho hi e0 e1 e2 e3
  obtain ⟨rfl, rfl, rfl, rfl⟩ := hi.1 ho
  subst hx0 hx2 hx7 hx8
  rw [(hi.2.2 h).1, (hi.2.2 h).2]
  exact ⟨hinv, rfl⟩

end Cert.KernelIdeal.Body

end
-- ==== Proof.KIRunA.lean ====
/-
  The attention body run in case A: the first key tile, the first query tile.
  On whole memrefs — the nine inputs at their contents, the output and the six scratch buffers at given contents —
  the body runs to the end and hands back the inputs as they were, the output untouched, and each scratch buffer
  with the stores it received written over what it held; those stores, as pieces, are the witness the run finds.
-/
import proofs.«409618_j42356967473584_3_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    Σ' (LS0 : List (View.Piece (Elt F) S1024x256 .bf16)) (LS1 : List (View.Piece (Elt F) S1024x256 .f32)) (LS2 : List (View.Piece (Elt F) S1024x1 .f32)) (LS3 : List (View.Piece (Elt F) S1024x1 .f32)) (LS4 : List (View.Piece (Elt F) S2x2048x256 .bf16)), { LS5 : List (View.Piece (Elt F) S2x2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3) ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0__gated_attention_kernel_eq_skeleton]; unfold cc0__gated_attention_kernel_skel
    simp only [k0_part1_eq_skeleton]
    try simp only [View.writes_nil]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [HS0]; · iexact HS0
    isplitl [HS1]; · iexact HS1
    isplitl [HS2]; · iexact HS2
    isplitl [HS3]; · iexact HS3
    isplitl [HS4]; · iexact HS4
    iexact HS5

end Cert.KernelIdeal.Body

end
-- ==== Proof.KISpecA.lean ====
/-
  The attention body in case A — the first key tile of the first query tile: the query projection and the running state are formed afresh, this key tile's slab of each cache is written from the memory block and then used — with every buffer's contents after the run named:
  the inputs as they were; the query projection q; the running maximum, denominator and accumulator after absorbing this
  key tile (mNext, lNext, accNext of the projected keys k and the values v of the tile); the caches slab by slab.
-/
import proofs.«409618_j42356967473584_3_alg».proof.Proof.KIRunA
import proofs.«409618_j42356967473584_3_alg».proof.Proof.KICache
import Idealize.ShloMosaic.Lib.WritesUnit
import Idealize.ShloMosaic.Lib.Pipeline.Value

set_option maxRecDepth 16384

noncomputable section

namespace Cert.KernelIdeal.Body

open Cert.KernelIdeal Cert.KernelIdeal.Gen Cert.KernelIdeal.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each scratch buffer reads after the run

The run hands each scratch buffer back as the list of stores it received, written over what the buffer held. A buffer
stored whole reads as its last store's payload, whose own loads read the inputs as they are and the earlier stores of
this same run; a cache stored through the one-slab rectangle at the key tile's offset reads as the payload on that slab
and as before on the other. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The cache offset the body computes is the key tile's slab. -/
theorem off1_eq (i : grid0.Coords) : k0_off1 i = ![(kvC i).val, 0, 0] := by
  have h2 : (i 2).val < 2 := (i 2).isLt
  have e : (Scalar.indexCast (BitVec.ofNat 32 (i 2).val)).toNat = (i 2).val := by
    obtain h | h : (i 2).val = 0 ∨ (i 2).val = 1 := by omega
    · rw [h]; rfl
    · rw [h]; rfl
  unfold k0_off1 kvC
  dsimp only
  rw [e]

section Reads

variable (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16)

/-- The query projection's buffer holds the projection of the query tile. -/
theorem rdQ : arg13.view.read (Elt F) (arg13.view.writes (Elt F) (harg13.unread xs0) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).1) = k0_pay5 x0 x3 x4 := by
  unfold kernelRun_A
  dsimp only
  sl_unfold_words
  refine (View.read_writes_eq_canon _ _ _ ?_).trans ?_
  · intro y; exact ⟨_, List.mem_cons_self, View.mem_set_unit_zero hz2 inb_S1024x256_S1024x256_0_0 y⟩
  rw [View.canon_unit_zero hz2]
  simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2]

/-- The accumulator after absorbing this key tile into the fresh state. -/
theorem rdAcc : arg14.view.read (Elt F) (arg14.view.writes (Elt F) (harg14.unread xs1) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.1)
    = accNext (k0_pay10 x1) (k0_pay11 x1 x5 x6) (k0_pay5 x0 x3 x4) x2 k0_pay6 k0_pay8 := by
  unfold kernelRun_A
  dsimp only
  sl_unfold_words
  refine (View.read_writes_eq_canon _ _ _ ?_).trans ?_
  · intro y; exact ⟨_, List.mem_cons_self, View.mem_set_unit_zero hz2 inb_S1024x256_S1024x256_0_0 y⟩
  rw [View.canon_cons_unit_zero (S := S1024x256) hz2]
  unfold accNext
  simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.readCov_unit_zero (S := S1024x256) _ hz2, View.readCov_unit_zero (S := S1024x1) _ hz2, View.readCov_cons_toLoadRect]

/-- The running maximum after absorbing this key tile. -/
theorem rdM : arg15.view.read (Elt F) (arg15.view.writes (Elt F) (harg15.unread xs2) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.1)
    = mNext (k0_pay11 x1 x5 x6) (k0_pay5 x0 x3 x4) x2 k0_pay6 := by
  unfold kernelRun_A
  dsimp only
  sl_unfold_words
  refine (View.read_writes_eq_canon _ _ _ ?_).trans ?_
  · intro y; exact ⟨_, List.mem_cons_self, View.mem_set_unit_zero hz2 inb_S1024x1_S1024x1_0_0 y⟩
  rw [View.canon_cons_unit_zero (S := S1024x1) hz2]
  unfold mNext
  simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.readCov_unit_zero (S := S1024x256) _ hz2, View.readCov_unit_zero (S := S1024x1) _ hz2, View.readCov_cons_toLoadRect]

/-- The running denominator after absorbing this key tile. -/
theorem rdL : arg16.view.read (Elt F) (arg16.view.writes (Elt F) (harg16.unread xs3) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.1)
    = lNext (k0_pay11 x1 x5 x6) (k0_pay5 x0 x3 x4) x2 k0_pay6 k0_pay7 := by
  unfold kernelRun_A
  dsimp only
  sl_unfold_words
  refine (View.read_writes_eq_canon _ _ _ ?_).trans ?_
  · intro y; exact ⟨_, List.mem_cons_self, View.mem_set_unit_zero hz2 inb_S1024x1_S1024x1_0_0 y⟩
  rw [View.canon_cons_unit_zero (S := S1024x1) hz2]
  unfold lNext
  simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.readCov_unit_zero (S := S1024x256) _ hz2, View.readCov_unit_zero (S := S1024x1) _ hz2, View.readCov_cons_toLoadRect]

/-- The key cache: this key tile's slab holds the projected keys. -/
theorem rdK_hit : sl (kvC i) (arg17.view.read (Elt F) (arg17.view.writes (Elt F) (harg17.unread xs4) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1))
    = k0_pay11 x1 x5 x6 := by
  unfold kernelRun_A
  dsimp only
  sl_unfold_words
  funext y
  refine (View.read_writes_cons_unit_of_mem _ _ _ _ [] _ y (off' := ![(kvC i).val, 0, 0]) (off1_eq i) ?_).trans ?_
  · intro a
    have h0 : (y 0).val < 1 := (y 0).isLt
    match a with
    | ⟨0, _⟩ => show (kvC i).val = (kvC i).val + (y 0).val; omega
    | ⟨1, _⟩ => show (y 1).val = 0 + (y 1).val; omega
    | ⟨2, _⟩ => show (y 2).val = 0 + (y 2).val; omega
  · simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2]

/-- The key cache: the other slab is as it was. -/
theorem rdK_miss (kv : Fin 2) (hkv : kv ≠ kvC i) :
    sl kv (arg17.view.read (Elt F) (arg17.view.writes (Elt F) (harg17.unread xs4) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1)) = sl kv xs4 := by
  unfold kernelRun_A
  dsimp only
  sl_unfold_words
  funext y
  refine (View.read_writes_cons_unit_of_not_mem _ _ _ _ [] _ (off' := ![(kvC i).val, 0, 0]) (off1_eq i) 0 ?_).trans ?_
  · show kv.val < (kvC i).val ∨ (kvC i).val + 1 ≤ kv.val
    have : kv.val ≠ (kvC i).val := fun h => hkv (Fin.ext h)
    omega
  · rw [View.writes_nil, harg17.read_unread]

/-- The value cache: this key tile's slab holds the memory rows as values. -/
theorem rdV_hit : sl (kvC i) (arg18.view.read (Elt F) (arg18.view.writes (Elt F) (harg18.unread xs5) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1))
    = k0_pay10 x1 := by
  unfold kernelRun_A
  dsimp only
  sl_unfold_words
  funext y
  refine (View.read_writes_cons_unit_of_mem _ _ _ _ [] _ y (off' := ![(kvC i).val, 0, 0]) (off1_eq i) ?_).trans ?_
  · intro a
    have h0 : (y 0).val < 1 := (y 0).isLt
    match a with
    | ⟨0, _⟩ => show (kvC i).val = (kvC i).val + (y 0).val; omega
    | ⟨1, _⟩ => show (y 1).val = 0 + (y 1).val; omega
    | ⟨2, _⟩ => show (y 2).val = 0 + (y 2).val; omega
  · simp only [View.readAt_eq_ld, harg3.read_unread, harg4.read_unread, harg5.read_unread, harg6.read_unread, harg7.read_unread, harg8.read_unread, harg9.read_unread, View.ld_unit_zero (S := S1x1024x256) hz3, View.ld_unit_zero (S := S1x2048x256) hz3, View.ld_unit_zero (S := S1x1x2048) hz3, View.ld_unit_zero (S := S256x256) hz2, View.ld_unit_zero (S := S1x256) hz2]

/-- The value cache: the other slab is as it was. -/
theorem rdV_miss (kv : Fin 2) (hkv : kv ≠ kvC i) :
    sl kv (arg18.view.read (Elt F) (arg18.view.writes (Elt F) (harg18.unread xs5) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1)) = sl kv xs5 := by
  unfold kernelRun_A
  dsimp only
  sl_unfold_words
  funext y
  refine (View.read_writes_cons_unit_of_not_mem _ _ _ _ [] _ (off' := ![(kvC i).val, 0, 0]) (off1_eq i) 0 ?_).trans ?_
  · show kv.val < (kvC i).val ∨ (kvC i).val + 1 ≤ kv.val
    have : kv.val ≠ (kvC i).val := fun h => hkv (Fin.ext h)
    omega
  · rw [View.writes_nil, harg18.read_unread]

end Reads

/-! ## The body's triple in case A, with the contents named -/

theorem run_A_spec (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    ∃ (S4' S5' : Vec F S2x2048x256 .bf16),
      (sl (kvC i) S4' = (k0_pay11 x1 x5 x6) ∧ ∀ kv : Fin 2, kv ≠ kvC i → sl kv S4' = sl kv xs4)
      ∧ (sl (kvC i) S5' = (k0_pay10 x1) ∧ ∀ kv : Fin 2, kv ≠ kvC i → sl kv S5' = sl kv xs5)
      ∧ ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare (k0_pay5 x0 x3 x4) ∗ owns (c : Thread nD τ) arg14 fullShare (accNext (k0_pay10 x1) (k0_pay11 x1 x5 x6) (k0_pay5 x0 x3 x4) x2 k0_pay6 k0_pay8) ∗ owns (c : Thread nD τ) arg15 fullShare (mNext (k0_pay11 x1 x5 x6) (k0_pay5 x0 x3 x4) x2 k0_pay6) ∗ owns (c : Thread nD τ) arg16 fullShare (lNext (k0_pay11 x1 x5 x6) (k0_pay5 x0 x3 x4) x2 k0_pay6 k0_pay7) ∗ owns (c : Thread nD τ) arg17 fullShare S4' ∗ owns (c : Thread nD τ) arg18 fullShare S5') -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  refine ⟨arg17.view.read (Elt F) (arg17.view.writes (Elt F) (harg17.unread xs4) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1),
    arg18.view.read (Elt F) (arg18.view.writes (Elt F) (harg18.unread xs5) (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1),
    ⟨rdK_hit c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5, rdK_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5⟩, ⟨rdV_hit c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5, rdV_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5⟩, fun E K => ?_⟩
  iintro ⟨H0, H1, H2, H3, H4, H5, H6, H7, H8, H9, H10, H11, H12, H13, H14, H15, Hk⟩
  iapply ((kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨G0, G1, G2, G3, G4, G5, G6, G7, G8, G9, G10, G11, G12, G13, G14, G15⟩
  iapply Hk
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]
  · unfold owns; iexists _; isplitr; swap; · iexact G10
    ipureintro; exact rdQ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [G11]
  · unfold owns; iexists _; isplitr; swap; · iexact G11
    ipureintro; exact rdAcc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [G12]
  · unfold owns; iexists _; isplitr; swap; · iexact G12
    ipureintro; exact rdM c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [G13]
  · unfold owns; iexists _; isplitr; swap; · iexact G13
    ipureintro; exact rdL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [G14]
  · unfold owns; iexists _; isplitr; swap; · iexact G14
    ipureintro; rfl
  unfold owns; iexists _; isplitr; swap; · iexact G15
  ipureintro; rfl

end Cert.KernelIdeal.Body

end
-- ==== Proof.KIRunB.lean ====
/-
  The attention body run in case B: the first key tile, a later query tile.
  On whole memrefs — the nine inputs at their contents, the output and the six scratch buffers at given contents —
  the body runs to the end and hands back the inputs as they were, the output untouched, and each scratch buffer
  with the stores it received written over what it held; those stores, as pieces, are the witness the run finds.
-/
import proofs.«409618_j42356967473584_3_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    Σ' (LS0 : List (View.Piece (Elt F) S1024x256 .bf16)) (LS1 : List (View.Piece (Elt F) S1024x256 .f32)) (LS2 : List (View.Piece (Elt F) S1024x1 .f32)) (LS3 : List (View.Piece (Elt F) S1024x1 .f32)) (LS4 : List (View.Piece (Elt F) S2x2048x256 .bf16)), { LS5 : List (View.Piece (Elt F) S2x2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3) ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, [], [], fun E K => ?run⟩
  case run =>
    simp only [cc0__gated_attention_kernel_eq_skeleton]; unfold cc0__gated_attention_kernel_skel
    simp only [k0_part1_eq_skeleton]
    simp only [View.writes_nil]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [HS0]; · iexact HS0
    isplitl [HS1]; · iexact HS1
    isplitl [HS2]; · iexact HS2
    isplitl [HS3]; · iexact HS3
    isplitl [HS4]; · iexact HS4
    iexact HS5

end Cert.KernelIdeal.Body

end
-- ==== Proof.KISpecB.lean ====
/-
  The attention body in case B — the first key tile of a later query tile: the query projection and the running state are formed afresh, this key tile's slabs are read from the caches, which stay as they are — with every buffer's contents after the run named:
  the inputs as they were; the query projection q; the running maximum, denominator and accumulator after absorbing this
  key tile (mNext, lNext, accNext of the projected keys k and the values v of the tile); the caches slab by slab.
-/
import proofs.«409618_j42356967473584_3_alg».proof.Proof.KIRunB
import proofs.«409618_j42356967473584_3_alg».proof.Proof.KICache
import Idealize.ShloMosaic.Lib.Pipeline.Value

set_option maxRecDepth 16384

noncomputable section

namespace Cert.KernelIdeal.Body

open Cert.KernelIdeal Cert.KernelIdeal.Gen Cert.KernelIdeal.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem specB_hz2 : (![0, 0] : Fin 2 → Nat) = fun _ => 0 := funext fun a => by fin_cases a <;> rfl
theorem specB_hz3 : (![0, 0, 0] : Fin 3 → Nat) = fun _ => 0 := funext fun a => by fin_cases a <;> rfl

/-- Contents whose last store went through the whole-shape rectangle at zero offsets read as that store's payload,
    whatever was stored before and whatever the buffer held. -/
theorem specB_read_writes_cons_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- The slab offset of a grid point is its key tile: a word made of a number below 2 is that number. -/
theorem specB_off2_eq (i : grid0.Coords) : k0_off2 i = ![(kvC i).val, 0, 0] := by
  have h2 : (i 2).val < 2 := (i 2).isLt
  unfold k0_off2 kvC
  dsimp only [Scalar.indexCast]
  rw [BitVec.toNat_ofNat, Nat.mod_eq_of_lt (by omega)]

/-- A load of one slab of a cache reads the cache's slice at that key tile. -/
theorem specB_ld_slab (i : grid0.Coords) (X : Vec F S2x2048x256 .bf16) (inb : ∀ a, k0_off2 i a + S1x2048x256.size a ≤ S2x2048x256.size a) :
    View.ld X (Rect.unit (s := S2x2048x256) (k0_off2 i) S1x2048x256.size inb) = sl (kvC i) X := by
  have e0 : k0_off2 i 0 = (kvC i).val := by rw [specB_off2_eq]; rfl
  have e1 : k0_off2 i 1 = 0 := by rw [specB_off2_eq]; rfl
  have e2 : k0_off2 i 2 = 0 := by rw [specB_off2_eq]; rfl
  funext y
  show X _ = X _
  congr 1
  funext a
  apply Fin.ext
  have h0 : (y 0).val = 0 := by have : (y 0).val < 1 := (y 0).isLt; omega
  match a with
  | ⟨0, _⟩ => show k0_off2 i 0 + 1 * (y 0).val = (kvC i).val; rw [e0, h0]; omega
  | ⟨1, _⟩ => show k0_off2 i 1 + 1 * (y 1).val = (y 1).val; rw [e1]; omega
  | ⟨2, _⟩ => show k0_off2 i 2 + 1 * (y 2).val = (y 2).val; rw [e2]; omega

/-- The query projection's buffer after the run: the projection of this query tile. -/
theorem specB_LS0 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg13.view.read (Elt F) (arg13.view.writes (Elt F) (harg13.unread xs0) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).1) = k0_pay5 x0 x3 x4 := by
  unfold kernelRun_B
  dsimp only
  sl_unfold_run_names
  rw [specB_read_writes_cons_unit_zero (S := S1024x256) _ _ specB_hz2]
  simp only [View.readAt_eq_ld, harg3.read_unread, harg5.read_unread, harg6.read_unread, harg7.read_unread, harg17.read_unread, harg18.read_unread, View.ld_unit_zero (S := S1x1024x256) specB_hz3, View.ld_unit_zero (S := S256x256) specB_hz2, View.ld_unit_zero (S := S1x256) specB_hz2, View.ld_unit_zero (S := S1x1x2048) specB_hz3, View.readCov_unit_zero (S := S1024x256) _ specB_hz2, View.readCov_unit_zero (S := S1024x1) _ specB_hz2]

/-- The accumulator after the run: reset, then this key tile absorbed. -/
theorem specB_LS1 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg14.view.read (Elt F) (arg14.view.writes (Elt F) (harg14.unread xs1) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.1) = accNext (sl (kvC i) xs5) (sl (kvC i) xs4) (k0_pay5 x0 x3 x4) x2 k0_pay6 k0_pay8 := by
  unfold kernelRun_B
  dsimp only
  sl_unfold_run_names
  rw [specB_read_writes_cons_unit_zero (S := S1024x256) _ _ specB_hz2]
  unfold accNext
  simp only [View.readAt_eq_ld, harg3.read_unread, harg5.read_unread, harg6.read_unread, harg7.read_unread, harg17.read_unread, harg18.read_unread, View.ld_unit_zero (S := S1x1024x256) specB_hz3, View.ld_unit_zero (S := S256x256) specB_hz2, View.ld_unit_zero (S := S1x256) specB_hz2, View.ld_unit_zero (S := S1x1x2048) specB_hz3, View.readCov_unit_zero (S := S1024x256) _ specB_hz2, View.readCov_unit_zero (S := S1024x1) _ specB_hz2]
  rw [← specB_ld_slab i xs5 (k0_off2_inb i), ← specB_ld_slab i xs4 (k0_off2_inb i)]

/-- The running maximum after the run: reset, then this key tile absorbed. -/
theorem specB_LS2 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg15.view.read (Elt F) (arg15.view.writes (Elt F) (harg15.unread xs2) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.1) = mNext (sl (kvC i) xs4) (k0_pay5 x0 x3 x4) x2 k0_pay6 := by
  unfold kernelRun_B
  dsimp only
  sl_unfold_run_names
  rw [specB_read_writes_cons_unit_zero (S := S1024x1) _ _ specB_hz2]
  unfold mNext
  simp only [View.readAt_eq_ld, harg3.read_unread, harg5.read_unread, harg6.read_unread, harg7.read_unread, harg17.read_unread, harg18.read_unread, View.ld_unit_zero (S := S1x1024x256) specB_hz3, View.ld_unit_zero (S := S256x256) specB_hz2, View.ld_unit_zero (S := S1x256) specB_hz2, View.ld_unit_zero (S := S1x1x2048) specB_hz3, View.readCov_unit_zero (S := S1024x256) _ specB_hz2, View.readCov_unit_zero (S := S1024x1) _ specB_hz2]
  rw [← specB_ld_slab i xs4 (k0_off2_inb i)]

/-- The running denominator after the run: reset, then this key tile absorbed. -/
theorem specB_LS3 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg16.view.read (Elt F) (arg16.view.writes (Elt F) (harg16.unread xs3) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.1) = lNext (sl (kvC i) xs4) (k0_pay5 x0 x3 x4) x2 k0_pay6 k0_pay7 := by
  unfold kernelRun_B
  dsimp only
  sl_unfold_run_names
  rw [specB_read_writes_cons_unit_zero (S := S1024x1) _ _ specB_hz2]
  unfold lNext
  simp only [View.readAt_eq_ld, harg3.read_unread, harg5.read_unread, harg6.read_unread, harg7.read_unread, harg17.read_unread, harg18.read_unread, View.ld_unit_zero (S := S1x1024x256) specB_hz3, View.ld_unit_zero (S := S256x256) specB_hz2, View.ld_unit_zero (S := S1x256) specB_hz2, View.ld_unit_zero (S := S1x1x2048) specB_hz3, View.readCov_unit_zero (S := S1024x256) _ specB_hz2, View.readCov_unit_zero (S := S1024x1) _ specB_hz2]
  rw [← specB_ld_slab i xs4 (k0_off2_inb i)]

/-- The key cache is only read: it comes back as it was. -/
theorem specB_LS4 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg17.view.read (Elt F) (arg17.view.writes (Elt F) (harg17.unread xs4) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1) = xs4 := by
  unfold kernelRun_B
  dsimp only
  exact harg17.read_unread xs4

/-- The value cache is only read: it comes back as it was. -/
theorem specB_LS5 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg18.view.read (Elt F) (arg18.view.writes (Elt F) (harg18.unread xs5) (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1) = xs5 := by
  unfold kernelRun_B
  dsimp only
  exact harg18.read_unread xs5

/-- The body's run in case B with every buffer's contents after it named. -/
theorem run_B_spec (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : condKv0 i) (hc2 : ¬condLd0 i) (hc3 : ¬condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare (k0_pay5 x0 x3 x4) ∗ owns (c : Thread nD τ) arg14 fullShare (accNext (sl (kvC i) xs5) (sl (kvC i) xs4) (k0_pay5 x0 x3 x4) x2 k0_pay6 k0_pay8) ∗ owns (c : Thread nD τ) arg15 fullShare (mNext (sl (kvC i) xs4) (k0_pay5 x0 x3 x4) x2 k0_pay6) ∗ owns (c : Thread nD τ) arg16 fullShare (lNext (sl (kvC i) xs4) (k0_pay5 x0 x3 x4) x2 k0_pay6 k0_pay7) ∗ owns (c : Thread nD τ) arg17 fullShare xs4 ∗ owns (c : Thread nD τ) arg18 fullShare xs5) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  intro E K
  iintro ⟨H0, H1, H2, H3, H4, H5, H6, H7, H8, H9, HS0, HS1, HS2, HS3, HS4, HS5, Hk⟩
  iapply ((kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]
  · unfold owns; iexists _; isplitr; swap; iexact HS0
    ipureintro; exact specB_LS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS1]
  · unfold owns; iexists _; isplitr; swap; iexact HS1
    ipureintro; exact specB_LS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS2]
  · unfold owns; iexists _; isplitr; swap; iexact HS2
    ipureintro; exact specB_LS2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS3]
  · unfold owns; iexists _; isplitr; swap; iexact HS3
    ipureintro; exact specB_LS3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS4]
  · unfold owns; iexists _; isplitr; swap; iexact HS4
    ipureintro; exact specB_LS4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  · unfold owns; iexists _; isplitr; swap; iexact HS5
    ipureintro; exact specB_LS5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5

end Cert.KernelIdeal.Body

end
-- ==== Proof.KIRunC.lean ====
/-
  The attention body run in case C: the last key tile, the first query tile.
  On whole memrefs — the nine inputs at their contents, the output and the six scratch buffers at given contents —
  the body runs to the end and hands back the inputs as they were, the output with its store written, and each scratch buffer
  with the stores it received written over what it held; those stores, as pieces, are the witness the run finds.
-/
import proofs.«409618_j42356967473584_3_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    Σ' (L9 : List (View.Piece (Elt F) S1x1024x256 .f32)) (LS0 : List (View.Piece (Elt F) S1024x256 .bf16)) (LS1 : List (View.Piece (Elt F) S1024x256 .f32)) (LS2 : List (View.Piece (Elt F) S1024x1 .f32)) (LS3 : List (View.Piece (Elt F) S1024x1 .f32)) (LS4 : List (View.Piece (Elt F) S2x2048x256 .bf16)), { LS5 : List (View.Piece (Elt F) S2x2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (arg12.view.loc (c : Thread nD τ) ↦[arg12.view.set]{fullShare} arg12.view.writes (Elt F) (harg12.unread xi9) L9) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3) ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], ?_, ?_, ?_, ?_, ?_, fun E K => ?run⟩
  case run =>
    simp only [cc0__gated_attention_kernel_eq_skeleton]; unfold cc0__gated_attention_kernel_skel
    simp only [k0_part1_eq_skeleton]
    try simp only [View.writes_nil]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexact H9
    isplitl [HS0]; · iexact HS0
    isplitl [HS1]; · iexact HS1
    isplitl [HS2]; · iexact HS2
    isplitl [HS3]; · iexact HS3
    isplitl [HS4]; · iexact HS4
    iexact HS5

end Cert.KernelIdeal.Body

end
-- ==== Proof.KISpecC.lean ====
/-
  The attention body in case C — the last key tile of the first query tile: this key tile's slab of each cache is written and used, the running state absorbs it, and the output block is the gate of the normalised accumulator — with every buffer's contents after the run named:
  the inputs as they were; the query projection q; the running maximum, denominator and accumulator after absorbing this
  key tile (mNext, lNext, accNext of the projected keys k and the values v of the tile); the caches slab by slab.
-/
import proofs.«409618_j42356967473584_3_alg».proof.Proof.KIRunC
import proofs.«409618_j42356967473584_3_alg».proof.Proof.KICache
import Idealize.ShloMosaic.Lib.Pipeline.Value
import Idealize.ShloMosaic.Lib.WritesUnit
import Idealize.ShloMosaic.Lib.Exec.Geometry

set_option maxRecDepth 16384

noncomputable section

namespace Cert.KernelIdeal.Body

open Cert.KernelIdeal Cert.KernelIdeal.Gen Cert.KernelIdeal.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces the run found leave in each buffer -/

namespace SpecC

section General

variable {sg : RefSig} {κ : Kind} {sp : Space} {S : Shape} {e : EltTy} {Val : EltTy → Type}

/-- One store through the whole shape leaves its payload, whatever the buffer held. -/
theorem read_writes_unit_zero (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  subst h; exact View.read_writes_whole v f w

/-- A load through the rectangle the one store was made through reads the stored payload. -/
theorem readCov_unit_same [∀ e, Nonempty (Val e)] (v : View sg κ sp S e) {off size : Fin S.rank → Nat}
    (inb inb' : ∀ a, off a + size a ≤ S.size a) (w : (Rect.unit off size inb).shape.Idx → Val e) :
    v.readCov [(⟨Rect.unit off size inb, w⟩ : View.Piece Val S e)] (Rect.unit off size inb').toLoadRect = w := by
  funext j
  exact View.read_writes_cons_emb v v.junk (Rect.unit off size inb) w [] j

/-- After one store of a slab into a two-slab cache, the stored slab reads the payload. -/
theorem cache_hit (v : View sg κ sp S2x2048x256 e) (f : v.ty.Contents Val) (kv : Fin 2) {off : Fin 3 → Nat}
    (hoff : off = ![kv.val, 0, 0]) (inb : ∀ a, off a + S1x2048x256.size a ≤ S2x2048x256.size a)
    (w : (Rect.unit (s := S2x2048x256) off S1x2048x256.size inb).shape.Idx → Val e) (y : S1x2048x256.Idx) :
    v.read Val (v.writes Val f [(⟨Rect.unit (s := S2x2048x256) off S1x2048x256.size inb, w⟩ : View.Piece Val S2x2048x256 e)])
      (ValueIdx.ix3 kv (y 1) (y 2)) = w y := by
  refine View.read_writes_cons_unit_of_mem v f inb w [] (ValueIdx.ix3 kv (y 1) (y 2)) y hoff ?_
  intro a
  fin_cases a
  · show kv.val = kv.val + (y 0).val
    have h0 : (y 0).val < 1 := (y 0).isLt
    omega
  · show (y 1).val = 0 + (y 1).val
    omega
  · show (y 2).val = 0 + (y 2).val
    omega

/-- and the other slab reads what the cache held. -/
theorem cache_miss (v : View sg κ sp S2x2048x256 e) (f : v.ty.Contents Val) (kv kv' : Fin 2) (hne : kv' ≠ kv)
    {off : Fin 3 → Nat} (hoff : off = ![kv.val, 0, 0]) (inb : ∀ a, off a + S1x2048x256.size a ≤ S2x2048x256.size a)
    (w : (Rect.unit (s := S2x2048x256) off S1x2048x256.size inb).shape.Idx → Val e) (y : S1x2048x256.Idx) :
    v.read Val (v.writes Val f [(⟨Rect.unit (s := S2x2048x256) off S1x2048x256.size inb, w⟩ : View.Piece Val S2x2048x256 e)])
      (ValueIdx.ix3 kv' (y 1) (y 2)) = v.read Val f (ValueIdx.ix3 kv' (y 1) (y 2)) := by
  refine View.read_writes_cons_unit_of_not_mem v f inb w [] (ValueIdx.ix3 kv' (y 1) (y 2)) hoff 0 ?_
  have h : kv'.val ≠ kv.val := fun h => hne (Fin.ext h)
  show kv'.val < kv.val ∨ kv.val + 1 ≤ kv'.val
  omega

end General

theorem hz2 : (![0, 0] : Fin 2 → Nat) = fun _ => 0 := funext fun a => by fin_cases a <;> rfl
theorem hz3 : (![0, 0, 0] : Fin 3 → Nat) = fun _ => 0 := funext fun a => by fin_cases a <;> rfl

/-- The slab the body stores and loads is the key tile's. -/
theorem off1_eq (i : grid0.Coords) : k0_off1 i = ![(kvC i).val, 0, 0] := by
  have h : (i 2).val < 2 := (i 2).isLt
  unfold k0_off1 kvC
  simp only [Scalar.indexCast, BitVec.toNat_ofNat]
  rw [Nat.mod_eq_of_lt (by omega)]

/-- The query projection is left as it was. -/
theorem read_LS0 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg13.view.read (Elt F) (arg13.view.writes (Elt F) (harg13.unread xs0) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.1) = xs0 := by
  unfold kernelRun_C
  dsimp only
  exact harg13.read_unread xs0

/-- The running maximum the body leaves. -/
theorem read_LS2 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg15.view.read (Elt F) (arg15.view.writes (Elt F) (harg15.unread xs2) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.1) = mNext (k0_pay11 x1 x5 x6) xs0 x2 xs2 := by
  unfold kernelRun_C
  dsimp only
  sl_unfold_words
  rw [read_writes_unit_zero (S := S1024x1) _ _ hz2]
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]
  generalize hA : View.readCov (Val := Elt F) arg17.view _ _ = A
  obtain rfl : A = k0_pay11 x1 x5 x6 := hA.symm.trans (readCov_unit_same (S := S2x2048x256) arg17.view _ _ _)
  rfl

/-- The running denominator the body leaves. -/
theorem read_LS3 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg16.view.read (Elt F) (arg16.view.writes (Elt F) (harg16.unread xs3) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1) = lNext (k0_pay11 x1 x5 x6) xs0 x2 xs2 xs3 := by
  unfold kernelRun_C
  dsimp only
  sl_unfold_words
  rw [read_writes_unit_zero (S := S1024x1) _ _ hz2]
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]
  generalize hA : View.readCov (Val := Elt F) arg17.view _ _ = A
  obtain rfl : A = k0_pay11 x1 x5 x6 := hA.symm.trans (readCov_unit_same (S := S2x2048x256) arg17.view _ _ _)
  rfl

/-- The running accumulator the body leaves. -/
theorem read_LS1 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg14.view.read (Elt F) (arg14.view.writes (Elt F) (harg14.unread xs1) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.1) = accNext (k0_pay10 x1) (k0_pay11 x1 x5 x6) xs0 x2 xs2 xs1 := by
  unfold kernelRun_C
  dsimp only
  sl_unfold_words
  rw [read_writes_unit_zero (S := S1024x256) _ _ hz2]
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]
  generalize hA : View.readCov (Val := Elt F) arg17.view _ _ = A
  obtain rfl : A = k0_pay11 x1 x5 x6 := hA.symm.trans (readCov_unit_same (S := S2x2048x256) arg17.view _ _ _)
  generalize hB : View.readCov (Val := Elt F) arg18.view _ _ = B
  obtain rfl : B = k0_pay10 x1 := hB.symm.trans (readCov_unit_same (S := S2x2048x256) arg18.view _ _ _)
  rfl

/-- The output block the body leaves: the gate of the accumulator over the denominator, both as just updated. -/
theorem read_L9 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg12.view.read (Elt F) (arg12.view.writes (Elt F) (harg12.unread xi9) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).1) = k0_pay4 (accNext (k0_pay10 x1) (k0_pay11 x1 x5 x6) xs0 x2 xs2 xs1) (lNext (k0_pay11 x1 x5 x6) xs0 x2 xs2 xs3) x0 x7 x8 := by
  unfold kernelRun_C
  dsimp only
  sl_unfold_words
  rw [read_writes_unit_zero (S := S1x1024x256) _ _ hz3]
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]
  generalize hA : View.readCov (Val := Elt F) arg17.view _ _ = A
  obtain rfl : A = k0_pay11 x1 x5 x6 := hA.symm.trans (readCov_unit_same (S := S2x2048x256) arg17.view _ _ _)
  generalize hB : View.readCov (Val := Elt F) arg18.view _ _ = B
  obtain rfl : B = k0_pay10 x1 := hB.symm.trans (readCov_unit_same (S := S2x2048x256) arg18.view _ _ _)
  rfl

/-- The key tile's slab of the key cache holds what the body stored there. -/
theorem hit_LS4 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    sl (kvC i) (arg17.view.read (Elt F) (arg17.view.writes (Elt F) (harg17.unread xs4) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1)) = k0_pay11 x1 x5 x6 := by
  unfold kernelRun_C
  dsimp only
  sl_unfold_words
  funext y
  try unfold sl
  refine (cache_hit arg17.view _ (kvC i) (off1_eq i) _ _ y).trans ?_
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]

/-- The other slab of the key cache holds what it held. -/
theorem miss_LS4 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) (kv : Fin 2) (hkv : kv ≠ kvC i) :
    sl kv (arg17.view.read (Elt F) (arg17.view.writes (Elt F) (harg17.unread xs4) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1)) = sl kv xs4 := by
  unfold kernelRun_C
  dsimp only
  sl_unfold_words
  funext y
  try unfold sl
  refine (cache_miss arg17.view _ (kvC i) kv hkv (off1_eq i) _ _ y).trans ?_
  rw [harg17.read_unread]

/-- The key tile's slab of the value cache holds what the body stored there. -/
theorem hit_LS5 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    sl (kvC i) (arg18.view.read (Elt F) (arg18.view.writes (Elt F) (harg18.unread xs5) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.1)) = k0_pay10 x1 := by
  unfold kernelRun_C
  dsimp only
  sl_unfold_words
  funext y
  try unfold sl
  refine (cache_hit arg18.view _ (kvC i) (off1_eq i) _ _ y).trans ?_
  simp only [View.readAt_eq_ld, harg3.read_unread, harg4.read_unread, harg5.read_unread, harg8.read_unread, harg9.read_unread, harg10.read_unread, harg11.read_unread, harg13.read_unread, harg14.read_unread, harg15.read_unread, harg16.read_unread, View.ld_unit_zero (S := S1x1024x256) hz3, View.ld_unit_zero (S := S1x2048x256) hz3, View.ld_unit_zero (S := S1x1x2048) hz3, View.ld_unit_zero (S := S256x256) hz2, View.ld_unit_zero (S := S1x256) hz2, View.ld_unit_zero (S := S512x256) hz2, View.ld_unit_zero (S := S1024x256) hz2, View.ld_unit_zero (S := S1024x1) hz2, readCov_unit_same, View.readCov_unit_zero (S := S1024x256) _ hz2, View.readCov_unit_zero (S := S1024x1) _ hz2]

/-- The other slab of the value cache holds what it held. -/
theorem miss_LS5 (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) (kv : Fin 2) (hkv : kv ≠ kvC i) :
    sl kv (arg18.view.read (Elt F) (arg18.view.writes (Elt F) (harg18.unread xs5) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.1)) = sl kv xs5 := by
  unfold kernelRun_C
  dsimp only
  sl_unfold_words
  funext y
  try unfold sl
  refine (cache_miss arg18.view _ (kvC i) kv hkv (off1_eq i) _ _ y).trans ?_
  rw [harg18.read_unread]

end SpecC

/-- The body in case C, with every buffer's contents after the run named. -/
theorem run_C_spec (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    ∃ (S4' S5' : Vec F S2x2048x256 .bf16),
      (sl (kvC i) S4' = (k0_pay11 x1 x5 x6) ∧ ∀ kv : Fin 2, kv ≠ kvC i → sl kv S4' = sl kv xs4)
      ∧ (sl (kvC i) S5' = (k0_pay10 x1) ∧ ∀ kv : Fin 2, kv ≠ kvC i → sl kv S5' = sl kv xs5)
      ∧ ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay4 (accNext (k0_pay10 x1) (k0_pay11 x1 x5 x6) xs0 x2 xs2 xs1) (lNext (k0_pay11 x1 x5 x6) xs0 x2 xs2 xs3) x0 x7 x8) ∗ owns (c : Thread nD τ) arg13 fullShare xs0 ∗ owns (c : Thread nD τ) arg14 fullShare (accNext (k0_pay10 x1) (k0_pay11 x1 x5 x6) xs0 x2 xs2 xs1) ∗ owns (c : Thread nD τ) arg15 fullShare (mNext (k0_pay11 x1 x5 x6) xs0 x2 xs2) ∗ owns (c : Thread nD τ) arg16 fullShare (lNext (k0_pay11 x1 x5 x6) xs0 x2 xs2 xs3) ∗ owns (c : Thread nD τ) arg17 fullShare S4' ∗ owns (c : Thread nD τ) arg18 fullShare S5') -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  refine ⟨arg17.view.read (Elt F) (arg17.view.writes (Elt F) (harg17.unread xs4) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1),
    arg18.view.read (Elt F) (arg18.view.writes (Elt F) (harg18.unread xs5) (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.1),
    ⟨SpecC.hit_LS4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5, fun kv hkv => SpecC.miss_LS4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5 kv hkv⟩,
    ⟨SpecC.hit_LS5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5, fun kv hkv => SpecC.miss_LS5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5 kv hkv⟩, fun E K => ?_⟩
  iintro ⟨H0, H1, H2, H3, H4, H5, H6, H7, H8, H9, HS0, HS1, HS2, HS3, HS4, HS5, Hk⟩
  iapply ((kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact SpecC.read_L9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS0]
  · unfold owns; iexists _; isplitr; swap; · iexact HS0
    ipureintro; exact SpecC.read_LS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS1]
  · unfold owns; iexists _; isplitr; swap; · iexact HS1
    ipureintro; exact SpecC.read_LS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS2]
  · unfold owns; iexists _; isplitr; swap; · iexact HS2
    ipureintro; exact SpecC.read_LS2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS3]
  · unfold owns; iexists _; isplitr; swap; · iexact HS3
    ipureintro; exact SpecC.read_LS3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [HS4]
  · unfold owns; iexists _; isplitr; swap; · iexact HS4
    ipureintro; exact rfl
  unfold owns; iexists _; isplitr; swap; · iexact HS5
  ipureintro; exact rfl

end Cert.KernelIdeal.Body

end
-- ==== Proof.KIRunD.lean ====
/-
  The attention body run in case D: the last key tile, a later query tile.
  On whole memrefs — the nine inputs at their contents, the output and the six scratch buffers at given contents —
  the body runs to the end and hands back the inputs as they were, the output with its store written, and each scratch buffer
  with the stores it received written over what it held; those stores, as pieces, are the witness the run finds.
-/
import proofs.«409618_j42356967473584_3_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_D (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    Σ' (L9 : List (View.Piece (Elt F) S1x1024x256 .f32)) (LS0 : List (View.Piece (Elt F) S1024x256 .bf16)) (LS1 : List (View.Piece (Elt F) S1024x256 .f32)) (LS2 : List (View.Piece (Elt F) S1024x1 .f32)) (LS3 : List (View.Piece (Elt F) S1024x1 .f32)) (LS4 : List (View.Piece (Elt F) S2x2048x256 .bf16)), { LS5 : List (View.Piece (Elt F) S2x2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (arg12.view.loc (c : Thread nD τ) ↦[arg12.view.set]{fullShare} arg12.view.writes (Elt F) (harg12.unread xi9) L9) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3) ∗ (arg17.view.loc (c : Thread nD τ) ↦[arg17.view.set]{fullShare} arg17.view.writes (Elt F) (harg17.unread xs4) LS4) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], ?_, ?_, ?_, [], [], fun E K => ?run⟩
  case run =>
    simp only [cc0__gated_attention_kernel_eq_skeleton]; unfold cc0__gated_attention_kernel_skel
    simp only [k0_part1_eq_skeleton]
    try simp only [View.writes_nil]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexact H9
    isplitl [HS0]; · iexact HS0
    isplitl [HS1]; · iexact HS1
    isplitl [HS2]; · iexact HS2
    isplitl [HS3]; · iexact HS3
    isplitl [HS4]; · iexact HS4
    iexact HS5

end Cert.KernelIdeal.Body

end
-- ==== Proof.KISpecD.lean ====
/-
  The attention body in case D — the last key tile of a later query tile: this key tile's slabs are read from the caches, the running state absorbs it, and the output block is the gate of the normalised accumulator — with every buffer's contents after the run named:
  the inputs as they were; the query projection q; the running maximum, denominator and accumulator after absorbing this
  key tile (mNext, lNext, accNext of the projected keys k and the values v of the tile); the caches slab by slab.
-/
import proofs.«409618_j42356967473584_3_alg».proof.Proof.KIRunD
import proofs.«409618_j42356967473584_3_alg».proof.Proof.KICache
import Idealize.ShloMosaic.Lib.Pipeline.Value

set_option maxRecDepth 16384

noncomputable section

namespace Cert.KernelIdeal.Body

open Cert.KernelIdeal Cert.KernelIdeal.Gen Cert.KernelIdeal.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a whole buffer and a cache slab -/

theorem runD_hz2 : (![0, 0] : Fin 2 → Nat) = fun _ => 0 := funext fun a => by fin_cases a <;> rfl
theorem runD_hz3 : (![0, 0, 0] : Fin 3 → Nat) = fun _ => 0 := funext fun a => by fin_cases a <;> rfl

/-- One store through the whole-shape rectangle at zero offsets leaves its payload, whatever the buffer held. -/
theorem runD_read_unit {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- The first offset of the slab load is the key tile: the word of a number below 2 is the number. -/
theorem runD_off2 (i : grid0.Coords) : k0_off2 i 0 = (kvC i).val := by
  have h : (i 2).val < 2 := (i 2).isLt
  show (BitVec.ofNat 32 (i 2).val).toNat = (i 2).val
  rw [BitVec.toNat_ofNat]; exact Nat.mod_eq_of_lt (by omega)

/-- A load of one slab of a cache, at the key tile's offset, reads the slab. -/
theorem runD_ld_slab (i : grid0.Coords) (inb : ∀ a, k0_off2 i a + S1x2048x256.size a ≤ S2x2048x256.size a)
    (d : Vec F S2x2048x256 .bf16) :
    View.ld d (Rect.unit (s := S2x2048x256) (k0_off2 i) S1x2048x256.size inb) = sl (kvC i) d := by
  funext y
  show d _ = d _
  congr 1
  funext a
  apply Fin.ext
  match a with
  | ⟨0, _⟩ =>
    have h0 : (y 0).val < 1 := (y 0).isLt
    show k0_off2 i 0 + 1 * (y 0).val = (kvC i).val
    rw [runD_off2]; omega
  | ⟨1, _⟩ => show 0 + 1 * (y 1).val = (y 1).val; omega
  | ⟨2, _⟩ => show 0 + 1 * (y 2).val = (y 2).val; omega

/-! ## What the run leaves in each written buffer -/

/-- The denominator buffer ends at the denominator after this key tile. -/
theorem runD_l (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg16.view.read (Elt F) (arg16.view.writes (Elt F) (harg16.unread xs3) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.1)
      = lNext (sl (kvC i) xs4) xs0 x2 xs2 xs3 := by
  unfold kernelRun_D
  dsimp only
  sl_unfold_run_names
  rw [runD_read_unit (S := S1024x1) _ _ runD_hz2]
  simp only [View.readCov_unit_zero (S := S1024x256) _ runD_hz2, View.readCov_unit_zero (S := S1024x1) _ runD_hz2, View.readAt_eq_ld, harg3.read_unread, harg5.read_unread, harg10.read_unread, harg11.read_unread, harg13.read_unread, harg14.read_unread, harg15.read_unread, harg16.read_unread, harg17.read_unread, harg18.read_unread, View.ld_unit_zero (S := S1x1024x256) runD_hz3, View.ld_unit_zero (S := S1x1x2048) runD_hz3, View.ld_unit_zero (S := S1024x256) runD_hz2, View.ld_unit_zero (S := S1024x1) runD_hz2, View.ld_unit_zero (S := S512x256) runD_hz2, View.ld_unit_zero (S := S1x256) runD_hz2, lNext, mNext, accNext]
  rw [runD_ld_slab i _ xs4]

/-- The maximum buffer ends at the maximum after this key tile. -/
theorem runD_m (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg15.view.read (Elt F) (arg15.view.writes (Elt F) (harg15.unread xs2) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.1)
      = mNext (sl (kvC i) xs4) xs0 x2 xs2 := by
  unfold kernelRun_D
  dsimp only
  sl_unfold_run_names
  rw [runD_read_unit (S := S1024x1) _ _ runD_hz2]
  simp only [View.readCov_unit_zero (S := S1024x256) _ runD_hz2, View.readCov_unit_zero (S := S1024x1) _ runD_hz2, View.readAt_eq_ld, harg3.read_unread, harg5.read_unread, harg10.read_unread, harg11.read_unread, harg13.read_unread, harg14.read_unread, harg15.read_unread, harg16.read_unread, harg17.read_unread, harg18.read_unread, View.ld_unit_zero (S := S1x1024x256) runD_hz3, View.ld_unit_zero (S := S1x1x2048) runD_hz3, View.ld_unit_zero (S := S1024x256) runD_hz2, View.ld_unit_zero (S := S1024x1) runD_hz2, View.ld_unit_zero (S := S512x256) runD_hz2, View.ld_unit_zero (S := S1x256) runD_hz2, lNext, mNext, accNext]
  rw [runD_ld_slab i _ xs4]

/-- The accumulator buffer ends at the accumulator after this key tile. -/
theorem runD_acc (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg14.view.read (Elt F) (arg14.view.writes (Elt F) (harg14.unread xs1) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.1)
      = accNext (sl (kvC i) xs5) (sl (kvC i) xs4) xs0 x2 xs2 xs1 := by
  unfold kernelRun_D
  dsimp only
  sl_unfold_run_names
  rw [runD_read_unit (S := S1024x256) _ _ runD_hz2]
  simp only [View.readCov_unit_zero (S := S1024x256) _ runD_hz2, View.readCov_unit_zero (S := S1024x1) _ runD_hz2, View.readAt_eq_ld, harg3.read_unread, harg5.read_unread, harg10.read_unread, harg11.read_unread, harg13.read_unread, harg14.read_unread, harg15.read_unread, harg16.read_unread, harg17.read_unread, harg18.read_unread, View.ld_unit_zero (S := S1x1024x256) runD_hz3, View.ld_unit_zero (S := S1x1x2048) runD_hz3, View.ld_unit_zero (S := S1024x256) runD_hz2, View.ld_unit_zero (S := S1024x1) runD_hz2, View.ld_unit_zero (S := S512x256) runD_hz2, View.ld_unit_zero (S := S1x256) runD_hz2, lNext, mNext, accNext]
  rw [runD_ld_slab i _ xs4, runD_ld_slab i _ xs5]

/-- The output block ends at the gate of the normalised accumulator. -/
theorem runD_out (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg12.view.read (Elt F) (arg12.view.writes (Elt F) (harg12.unread xi9) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).1)
      = k0_pay4 (accNext (sl (kvC i) xs5) (sl (kvC i) xs4) xs0 x2 xs2 xs1) (lNext (sl (kvC i) xs4) xs0 x2 xs2 xs3) x0 x7 x8 := by
  unfold kernelRun_D
  dsimp only
  sl_unfold_run_names
  rw [runD_read_unit (S := S1x1024x256) _ _ runD_hz3]
  simp only [View.readCov_unit_zero (S := S1024x256) _ runD_hz2, View.readCov_unit_zero (S := S1024x1) _ runD_hz2, View.readAt_eq_ld, harg3.read_unread, harg5.read_unread, harg10.read_unread, harg11.read_unread, harg13.read_unread, harg14.read_unread, harg15.read_unread, harg16.read_unread, harg17.read_unread, harg18.read_unread, View.ld_unit_zero (S := S1x1024x256) runD_hz3, View.ld_unit_zero (S := S1x1x2048) runD_hz3, View.ld_unit_zero (S := S1024x256) runD_hz2, View.ld_unit_zero (S := S1024x1) runD_hz2, View.ld_unit_zero (S := S512x256) runD_hz2, View.ld_unit_zero (S := S1x256) runD_hz2, lNext, mNext, accNext]
  rw [runD_ld_slab i _ xs4, runD_ld_slab i _ xs5]

/-- The query projection's buffer received no store. -/
theorem runD_q (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg13.view.read (Elt F) (arg13.view.writes (Elt F) (harg13.unread xs0) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.1) = xs0 := by
  unfold kernelRun_D
  dsimp only
  rw [View.writes_nil]; exact harg13.read_unread xs0

/-- The key cache received no store. -/
theorem runD_kc (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg17.view.read (Elt F) (arg17.view.writes (Elt F) (harg17.unread xs4) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.1) = xs4 := by
  unfold kernelRun_D
  dsimp only
  rw [View.writes_nil]; exact harg17.read_unread xs4

/-- The value cache received no store. -/
theorem runD_vc (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    arg18.view.read (Elt F) (arg18.view.writes (Elt F) (harg18.unread xs5) (kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.1) = xs5 := by
  unfold kernelRun_D
  dsimp only
  rw [View.writes_nil]; exact harg18.read_unread xs5

theorem run_D_spec (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S1x1024x256 .f32) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x1 .f32) (harg16 : arg16.IsWhole) (arg17 : Memref sig .tc .vmem S2x2048x256 .bf16) (harg17 : arg17.IsWhole) (arg18 : Memref sig .tc .vmem S2x2048x256 .bf16) (harg18 : arg18.IsWhole)
    (hc1 : ¬condKv0 i) (hc2 : ¬condLd0 i) (hc3 : condKv1 i)
    (x0 : Vec F S1x1024x256 .f32) (x1 : Vec F S1x2048x256 .f32) (x2 : Vec F S1x1x2048 .f32) (x3 : Vec F S256x256 .f32) (x4 : Vec F S1x256 .f32) (x5 : Vec F S256x256 .f32) (x6 : Vec F S1x256 .f32) (x7 : Vec F S512x256 .f32) (x8 : Vec F S1x256 .f32) (xi9 : Vec F S1x1024x256 .f32) (xs0 : Vec F S1024x256 .bf16) (xs1 : Vec F S1024x256 .f32) (xs2 : Vec F S1024x1 .f32) (xs3 : Vec F S1024x1 .f32) (xs4 : Vec F S2x2048x256 .bf16) (xs5 : Vec F S2x2048x256 .bf16) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay4 (accNext (sl (kvC i) xs5) (sl (kvC i) xs4) xs0 x2 xs2 xs1) (lNext (sl (kvC i) xs4) xs0 x2 xs2 xs3) x0 x7 x8) ∗ owns (c : Thread nD τ) arg13 fullShare xs0 ∗ owns (c : Thread nD τ) arg14 fullShare (accNext (sl (kvC i) xs5) (sl (kvC i) xs4) xs0 x2 xs2 xs1) ∗ owns (c : Thread nD τ) arg15 fullShare (mNext (sl (kvC i) xs4) xs0 x2 xs2) ∗ owns (c : Thread nD τ) arg16 fullShare (lNext (sl (kvC i) xs4) xs0 x2 xs2 xs3) ∗ owns (c : Thread nD τ) arg17 fullShare xs4 ∗ owns (c : Thread nD τ) arg18 fullShare xs5) -∗ K ⟨⟩))
          ⊢ wp frame (wpE (defs₀ (F := F)) Variants.none c none) E (cc0__gated_attention_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  intro E K
  iintro ⟨H0, H1, H2, H3, H4, H5, H6, H7, H8, H9, HS0, HS1, HS2, HS3, HS4, HS5, Hk⟩
  iapply ((kernelRun_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨G0, G1, G2, G3, G4, G5, G6, G7, G8, G9, GS0, GS1, GS2, GS3, GS4, GS5⟩
  iapply Hk
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]
  · unfold owns; iexists _; isplitr
    swap; · iexact G9
    ipureintro; exact runD_out c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS0]
  · unfold owns; iexists _; isplitr
    swap; · iexact GS0
    ipureintro; exact runD_q c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS1]
  · unfold owns; iexists _; isplitr
    swap; · iexact GS1
    ipureintro; exact runD_acc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS2]
  · unfold owns; iexists _; isplitr
    swap; · iexact GS2
    ipureintro; exact runD_m c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS3]
  · unfold owns; iexists _; isplitr
    swap; · iexact GS3
    ipureintro; exact runD_l c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  isplitl [GS4]
  · unfold owns; iexists _; isplitr
    swap; · iexact GS4
    ipureintro; exact runD_kc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5
  unfold owns; iexists _; isplitr
  swap; · iexact GS5
  ipureintro; exact runD_vc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 x4 x5 x6 x7 x8 xi9 xs0 xs1 xs2 xs3 xs4 xs5

end Cert.KernelIdeal.Body

end
-- ==== Proof.KIObl.lean ====
/-
  The body obligation of the attention kernel at every grid point, the run and the frame.
  At a point the scratch buffers hold what the invariant says and each input window's buffer holds its block. The point's
  parity says whether it is a first or a last key tile, its position in the batch whether the query tile is the first:
  four cases, each with its run; what the run leaves satisfies the invariant at the next position, and at a last key tile
  the output window's buffer holds the tile's output block. Before the first point nothing is known of the scratch
  buffers and after the last nothing is kept, so the launch's own invariant yields the tracking one and gets it back.
-/
import proofs.«409618_j42356967473584_3_alg».proof.Proof.KIPoint
import proofs.«409618_j42356967473584_3_alg».proof.Proof.KISpecA
import proofs.«409618_j42356967473584_3_alg».proof.Proof.KISpecB
import proofs.«409618_j42356967473584_3_alg».proof.Proof.KISpecC
import proofs.«409618_j42356967473584_3_alg».proof.Proof.KISpecD

set_option maxRecDepth 16384

noncomputable section

namespace Cert.KernelIdeal.Body

open Cert.KernelIdeal Cert.KernelIdeal.Gen Cert.KernelIdeal.Blk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Into and out of the tracking invariant -/

theorem hin (c : Dev nD) : Pipeline.ΦA spec0 c ⊢ (dats (F := F) m 0 c).Φ 0 := by
  rw [PhiA_eq]
  show _ ⊢ Phi m c 0
  unfold Phi
  iintro ⟨⟨⟨%d0, H0⟩, ⟨%d1, H1⟩, ⟨%d2, H2⟩, ⟨%d3, H3⟩, ⟨%d4, H4⟩, ⟨%d5, H5⟩⟩, Hr⟩
  isplitr [Hr]
  · iexists d0; iexists d1; iexists d2; iexists d3; iexists d4; iexists d5
    isplitr; · ipureintro; exact inv_zero m c d0 d1 d2 d3 d4 d5
    isplitl [H0]; · iexact H0
    isplitl [H1]; · iexact H1
    isplitl [H2]; · iexact H2
    isplitl [H3]; · iexact H3
    isplitl [H4]; · iexact H4
    iexact H5
  · iexact Hr

theorem hout (c : Dev nD) : (dats (F := F) m 0 c).Φ (Fin.last cfg0.N) ⊢ Pipeline.ΦA spec0 c := by
  rw [PhiA_eq]
  show Phi m c _ ⊢ _
  unfold Phi
  iintro ⟨⟨%d0, %d1, %d2, %d3, %d4, %d5, -, H0, H1, H2, H3, H4, H5⟩, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  · iexact Hr

/-! ## The body obligation at a point -/

/-- What the output window's buffer holds after the body: the tile's output block where the window is live (a last
    key tile), what it held where it is idle and not written back. -/
def out9 (c : Dev nD) (t : Fin cfg0.N) : sProp 𝕄 :=
  match cfg0.idle 9 (cfg0.grid.coords t) with
  | true =>
    match (cfg0.win 9).flush t with
    | false => iprop(∃ d, owns (c : Thread nD τ) (ms9 t) fullShare ((dats m 0 c).before 9 t d))
    | true => owns (c : Thread nD τ) (ms9 t) fullShare ((dats m 0 c).after 9 t)
  | false => owns (c : Thread nD τ) (ms9 t) fullShare ((dats m 0 c).after 9 t)

theorem out9_idle (c : Dev nD) (t : Fin cfg0.N) (h : ¬condKv1 (grid0.coords t)) :
    out9 m c t = iprop(∃ d, owns (c : Thread nD τ) (ms9 t) fullShare ((dats m 0 c).before 9 t d)) := by
  unfold out9; rw [idleAt9 t h, noFlush9 t h]
theorem out9_live (c : Dev nD) (t : Fin cfg0.N) (h : condKv1 (grid0.coords t)) :
    out9 m c t = owns (c : Thread nD τ) (ms9 t) fullShare ((dats m 0 c).after 9 t) := by
  unfold out9; rw [liveAt9 t h]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ out9 m c t)

/-- The body at any point: the scratch buffers hold what the invariant says, each input window's buffer holds its block;
    the point's parity says whether it is a first or a last key tile, its position in the batch whether the query tile is
    the first; the case's run applies, and what it leaves satisfies the invariant at the next position. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [Phi_castSucc, Phi_succ, show (dats m 0 c).owesAt () t.succ = (dats m 0 c).owesAt () t.castSucc from rfl,
    after0_0, after0_1, after0_2, after0_3, after0_4, after0_5, after0_6, after0_7, after0_8]
  have h32 := lt32 t
  have hx0 : iblk m c 0 t = XBk m c (bN t.val) (ldN t.val) := (iblk0_eq m c t).trans (by rw [bOf_eq, ldOf_eq])
  have hx3 : iblk m c 3 t = Wi m c := iblk3_eq m c t
  have hx4 : iblk m c 4 t = Bi m c := iblk4_eq m c t
  have hx5 : iblk m c 5 t = Wm m c := iblk5_eq m c t
  have hx6 : iblk m c 6 t = Bm m c := iblk6_eq m c t
  have hx7 : iblk m c 7 t = W2 m c := iblk7_eq m c t
  have hx8 : iblk m c 8 t = B2 m c := iblk8_eq m c t
  by_cases h1 : condKv0 (grid0.coords t)
  · -- a first key tile
    have hk : t.val % 2 = 0 := (hcondKv0 t).mp h1
    have h3 : ¬condKv1 (grid0.coords t) := fun h => by have := (hcondKv1 t).mp h; omega
    have hk0 : kvOf t = 0 := Fin.ext (show t.val % 2 = 0 from hk)
    have hkC : kvC (grid0.coords t) = 0 := (kvC_eq_kvOf t).trans hk0
    have hx1 : iblk m c 1 t = MemBk m c (bN t.val) 0 := (iblk1_eq m c t).trans (by rw [bOf_eq, hk0])
    have hx2 : iblk m c 2 t = BiasBk m c (bN t.val) 0 := (iblk2_eq m c t).trans (by rw [bOf_eq, hk0])
    rw [out9_idle m c t h3]
    unfold Phi
    iintro ⟨⟨⟨%d0, %d1, %d2, %d3, %d4, %d5, %hinv, HS0, HS1, HS2, HS3, HS4, HS5⟩, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
    by_cases h2 : condLd0 (grid0.coords t)
    · -- the first query tile: case A
      have h8 : t.val % 8 = 0 := by have := (hcondLd0 t).mp h2; omega
      obtain ⟨S4', S5', ⟨h4a, h4b⟩, ⟨h5a, h5b⟩, hrun⟩ := run_A_spec (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) h1 h2 h3 (iblk m c 0 t) (iblk m c 1 t) (iblk m c 2 t) (iblk m c 3 t) (iblk m c 4 t) (iblk m c 5 t) (iblk m c 6 t) (iblk m c 7 t) (iblk m c 8 t) ((dats m 0 c).before 9 t e9) d0 d1 d2 d3 d4 d5
      rw [hkC] at h4a h5a
      have hnext := inv_A_gen m c t.val h8 (iblk m c 0 t) (iblk m c 1 t) (iblk m c 2 t) (iblk m c 3 t) (iblk m c 4 t) (iblk m c 5 t) (iblk m c 6 t) hx0 hx1 hx2 hx3 hx4 hx5 hx6 h4a h5a
      iapply (hrun Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hr]
      · isplitr [Hr]
        · iexists _; iexists _; iexists _; iexists _; iexists _; iexists _
          isplitr
          swap
          · isplitl [HS0]; · iexact HS0
            isplitl [HS1]; · iexact HS1
            isplitl [HS2]; · iexact HS2
            isplitl [HS3]; · iexact HS3
            isplitl [HS4]; · iexact HS4
            iexact HS5
          · ipureintro
            exact hnext
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · -- a later query tile: case B
      have h8 : 2 ≤ t.val % 8 := by have := (hcondLd0 t).not.mp h2; omega
      have hrun := run_B_spec (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) h1 h2 h3 (iblk m c 0 t) (iblk m c 1 t) (iblk m c 2 t) (iblk m c 3 t) (iblk m c 4 t) (iblk m c 5 t) (iblk m c 6 t) (iblk m c 7 t) (iblk m c 8 t) ((dats m 0 c).before 9 t e9) d0 d1 d2 d3 d4 d5
      rw [hkC] at hrun
      have hnext := inv_B_gen m c t.val h8 hk hinv (iblk m c 0 t) (iblk m c 2 t) (iblk m c 3 t) (iblk m c 4 t) hx0 hx2 hx3 hx4
      iapply (hrun Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hr]
      · isplitr [Hr]
        · iexists _; iexists _; iexists _; iexists _; iexists _; iexists _
          isplitr
          swap
          · isplitl [HS0]; · iexact HS0
            isplitl [HS1]; · iexact HS1
            isplitl [HS2]; · iexact HS2
            isplitl [HS3]; · iexact HS3
            isplitl [HS4]; · iexact HS4
            iexact HS5
          · ipureintro
            exact hnext
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · -- a last key tile
    have hk : t.val % 2 = 1 := by have := (hcondKv0 t).not.mp h1; omega
    have h3 : condKv1 (grid0.coords t) := (hcondKv1 t).mpr hk
    have hk1 : kvOf t = 1 := Fin.ext (show t.val % 2 = 1 from hk)
    have hkC : kvC (grid0.coords t) = 1 := (kvC_eq_kvOf t).trans hk1
    have hx1 : iblk m c 1 t = MemBk m c (bN t.val) 1 := (iblk1_eq m c t).trans (by rw [bOf_eq, hk1])
    have hx2 : iblk m c 2 t = BiasBk m c (bN t.val) 1 := (iblk2_eq m c t).trans (by rw [bOf_eq, hk1])
    rw [out9_live m c t h3, after0_9]
    unfold Phi
    iintro ⟨⟨⟨%d0, %d1, %d2, %d3, %d4, %d5, %hinv, HS0, HS1, HS2, HS3, HS4, HS5⟩, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
    by_cases h2 : condLd0 (grid0.coords t)
    · -- the first query tile: case C
      have h8 : t.val % 8 = 1 := by have := (hcondLd0 t).mp h2; omega
      obtain ⟨S4', S5', ⟨h4a, h4b⟩, ⟨h5a, h5b⟩, hrun⟩ := run_C_spec (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) h1 h2 h3 (iblk m c 0 t) (iblk m c 1 t) (iblk m c 2 t) (iblk m c 3 t) (iblk m c 4 t) (iblk m c 5 t) (iblk m c 6 t) (iblk m c 7 t) (iblk m c 8 t) ((dats m 0 c).before 9 t e9) d0 d1 d2 d3 d4 d5
      rw [hkC] at h4a h5a
      have h40 := h4b 0 (by rw [hkC]; decide)
      have h50 := h5b 0 (by rw [hkC]; decide)
      have hgen := fun e0 e1 e2 e3 => inv_C_gen m c t.val h8 hinv (iblk m c 0 t) (iblk m c 1 t) (iblk m c 2 t) (iblk m c 5 t) (iblk m c 6 t) (iblk m c 7 t) (iblk m c 8 t) hx0 hx1 hx2 hx5 hx6 hx7 hx8 h4a h40 h5a h50 e0 e1 e2 e3
      rw [(hgen d0 d1 d2 d3).2] at hrun
      iapply (hrun Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hr]
      · isplitr [Hr]
        · iexists _; iexists _; iexists _; iexists _; iexists _; iexists _
          isplitr
          swap
          · isplitl [HS0]; · iexact HS0
            isplitl [HS1]; · iexact HS1
            isplitl [HS2]; · iexact HS2
            isplitl [HS3]; · iexact HS3
            isplitl [HS4]; · iexact HS4
            iexact HS5
          · ipureintro
            exact (hgen _ _ _ _).1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a later query tile: case D
      have h8 : 2 ≤ t.val % 8 := by have := (hcondLd0 t).not.mp h2; omega
      have hrun := run_D_spec (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) h1 h2 h3 (iblk m c 0 t) (iblk m c 1 t) (iblk m c 2 t) (iblk m c 3 t) (iblk m c 4 t) (iblk m c 5 t) (iblk m c 6 t) (iblk m c 7 t) (iblk m c 8 t) ((dats m 0 c).before 9 t e9) d0 d1 d2 d3 d4 d5
      rw [hkC] at hrun
      have hgen := fun e0 e1 e2 e3 => inv_D_gen m c t.val h8 hk hinv (iblk m c 0 t) (iblk m c 2 t) (iblk m c 7 t) (iblk m c 8 t) hx0 hx2 hx7 hx8 e0 e1 e2 e3
      rw [(hgen d0 d1 d2 d3).2] at hrun
      iapply (hrun Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hr]
      · isplitr [Hr]
        · iexists _; iexists _; iexists _; iexists _; iexists _; iexists _
          isplitr
          swap
          · isplitl [HS0]; · iexact HS0
            isplitl [HS1]; · iexact HS1
            isplitl [HS2]; · iexact HS2
            isplitl [HS3]; · iexact HS3
            isplitl [HS4]; · iexact HS4
            iexact HS5
          · ipureintro
            exact (hgen _ _ _ _).1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, every
    array of the launch at what the proof data computes, every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and leaves its nine argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.ArgsE.lean ====
/-
  The nine argument arrays as arrays of extended reals, when every entry is a real: the coercions of `Args`' fields,
  indexed as the programs index them.
-/
import proofs.«409618_j42356967473584_3_alg».proof.Proof.Spec

noncomputable section

namespace Cert.Spec

open Idealize.ShloMosaic

variable (A : Args)

def XA (i : (⟨3, ![4, 4096, 256]⟩ : Shape).Idx) : EReal := ((A.x (i 0) (i 1) (i 2) : ℝ) : EReal)
def MemA (i : (⟨3, ![4, 4096, 256]⟩ : Shape).Idx) : EReal := ((A.mem (i 0) (i 1) (i 2) : ℝ) : EReal)
def MskA (i : (⟨2, ![4, 4096]⟩ : Shape).Idx) : EReal := ((A.msk (i 0) (i 1) : ℝ) : EReal)
def WiA (i : (⟨2, ![256, 256]⟩ : Shape).Idx) : EReal := ((A.wi (i 0) (i 1) : ℝ) : EReal)
def biA (i : (⟨1, ![256]⟩ : Shape).Idx) : EReal := ((A.bi (i 0) : ℝ) : EReal)
def WmA (i : (⟨2, ![256, 256]⟩ : Shape).Idx) : EReal := ((A.wm (i 0) (i 1) : ℝ) : EReal)
def bmA (i : (⟨1, ![256]⟩ : Shape).Idx) : EReal := ((A.bm (i 0) : ℝ) : EReal)
def W2A (i : (⟨2, ![256, 512]⟩ : Shape).Idx) : EReal := ((A.w2 (i 0) (i 1) : ℝ) : EReal)
def b2A (i : (⟨1, ![256]⟩ : Shape).Idx) : EReal := ((A.b2 (i 0) : ℝ) : EReal)

end Cert.Spec

end
-- ==== Proof.KIHost.lean ====
/-
  The arrays the region finds, and the blocks the body is handed, when every argument array is real: the inputs as
  launched; the three weight matrices transposed by the host; the three bias vectors reshaped to one row; and the
  additive mask bias (msk − 1) · pen the host computes. Then each window's block is the real block of the specification.
-/
import proofs.«409618_j42356967473584_3_alg».proof.Proof.KIBlocks
import proofs.«409618_j42356967473584_3_alg».proof.Proof.KBlocks
import proofs.«409618_j42356967473584_3_alg».proof.Proof.ArgsE
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host

open Cert.KernelIdeal Cert.KernelIdeal.Gen Cert.KernelIdeal.Body Cert.KernelIdeal.Blk
open Idealize.ShloMosaic Idealize.ShloMosaic.TcCoe Idealize.SL.Sem Cert.Spec

variable (m : (ℓ : Loc nD τ sig) → Buf (Elt Ideal) ℓ) (c : Dev nD) (A : Args)

/-- The launch memory holds the real arguments A on core c. -/
structure Holds : Prop where
  h0 : m ((c.tc : Thread nD τ).loc main_arg0) = XA A
  h1 : m ((c.tc : Thread nD τ).loc main_arg1) = MemA A
  h2 : m ((c.tc : Thread nD τ).loc main_arg2) = MskA A
  h3 : m ((c.tc : Thread nD τ).loc main_arg3) = WiA A
  h4 : m ((c.tc : Thread nD τ).loc main_arg4) = biA A
  h5 : m ((c.tc : Thread nD τ).loc main_arg5) = WmA A
  h6 : m ((c.tc : Thread nD τ).loc main_arg6) = bmA A
  h7 : m ((c.tc : Thread nD τ).loc main_arg7) = W2A A
  h8 : m ((c.tc : Thread nD τ).loc main_arg8) = b2A A

variable {m c A}

open Idealize.ShloMosaic.ValueIdx Idealize.ShloMosaic.StableHlo

namespace KIHost

/-! ## The literals -/

/-- The word 0x3F800000 denotes one. -/
theorem ofBits_one : Ideal.ofBits .f32 0x3F800000#32 = 1 := by
  simp [Ideal.ofBits, Ideal.ieee, -EReal.coe_mul]; norm_num

/-- The penalty's word denotes a real, so it is the coercion of pen. -/
theorem ofBits_pen : Ideal.ofBits .f32 0x7149F2CA#32 = ((pen : ℝ) : EReal) := by
  have hr : Ideal.ofBits .f32 0x7149F2CA#32 = ((13234890 * 2 ^ 76 : ℝ) : EReal) := by
    simp [Ideal.ofBits, Ideal.ieee, -EReal.coe_mul]
  unfold pen
  rw [hr, EReal.toReal_coe]

end KIHost

open KIHost

/-- The transposed weights and reshaped biases as the region finds them. -/
theorem V_wi (h : Holds m c A) : (V m c main_v0 : Vec Ideal S256x256 .f32) = wiT A := by
  have e : (V m c main_v0 : S256x256.Idx → EReal)
      = transpose S256x256 [1, 0] (m ((c.tc : Thread nD τ).loc main_arg3)) transposes_S256x256_S256x256_1_0 := by
    dsimp only [Gen.V, Gen.hostOps0]; after_results
  rw [e, h.h3]
  funext y
  obtain ⟨i, j, rfl⟩ : ∃ (i j : Fin 256), y = ix2 i j := ⟨y 0, y 1, eq_ix2 y⟩
  rw [transpose_ix2_apply]
  rfl
theorem V_bi (h : Holds m c A) : (V m c main_v3 : Vec Ideal S1x256 .f32) = biR A := by
  have e : (V m c main_v3 : S1x256.Idx → EReal)
      = shapeCast S1x256 (m ((c.tc : Thread nD τ).loc main_arg4)) shapeCasts_S256_S1x256 := by
    dsimp only [Gen.V, Gen.hostOps0]; after_results; rfl
  rw [e, h.h4]
  funext y
  obtain ⟨u, j, rfl⟩ : ∃ (u : Fin 1) (j : Fin 256), y = ix2 u j := ⟨y 0, y 1, eq_ix2 y⟩
  rw [shapeCast_a_1a_apply]
  rfl
theorem V_wm (h : Holds m c A) : (V m c main_v1 : Vec Ideal S256x256 .f32) = wmT A := by
  have e : (V m c main_v1 : S256x256.Idx → EReal)
      = transpose S256x256 [1, 0] (m ((c.tc : Thread nD τ).loc main_arg5)) transposes_S256x256_S256x256_1_0 := by
    dsimp only [Gen.V, Gen.hostOps0]; after_results
  rw [e, h.h5]
  funext y
  obtain ⟨i, j, rfl⟩ : ∃ (i j : Fin 256), y = ix2 i j := ⟨y 0, y 1, eq_ix2 y⟩
  rw [transpose_ix2_apply]
  rfl
theorem V_bm (h : Holds m c A) : (V m c main_v4 : Vec Ideal S1x256 .f32) = bmR A := by
  have e : (V m c main_v4 : S1x256.Idx → EReal)
      = shapeCast S1x256 (m ((c.tc : Thread nD τ).loc main_arg6)) shapeCasts_S256_S1x256 := by
    dsimp only [Gen.V, Gen.hostOps0]; after_results; rfl
  rw [e, h.h6]
  funext y
  obtain ⟨u, j, rfl⟩ : ∃ (u : Fin 1) (j : Fin 256), y = ix2 u j := ⟨y 0, y 1, eq_ix2 y⟩
  rw [shapeCast_a_1a_apply]
  rfl
theorem V_w2 (h : Holds m c A) : (V m c main_v2 : Vec Ideal S512x256 .f32) = w2T A := by
  have e : (V m c main_v2 : S512x256.Idx → EReal)
      = transpose S512x256 [1, 0] (m ((c.tc : Thread nD τ).loc main_arg7)) transposes_S256x512_S512x256_1_0 := by
    dsimp only [Gen.V, Gen.hostOps0]; after_results
  rw [e, h.h7]
  funext y
  obtain ⟨i, j, rfl⟩ : ∃ (i : Fin 512) (j : Fin 256), y = ix2 i j := ⟨y 0, y 1, eq_ix2 y⟩
  rw [transpose_ix2_apply]
  rfl
theorem V_b2 (h : Holds m c A) : (V m c main_v5 : Vec Ideal S1x256 .f32) = b2R A := by
  have e : (V m c main_v5 : S1x256.Idx → EReal)
      = shapeCast S1x256 (m ((c.tc : Thread nD τ).loc main_arg8)) shapeCasts_S256_S1x256 := by
    dsimp only [Gen.V, Gen.hostOps0]; after_results; rfl
  rw [e, h.h8]
  funext y
  obtain ⟨u, j, rfl⟩ : ∃ (u : Fin 1) (j : Fin 256), y = ix2 u j := ⟨y 0, y 1, eq_ix2 y⟩
  rw [shapeCast_a_1a_apply]
  rfl

/-! ## The mask bias the host computes -/

/-- The mask bias array at (b, u, j): (msk b j − 1) · pen. -/
theorem V_bias (h : Holds m c A) (b : Fin 4) (u : Fin 1) (j : Fin 4096) :
    (V m c main_v10 : Vec Ideal S4x1x4096 .f32) (ix3 b u j) = (((A.msk b j - 1) * pen : ℝ) : EReal) := by
  have e : (V m c main_v10 : S4x1x4096.Idx → EReal)
      = (mulf (subf (shapeCast S4x1x4096 (m ((c.tc : Thread nD τ).loc main_arg2)) shapeCasts_S4x4096_S4x1x4096 : FVec Ideal S4x1x4096 .f32)
            (broadcastInDim S4x1x4096 ![] bcast_S_S4x1x4096 (constant (F := Ideal) S_ .f32 0x3F800000#32)))
          (broadcastInDim S4x1x4096 ![] bcast_S_S4x1x4096 (constant (F := Ideal) S_ .f32 0x7149F2CA#32)) : FVec Ideal S4x1x4096 .f32) := by
    dsimp only [Gen.V, Gen.hostOps0]; after_results; rfl
  rw [e, h.h2, mulf_apply, subf_apply,
    broadcastInDim_apply _ bcast_S_S4x1x4096 _ (ix3 b u j) (fun a => a.elim0) (fun a => a.elim0),
    broadcastInDim_apply _ bcast_S_S4x1x4096 _ (ix3 b u j) (fun a => a.elim0) (fun a => a.elim0),
    constant_apply, constant_apply, ofBits_one, ofBits_pen,
    shapeCast_apply (MskA A) shapeCasts_S4x4096_S4x1x4096 (ix3 b u j) (ix2 b j) (by
      rw [Shape.rowMajor_val_two, Shape.rowMajor_val_three]
      show b.val * 4096 + j.val = (b.val * 1 + u.val) * 4096 + j.val
      have hu : u.val = 0 := by omega
      rw [hu]; omega)]
  show (((A.msk b j : ℝ) : EReal) - 1) * ((pen : ℝ) : EReal) = _
  rw [EReal.coe_mul, EReal.coe_sub, EReal.coe_one]

/-- The window blocks are the specification's real blocks. -/
theorem XBk_eq (h : Holds m c A) (b ld : Fin 4) : XBk m c b ld = xB A b ld := by
  unfold XBk
  rw [show (V m c main_arg0 : Vec Ideal S4x4096x256 .f32) = XA A from (V_main_arg0 m c).trans h.h0]
  rfl
theorem MemBk_eq (h : Holds m c A) (b : Fin 4) (kv : Fin 2) : MemBk m c b kv = memB A b kv := by
  unfold MemBk
  rw [show (V m c main_arg1 : Vec Ideal S4x4096x256 .f32) = MemA A from (V_main_arg1 m c).trans h.h1]
  rfl
theorem BiasBk_eq (h : Holds m c A) (b : Fin 4) (kv : Fin 2) : BiasBk m c b kv = biasB A b kv := by
  unfold BiasBk
  funext y
  rw [V_bias h]
  rfl

end Cert.KernelIdeal.Host

end
-- ==== Proof.Math.lean ====
/-
  The laws over the reals that join the two programs.
  * a softmax-weighted average does not depend on the number subtracted from every score (`softmax_shift`);
  * the online update over two key tiles, with ANY finite running maxima m1, m2, gives that same average (`online_two_tiles`);
  * folding the scale 1/16 into the query before the dot product, and adding (msk − 1)·pen, is dividing the dot
    product by 16 and subtracting pen·(1 − msk) (`score_scale`);
  * a sum over the 4096 key rows is the sum over tile 0 plus the sum over tile 1 (`sum_tiles`);
  * the fold of max from −∞ over finitely many (at least one) reals is a real (`fold_max_real`).
-/
import Mathlib.Analysis.SpecialFunctions.Exp
import Mathlib.Algebra.BigOperators.Fin
import Mathlib.Data.EReal.Basic
import proofs.«409618_j42356967473584_3_alg».proof.Proof.Spec

noncomputable section

namespace Cert.Math

open Cert.Spec

theorem sum_tiles (f : Fin 4096 → ℝ) : ∑ j, f j = ∑ c, f (tile 0 c) + ∑ c, f (tile 1 c) := by
  -- Fin 4096 is Fin (2048 + 2048); tile 0 is the left injection and tile 1 the right one.
  have h := Fin.sum_univ_add (fun i : Fin (2048 + 2048) => f i)
  have e0 : ∀ c : Fin 2048, tile 0 c = Fin.castAdd 2048 c := by
    intro c; apply Fin.ext; simp [tile]
  have e1 : ∀ c : Fin 2048, tile 1 c = Fin.natAdd 2048 c := by
    intro c; apply Fin.ext; simp [tile, Nat.add_comm]
  simp only [e0, e1]
  exact h

/-- The sum of the exponentials of finitely many (4096) reals is positive. -/
theorem sum_exp_pos (s : Fin 4096 → ℝ) : 0 < ∑ j, Real.exp (s j) :=
  Finset.sum_pos (fun j _ => Real.exp_pos _) Finset.univ_nonempty

theorem softmax_shift (s v : Fin 4096 → ℝ) (M : ℝ) :
    ∑ j, (Real.exp (s j - M) / ∑ j', Real.exp (s j' - M)) * v j
      = (∑ j, Real.exp (s j) * v j) / ∑ j, Real.exp (s j) := by
  have hS : (∑ j, Real.exp (s j)) ≠ 0 := (sum_exp_pos s).ne'
  have hE : Real.exp M ≠ 0 := (Real.exp_pos M).ne'
  -- the shifted denominator is the plain one divided by exp M
  have h1 : ∑ j', Real.exp (s j' - M) = (∑ j', Real.exp (s j')) / Real.exp M := by
    rw [Finset.sum_div]
    exact Finset.sum_congr rfl (fun j _ => Real.exp_sub _ _)
  rw [h1, Finset.sum_div _ (fun j => Real.exp (s j) * v j)]
  apply Finset.sum_congr rfl
  intro j _
  rw [Real.exp_sub]
  field_simp

theorem online_two_tiles (s v : Fin 4096 → ℝ) (m1 m2 : ℝ) :
    (Real.exp (m1 - m2) * (∑ c, Real.exp (s (tile 0 c) - m1) * v (tile 0 c)) + ∑ c, Real.exp (s (tile 1 c) - m2) * v (tile 1 c))
        / (Real.exp (m1 - m2) * (∑ c, Real.exp (s (tile 0 c) - m1)) + ∑ c, Real.exp (s (tile 1 c) - m2))
      = (∑ j, Real.exp (s j) * v j) / ∑ j, Real.exp (s j) := by
  have hS : (∑ j, Real.exp (s j)) ≠ 0 := (sum_exp_pos s).ne'
  have hE : Real.exp m2 ≠ 0 := (Real.exp_pos m2).ne'
  -- rescaling tile 0 from the maximum m1 to the maximum m2
  have key : ∀ x : ℝ, Real.exp (m1 - m2) * Real.exp (x - m1) = Real.exp x / Real.exp m2 := by
    intro x
    rw [← Real.exp_add, ← Real.exp_sub]
    congr 1
    ring
  -- numerator and denominator are the plain sums, each divided by exp m2
  have hnum : Real.exp (m1 - m2) * (∑ c, Real.exp (s (tile 0 c) - m1) * v (tile 0 c))
        + ∑ c, Real.exp (s (tile 1 c) - m2) * v (tile 1 c)
      = (∑ j, Real.exp (s j) * v j) / Real.exp m2 := by
    rw [sum_tiles (fun j => Real.exp (s j) * v j), Finset.mul_sum, add_div, Finset.sum_div,
      Finset.sum_div]
    congr 1
    · apply Finset.sum_congr rfl
      intro c _
      rw [← mul_assoc, key]
      ring
    · apply Finset.sum_congr rfl
      intro c _
      rw [Real.exp_sub]
      ring
  have hden : Real.exp (m1 - m2) * (∑ c, Real.exp (s (tile 0 c) - m1))
        + ∑ c, Real.exp (s (tile 1 c) - m2)
      = (∑ j, Real.exp (s j)) / Real.exp m2 := by
    rw [sum_tiles (fun j => Real.exp (s j)), Finset.mul_sum, add_div, Finset.sum_div,
      Finset.sum_div]
    congr 1
    · apply Finset.sum_congr rfl
      intro c _
      rw [key]
    · apply Finset.sum_congr rfl
      intro c _
      rw [Real.exp_sub]
  rw [hnum, hden]
  exact div_div_div_cancel_right₀ hE _ _

theorem score_scale (q k : Fin 256 → ℝ) (msk : ℝ) :
    ∑ h, (max (q h) 0 * (1 / 16)) * k h + (msk - 1) * pen = (∑ h, max (q h) 0 * k h) / 16 - pen * (1 - msk) := by
  have h1 : ∀ h, (max (q h) 0 * (1 / 16)) * k h = max (q h) 0 * k h / 16 := by
    intro h; ring
  rw [Finset.sum_div]
  simp only [h1]
  ring

theorem fold_max_real {n : ℕ} (hn : 0 < n) (f : Fin n → ℝ) :
    ∃ r : ℝ, (Finset.univ : Finset (Fin n)).fold max (⊥ : EReal) (fun k => ((f k : ℝ) : EReal)) = (r : EReal) := by
  -- over any nonempty finite set the fold from ⊥ is a real: insert one element at a time
  have aux : ∀ s : Finset (Fin n), s.Nonempty →
      ∃ r : ℝ, s.fold max (⊥ : EReal) (fun k => ((f k : ℝ) : EReal)) = (r : EReal) := by
    intro s
    induction s using Finset.induction_on with
    | empty => intro h; exact absurd h Finset.not_nonempty_empty
    | insert a s ha ih =>
      intro _
      rw [Finset.fold_insert ha]
      rcases s.eq_empty_or_nonempty with hs | hs
      · subst hs
        exact ⟨f a, by simp⟩
      · obtain ⟨r, hr⟩ := ih hs
        rw [hr]
        rcases le_total (f a) r with h | h
        · exact ⟨r, max_eq_right (EReal.coe_le_coe_iff.2 h)⟩
        · exact ⟨f a, max_eq_left (EReal.coe_le_coe_iff.2 h)⟩
  haveI : Nonempty (Fin n) := ⟨⟨0, hn⟩⟩
  exact aux Finset.univ Finset.univ_nonempty

end Cert.Math

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.KProj.lean ====
/-
  The kernel's projections and scores at the extended reals, index by index, when every argument is real:
  the projected query (with the scale 1/16 folded in), the projected keys, the values, and one tile of scores.
-/
import proofs.«409618_j42356967473584_3_alg».proof.Proof.KBlocks
import proofs.«409618_j42356967473584_3_alg».proof.Proof.Math
import proofs.«409618_j42356967473584_3_alg».proof.Proof.LibReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Cert.KernelIdeal Cert.KernelIdeal.Gen Idealize.ShloMosaic Cert.Spec

variable (A : Args)

/-- The projected query with the scale folded in, as the kernel keeps it. -/
def qR (b : Fin 4) (ld : Fin 4) : Vec Ideal S1024x256 .bf16 := fun y => ((qd A b (row ld (y 0)) (y 1) * (1 / 16) : ℝ) : EReal)
/-- The projected keys of tile t, as the kernel keeps them (one slice of its cache). -/
def kR (b : Fin 4) (t : Fin 2) : Vec Ideal S1x2048x256 .bf16 := fun y => ((kd A b (tile t (y 1)) (y 2) : ℝ) : EReal)
/-- The values of tile t, as the kernel keeps them. -/
def vR (b : Fin 4) (t : Fin 2) : Vec Ideal S1x2048x256 .bf16 := fun y => ((A.mem b (tile t (y 1)) (y 2) : ℝ) : EReal)
/-- One tile of masked, scaled scores. -/
def sR (b : Fin 4) (ld : Fin 4) (t : Fin 2) : Vec Ideal S1024x2048 .f32 := fun y => ((sc A b (row ld (y 0)) (tile t (y 1)) : ℝ) : EReal)

open Idealize.ShloMosaic.ValueIdx

namespace KProj

/-! ## The literals, and coercions of reals -/

/-- The word 0x3D800000 denotes one sixteenth. -/
theorem ofBits_sixteenth : Ideal.ofBits .f32 0x3D800000#32 = ((1 / 16 : ℝ) : EReal) := by
  simp [Ideal.ofBits, Ideal.ieee, -EReal.coe_mul]; norm_num

/-- The coercion of reals into the extended reals commutes with max. -/
theorem coe_max (a b : ℝ) : ((max a b : ℝ) : EReal) = max (a : EReal) (b : EReal) :=
  EReal.coe_strictMono.monotone.map_max

/-- A rectified affine form of real entries is the coercion of the real rectified affine form. -/
theorem relu_affine_coe (f g : Fin 256 → ℝ) (c : ℝ) :
    max ((∑ d : Fin 256, ((f d : ℝ) : EReal) * ((g d : ℝ) : EReal)) + (c : EReal)) 0
      = ((max (∑ d, f d * g d + c) 0 : ℝ) : EReal) := by
  rw [coe_max, EReal.coe_add, Cert.LibReal.coe_sum, EReal.coe_zero]
  simp only [EReal.coe_mul]

/-! ## The query projection's dot at an index: rows of x against columns of w -/

theorem lhsQ_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsQ_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsQ_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsQ_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Entry (p, h) of x·w accumulated into zero is Σ_d x(p,d)·w(d,h). -/
theorem dotQ_apply (x : FVec Ideal S1024x256 .bf16) (w : FVec Ideal S256x256 .bf16) (p : Fin 1024) (h : Fin 256) :
    matmul dot_S1024x256_S256x256_S1024x256_1_0_0_1_n_n none x w (constant (F := Ideal) S1024x256 .f32 0x00000000#32) (ix2 p h)
      = ∑ d : Fin 256, x (ix2 p d) * w (ix2 d h) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p h) ((ValueIdx.contrEquiv1 dot_S1024x256_S256x256_S1024x256_1_0_0_1_n_n 256 rfl rfl).symm k) = ix2 p k := funext fun a => Fin.ext (by
    match a with
    | ⟨0, _⟩ => exact lhsQ_0 _ _
    | ⟨1, _⟩ => exact (lhsQ_1 _ _).trans hk)
  have er : dot_S1024x256_S256x256_S1024x256_1_0_0_1_n_n.rhsIdx (ix2 p h) ((ValueIdx.contrEquiv1 dot_S1024x256_S256x256_S1024x256_1_0_0_1_n_n 256 rfl rfl).symm k) = ix2 k h := funext fun a => Fin.ext (by
    match a with
    | ⟨0, _⟩ => exact (rhsQ_0 _ _).trans hk
    | ⟨1, _⟩ => exact rhsQ_1 _ _)
  rw [el, er]

/-! ## The query payload at an index -/

/-- The query payload at (p, h): the rectified projection of row p, scaled by 1/16. -/
theorem pay5_apply (x : Vec Ideal S1x1024x256 .f32) (wi : Vec Ideal S256x256 .f32) (bi : Vec Ideal S1x256 .f32)
    (p : Fin 1024) (h : Fin 256) :
    k0_pay5 (F := Ideal) x wi bi (ix2 p h)
      = max ((∑ d : Fin 256, x (ix3 (0 : Fin 1) p d) * wi (ix2 d h)) + bi (ix2 (0 : Fin 1) h)) 0 * ((1 / 16 : ℝ) : EReal) := by
  unfold k0_pay5
  simp only [shapeCast_self]
  rw [truncf_apply, mulf_apply, maximumf_apply, addf_apply, broadcast_apply, broadcast_apply, dotQ_apply,
    broadcastTo_1b_ab_apply, Ideal.ofBits_def, Ideal.ofBits_def, Ideal.ofBits_zero_f32, ofBits_sixteenth]
  simp only [truncf_apply, shapeCast_1ab_ab_apply]

/-! ## The key projection's dot at an index: rows of mem against columns of w -/

theorem lhsK_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhsK_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhsK_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhsK_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry (c, h) of m·w accumulated into zero is Σ_d m(c,d)·w(d,h). -/
theorem dotK_apply (m : FVec Ideal S2048x256 .bf16) (w : FVec Ideal S256x256 .bf16) (c : Fin 2048) (h : Fin 256) :
    matmul dot_S2048x256_S256x256_S2048x256_1_0_0_1_n_n none m w (constant (F := Ideal) S2048x256 .f32 0x00000000#32) (ix2 c h)
      = ∑ d : Fin 256, m (ix2 c d) * w (ix2 d h) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 c h) ((ValueIdx.contrEquiv1 dot_S2048x256_S256x256_S2048x256_1_0_0_1_n_n 256 rfl rfl).symm k) = ix2 c k := funext fun a => Fin.ext (by
    match a with
    | ⟨0, _⟩ => exact lhsK_0 _ _
    | ⟨1, _⟩ => exact (lhsK_1 _ _).trans hk)
  have er : dot_S2048x256_S256x256_S2048x256_1_0_0_1_n_n.rhsIdx (ix2 c h) ((ValueIdx.contrEquiv1 dot_S2048x256_S256x256_S2048x256_1_0_0_1_n_n 256 rfl rfl).symm k) = ix2 k h := funext fun a => Fin.ext (by
    match a with
    | ⟨0, _⟩ => exact (rhsK_0 _ _).trans hk
    | ⟨1, _⟩ => exact rhsK_1 _ _)
  rw [el, er]

/-! ## The key and value payloads at an index -/

/-- The key tile with its unit axis dropped, at (c, d). -/
theorem pay9_apply (m : Vec Ideal S1x2048x256 .f32) (c : Fin 2048) (d : Fin 256) :
    k0_pay9 (F := Ideal) m (ix2 c d) = m (ix3 (0 : Fin 1) c d) := by
  unfold k0_pay9
  rw [truncf_apply, shapeCast_1ab_ab_apply]

/-- The value payload at (u, c, d) is the key tile's entry (c, d). -/
theorem pay10_apply (m : Vec Ideal S1x2048x256 .f32) (u : Fin 1) (c : Fin 2048) (d : Fin 256) :
    k0_pay10 (F := Ideal) m (ix3 u c d) = m (ix3 (0 : Fin 1) c d) := by
  unfold k0_pay10
  rw [shapeCast_ab_1ab_apply, pay9_apply]

/-- The key payload at (u, c, h): the rectified projection of key row c. -/
theorem pay11_apply (m : Vec Ideal S1x2048x256 .f32) (wm : Vec Ideal S256x256 .f32) (bm : Vec Ideal S1x256 .f32)
    (u : Fin 1) (c : Fin 2048) (h : Fin 256) :
    k0_pay11 (F := Ideal) m wm bm (ix3 u c h)
      = max ((∑ d : Fin 256, m (ix3 (0 : Fin 1) c d) * wm (ix2 d h)) + bm (ix2 (0 : Fin 1) h)) 0 := by
  unfold k0_pay11
  simp only [shapeCast_self]
  rw [shapeCast_ab_1ab_apply, truncf_apply, maximumf_apply, addf_apply, broadcast_apply, dotK_apply,
    broadcastTo_1b_ab_apply, Ideal.ofBits_def, Ideal.ofBits_zero_f32]
  simp only [truncf_apply, pay9_apply]

/-! ## The score dot at an index: rows of q against rows of k -/

theorem lhsS_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhsS_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhsS_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhsS_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- Entry (p, c) of q·kᵀ accumulated into zero is Σ_h q(p,h)·k(c,h). -/
theorem dotS_apply (q : FVec Ideal S1024x256 .bf16) (k : FVec Ideal S2048x256 .bf16) (p : Fin 1024) (c : Fin 2048) :
    matmul dot_S1024x256_S2048x256_S1024x2048_1_1_0_0_n_n none q k (constant (F := Ideal) S1024x2048 .f32 0x00000000#32) (ix2 p c)
      = ∑ h : Fin 256, q (ix2 p h) * k (ix2 c h) := by
  simp only [matmul]
  rw [Ideal.matmul_constant_zero_apply, ← Equiv.sum_comp (ValueIdx.contrEquiv1 dot_S1024x256_S2048x256_S1024x2048_1_1_0_0_n_n 256 rfl rfl).symm]
  refine Finset.sum_congr rfl fun j _ => ?_
  have hj := ValueIdx.contrEquiv1_symm_val dot_S1024x256_S2048x256_S1024x2048_1_1_0_0_n_n 256 rfl rfl j
  have el : dot_S1024x256_S2048x256_S1024x2048_1_1_0_0_n_n.lhsIdx (ix2 p c) ((ValueIdx.contrEquiv1 dot_S1024x256_S2048x256_S1024x2048_1_1_0_0_n_n 256 rfl rfl).symm j) = ix2 p j := funext fun a => Fin.ext (by
    match a with
    | ⟨0, _⟩ => exact lhsS_0 _ _
    | ⟨1, _⟩ => exact (lhsS_1 _ _).trans hj)
  have er : dot_S1024x256_S2048x256_S1024x2048_1_1_0_0_n_n.rhsIdx (ix2 p c) ((ValueIdx.contrEquiv1 dot_S1024x256_S2048x256_S1024x2048_1_1_0_0_n_n 256 rfl rfl).symm j) = ix2 c j := funext fun a => Fin.ext (by
    match a with
    | ⟨0, _⟩ => exact rhsS_0 _ _
    | ⟨1, _⟩ => exact (rhsS_1 _ _).trans hj)
  rw [el, er]

/-! ## The score payload at an index -/

/-- The score payload at (p, c): the dot of query row p with key row c, plus the bias at c. -/
theorem pay13_apply (k : Vec Ideal S1x2048x256 .bf16) (q : Vec Ideal S1024x256 .bf16) (bias : Vec Ideal S1x1x2048 .f32)
    (p : Fin 1024) (c : Fin 2048) :
    k0_pay13 (F := Ideal) k q bias (ix2 p c)
      = (∑ h : Fin 256, q (ix2 p h) * k (ix3 (0 : Fin 1) c h)) + bias (ix3 (0 : Fin 1) (0 : Fin 1) c) := by
  unfold k0_pay13
  simp only [shapeCast_self]
  rw [addf_apply, dotS_apply, broadcastTo_1b_ab_apply, shapeCast_1ab_ab_apply]
  simp only [shapeCast_1ab_ab_apply]

end KProj

open KProj

theorem q_eq (b : Fin 4) (ld : Fin 4) : k0_pay5 (F := Ideal) (xB A b ld) (wiT A) (biR A) = qR A b ld := by
  funext y
  obtain ⟨p, h, rfl⟩ : ∃ (p : Fin 1024) (h : Fin 256), y = ix2 p h := ⟨y 0, y 1, eq_ix2 y⟩
  rw [pay5_apply]
  show max ((∑ d : Fin 256, ((A.x b (row ld p) d : ℝ) : EReal) * ((A.wi h d : ℝ) : EReal)) + ((A.bi h : ℝ) : EReal)) 0
      * ((1 / 16 : ℝ) : EReal) = ((qd A b (row ld p) h * (1 / 16) : ℝ) : EReal)
  rw [relu_affine_coe, EReal.coe_mul]
  rfl

theorem k_eq (b : Fin 4) (t : Fin 2) : k0_pay11 (F := Ideal) (memB A b t) (wmT A) (bmR A) = kR A b t := by
  funext y
  obtain ⟨u, c, h, rfl⟩ : ∃ (u : Fin 1) (c : Fin 2048) (h : Fin 256), y = ix3 u c h := ⟨y 0, y 1, y 2, eq_ix3 y⟩
  rw [pay11_apply]
  show max ((∑ d : Fin 256, ((A.mem b (tile t c) d : ℝ) : EReal) * ((A.wm h d : ℝ) : EReal)) + ((A.bm h : ℝ) : EReal)) 0
      = ((kd A b (tile t c) h : ℝ) : EReal)
  rw [relu_affine_coe]
  rfl

theorem v_eq (b : Fin 4) (t : Fin 2) : k0_pay10 (F := Ideal) (memB A b t) = vR A b t := by
  funext y
  obtain ⟨u, c, d, rfl⟩ : ∃ (u : Fin 1) (c : Fin 2048) (d : Fin 256), y = ix3 u c d := ⟨y 0, y 1, y 2, eq_ix3 y⟩
  rw [pay10_apply]
  rfl

theorem s_eq (b : Fin 4) (ld : Fin 4) (t : Fin 2) : k0_pay13 (F := Ideal) (kR A b t) (qR A b ld) (biasB A b t) = sR A b ld t := by
  funext y
  obtain ⟨p, c, rfl⟩ : ∃ (p : Fin 1024) (c : Fin 2048), y = ix2 p c := ⟨y 0, y 1, eq_ix2 y⟩
  rw [pay13_apply]
  show (∑ h : Fin 256, ((qd A b (row ld p) h * (1 / 16) : ℝ) : EReal) * ((kd A b (tile t c) h : ℝ) : EReal))
      + (((A.msk b (tile t c) - 1) * pen : ℝ) : EReal) = ((sc A b (row ld p) (tile t c) : ℝ) : EReal)
  simp only [← EReal.coe_mul]
  rw [← Cert.LibReal.coe_sum, ← EReal.coe_add]
  exact congrArg _ (Cert.Math.score_scale (fun h => ∑ d, A.x b (row ld p) d * A.wi h d + A.bi h)
    (fun h => kd A b (tile t c) h) (A.msk b (tile t c)))

end Cert.KernelIdeal.Blk

end
-- ==== Proof.KSoft.lean ====
/-
  The kernel's output block at the extended reals when every argument is real: the two online-softmax updates
  over the key tiles and the gate, read index by index, equal the specification's result on the block's rows.

  The layout operations, the two lane reductions and the two products are first read at an index. One update is then
  followed payload by payload: from a real state (m, l, acc) and a tile of real scores s with real values v it gives
  the new maximum M = max m (the tile's row maximum), a real since the tile is not empty, and
      l' = exp (m − M) · l + Σ_c exp (s_c − M),      acc' = exp (m − M) · acc + Σ_c exp (s_c − M) · v_c;
  from the start (−∞, 0, 0) the factor exp (−∞ − M) is 0 and the tile's sums stand alone. After the two tiles
  acc / l is the softmax-weighted average of the memory rows whatever the maxima were, the denominator being a sum
  of positive terms; the concatenation [x, acc / l] is the specification's, and the gate is σ(z) · tanh z of a real z.
-/
import proofs.«409618_j42356967473584_3_alg».proof.Proof.KProj

noncomputable section

namespace Cert.KernelIdeal.Blk

open Cert.KernelIdeal Cert.KernelIdeal.Gen Idealize.ShloMosaic Cert.Spec Idealize.ShloMosaic.ValueIdx

/-! ## The layout operations of the block, read at an index -/

section Layout
variable {α : Type}

/-- A vector of 1024 entries cast to a column reads, at (r, u), the entry r. -/
theorem cast_col_apply (v : S1024.Idx → α) (r : Fin 1024) (u : Fin 1) :
    shapeCast S1024x1 v shapeCasts_S1024_S1024x1 (ix2 r u) = v (ix1 r) :=
  shapeCast_apply v _ _ _ (by
    have hu : u.val = 0 := by omega
    rw [Shape.rowMajor_val_one, Shape.rowMajor_val_two]
    show r.val = r.val * 1 + u.val
    omega)

/-- A column broadcast along 2048 lanes reads, at (r, c), the column's entry r. -/
theorem bcast_col_2048_apply (v : S1024x1.Idx → α) (r : Fin 1024) (c : Fin 2048) :
    broadcastTo S1024x2048 v broadcasts_S1024x1_S1024x2048 (ix2 r c) = v (ix2 r (0 : Fin 1)) :=
  broadcastTo_apply v _ (ix2 r c) (ix2 r (0 : Fin 1)) fun ax => match ax with
    | ⟨0, _⟩ => rfl
    | ⟨1, _⟩ => rfl

/-- A column broadcast along 256 lanes reads, at (r, d), the column's entry r. -/
theorem bcast_col_256_apply (v : S1024x1.Idx → α) (r : Fin 1024) (d : Fin 256) :
    broadcastTo S1024x256 v broadcasts_S1024x1_S1024x256 (ix2 r d) = v (ix2 r (0 : Fin 1)) :=
  broadcastTo_apply v _ (ix2 r d) (ix2 r (0 : Fin 1)) fun ax => match ax with
    | ⟨0, _⟩ => rfl
    | ⟨1, _⟩ => rfl

end Layout

/-! ## The two lane reductions of a score tile, read at a row -/

section Reduce

/-- The f32 word of minus infinity denotes the bottom of the extended reals. -/
theorem ofBits_neg_inf : Ideal.ofBits .f32 0xFF800000#32 = (⊥ : EReal) := by
  simp [Ideal.ofBits, Ideal.ieee]

/-- Row r of a tile, with the lane c put in, is the tile's index (r, c). -/
theorem lift_row (r : Fin 1024) (c : Fin 2048) :
    reduces_S1024x2048_S1024.lift (ix1 r) c = ix2 r c :=
  funext fun a => match a with
    | ⟨0, _⟩ => rfl
    | ⟨1, _⟩ => rfl

/-- The maximum over the lanes of a score tile, at row r: the fold of max from minus infinity over the row. -/
theorem rowmax_apply (src : FVec Ideal S1024x2048 .f32) (r : Fin 1024) :
    multiReduction .maximumf [1] S1024 src 0xFF800000#32 reduces_S1024x2048_S1024 (.inl rfl) rfl (ix1 r)
      = (Finset.univ : Finset (Fin 2048)).fold max (⊥ : EReal) (fun c => src (ix2 r c)) := by
  refine (Ideal.multiReduction_maximumf_single src 0xFF800000#32 reduces_S1024x2048_S1024 (.inl rfl) rfl (ix1 r)).trans ?_
  show (Finset.univ : Finset (Fin 2048)).fold max (Ideal.ofBits .f32 0xFF800000#32) (fun c => src (reduces_S1024x2048_S1024.lift (ix1 r) c)) = _
  rw [ofBits_neg_inf]
  exact congrArg (fun f => (Finset.univ : Finset (Fin 2048)).fold max (⊥ : EReal) f)
    (funext fun c => congrArg src (lift_row r c))

/-- The sum over the lanes of a tile, at row r. -/
theorem rowsum_apply (src : FVec Ideal S1024x2048 .f32) (r : Fin 1024) :
    multiReduction .add [1] S1024 src 0x00000000#32 reduces_S1024x2048_S1024 (.inl rfl) rfl (ix1 r)
      = ∑ c : Fin 2048, src (ix2 r c) := by
  refine (Ideal.multiReduction_add_single src 0x00000000#32 reduces_S1024x2048_S1024 (.inl rfl) rfl (ix1 r)).trans ?_
  show ∑ c : Fin 2048, src (reduces_S1024x2048_S1024.lift (ix1 r) c) = _
  simp only [lift_row]

end Reduce

/-! ## The two products of the block, read at an index -/

section Dots

theorem lhs_pv_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_pv_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_pv_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_pv_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The product of the weights of a tile (1024 × 2048) with its values (2048 × 256), into zero, at (r, d):
    the sum over the tile's 2048 key rows. -/
theorem pv_apply (p : FVec Ideal S1024x2048 .bf16) (v : FVec Ideal S2048x256 .bf16) (r : Fin 1024) (d : Fin 256) :
    matmul dot_S1024x2048_S2048x256_S1024x256_1_0_0_1_n_n none p v (constant S1024x256 .f32 0x00000000#32) (ix2 r d)
      = ∑ c : Fin 2048, p (ix2 r c) * v (ix2 c d) := by
  simp only [matmul]
  rw [Ideal.matmul_constant_zero_apply, ← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 r d) ((ValueIdx.contrEquiv1 dot_S1024x2048_S2048x256_S1024x256_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S1024x2048_S2048x256_S1024x256_1_0_0_1_n_n.rhsIdx (ix2 r d) ((ValueIdx.contrEquiv1 dot_S1024x2048_S2048x256_S1024x256_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

theorem lhs_gate_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_gate_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_gate_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_gate_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The gate's product of the concatenated features (1024 × 512) with its weights (512 × 256), into zero, at (r, o):
    the sum over the 512 features. -/
theorem gate_apply (a : FVec Ideal S1024x512 .bf16) (w : FVec Ideal S512x256 .bf16) (r : Fin 1024) (o : Fin 256) :
    matmul dot_S1024x512_S512x256_S1024x256_1_0_0_1_n_n none a w (constant S1024x256 .f32 0x00000000#32) (ix2 r o)
      = ∑ c : Fin 512, a (ix2 r c) * w (ix2 c o) := by
  simp only [matmul]
  rw [Ideal.matmul_constant_zero_apply, ← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx (ix2 r o) ((ValueIdx.contrEquiv1 dot_S1024x512_S512x256_S1024x256_1_0_0_1_n_n 512 rfl rfl).symm k) = ix2 r k := funext fun a => Fin.ext (by
    match a with
    | ⟨0, _⟩ => exact lhs_gate_0 _ _
    | ⟨1, _⟩ => exact (lhs_gate_1 _ _).trans hk)
  have er : dot_S1024x512_S512x256_S1024x256_1_0_0_1_n_n.rhsIdx (ix2 r o) ((ValueIdx.contrEquiv1 dot_S1024x512_S512x256_S1024x256_1_0_0_1_n_n 512 rfl rfl).symm k) = ix2 k o := funext fun a => Fin.ext (by
    match a with
    | ⟨0, _⟩ => exact (rhs_gate_0 _ _).trans hk
    | ⟨1, _⟩ => exact rhs_gate_1 _ _)
  rw [el, er]

end Dots

/-! ## The concatenation of the query tile with the attended values, read at an index -/

section Cat
variable {α : Type}

/-- A feature below 256 of the concatenation is the first piece's. -/
theorem cat_left_apply (x₁ x₂ : S1024x256.Idx → α) (r : Fin 1024) (c : Fin 512) (h : c.val < 256) :
    concatenate S1024x512 1 [⟨S1024x256, x₁⟩, ⟨S1024x256, x₂⟩] concatenates_S1024x256_S1024x256_S1024x512_d1 (ix2 r c)
      = x₁ (ix2 r ⟨c.val, h⟩) :=
  concatenate_pair_apply_left 1 x₁ x₂ _ (ix2 r c) rfl (ix2 r ⟨c.val, h⟩) fun b => match b with
    | ⟨0, _⟩ => rfl
    | ⟨1, _⟩ => rfl

/-- A feature from 256 on is the second piece's, 256 less. -/
theorem cat_right_apply (x₁ x₂ : S1024x256.Idx → α) (r : Fin 1024) (c : Fin 512) (h : ¬ c.val < 256) :
    concatenate S1024x512 1 [⟨S1024x256, x₁⟩, ⟨S1024x256, x₂⟩] concatenates_S1024x256_S1024x256_S1024x512_d1 (ix2 r c)
      = x₂ (ix2 r ⟨c.val - 256, by omega⟩) :=
  concatenate_pair_apply_right 1 x₁ x₂ _ (ix2 r c) rfl rfl (ix2 r ⟨c.val - 256, by omega⟩)
    (fun b => match b with
      | ⟨0, _⟩ => fun _ => rfl
      | ⟨1, _⟩ => fun hb => absurd rfl hb)
    (by show (c.val - 256) + 256 = c.val; omega)

end Cat

/-! ## One online-softmax update, payload by payload, at an index -/

section Step
variable (k : FVec Ideal S1x2048x256 .bf16) (q : FVec Ideal S1024x256 .bf16) (bias : FVec Ideal S1x1x2048 .f32)

/-- The running maximum after a tile: the larger of the one before and the tile's row maximum. -/
theorem pay14_apply (mp : FVec Ideal S1024x1 .f32) (r : Fin 1024) (u : Fin 1) :
    k0_pay14 (F := Ideal) k q bias mp (ix2 r u)
      = max (mp (ix2 r u)) ((Finset.univ : Finset (Fin 2048)).fold max (⊥ : EReal) (fun c => k0_pay13 (F := Ideal) k q bias (ix2 r c))) := by
  unfold k0_pay14
  exact congrArg (max (mp (ix2 r u))) ((cast_col_apply _ r u).trans (rowmax_apply _ r))

/-- The rescaling factor of the state before: exp (old maximum − new maximum). -/
theorem pay15_apply (mp : FVec Ideal S1024x1 .f32) (r : Fin 1024) (u : Fin 1) :
    k0_pay15 (F := Ideal) k q bias mp (ix2 r u) = Ideal.exp (mp (ix2 r u) - k0_pay14 (F := Ideal) k q bias mp (ix2 r u)) := by
  unfold k0_pay15
  rfl

/-- The tile's weights: exp (score − new maximum). -/
theorem pay16_apply (mp : FVec Ideal S1024x1 .f32) (r : Fin 1024) (c : Fin 2048) :
    k0_pay16 (F := Ideal) k q bias mp (ix2 r c) = Ideal.exp (k0_pay13 (F := Ideal) k q bias (ix2 r c) - k0_pay14 (F := Ideal) k q bias mp (ix2 r (0 : Fin 1))) := by
  unfold k0_pay16
  exact congrArg (fun t => Ideal.exp (k0_pay13 (F := Ideal) k q bias (ix2 r c) - t)) (bcast_col_2048_apply _ r c)

/-- The running denominator after a tile. -/
theorem pay17_apply (mp lp : FVec Ideal S1024x1 .f32) (r : Fin 1024) (u : Fin 1) :
    k0_pay17 (F := Ideal) k q bias mp lp (ix2 r u)
      = k0_pay15 (F := Ideal) k q bias mp (ix2 r u) * lp (ix2 r u) + ∑ c : Fin 2048, k0_pay16 (F := Ideal) k q bias mp (ix2 r c) := by
  unfold k0_pay17
  exact congrArg (k0_pay15 (F := Ideal) k q bias mp (ix2 r u) * lp (ix2 r u) + ·) ((cast_col_apply _ r u).trans (rowsum_apply _ r))

/-- The running accumulator after a tile. -/
theorem pay2_apply (v : FVec Ideal S1x2048x256 .bf16) (alpha : FVec Ideal S1024x1 .f32) (p : FVec Ideal S1024x2048 .f32)
    (ap : FVec Ideal S1024x256 .f32) (r : Fin 1024) (d : Fin 256) :
    k0_pay2 (F := Ideal) (k0_pay12 (F := Ideal) v) alpha p ap (ix2 r d)
      = alpha (ix2 r (0 : Fin 1)) * ap (ix2 r d) + ∑ c : Fin 2048, p (ix2 r c) * v (ix3 (0 : Fin 1) c d) := by
  unfold k0_pay2 k0_pay12
  rw [shapeCast_self]
  refine (addf_apply _ _ _).trans ?_
  rw [mulf_apply, bcast_col_256_apply, pv_apply]
  refine congrArg (alpha (ix2 r (0 : Fin 1)) * ap (ix2 r d) + ·) (Finset.sum_congr rfl fun c _ => ?_)
  rw [truncf_apply, shapeCast_1ab_ab_apply]

end Step

/-! ## The gate, at an index -/

section Gate

/-- Feature c of row r of the concatenation [x, acc / l], in extended reals. -/
def catE (acc : FVec Ideal S1024x256 .f32) (l : FVec Ideal S1024x1 .f32) (x : FVec Ideal S1x1024x256 .f32)
    (r : Fin 1024) (c : Fin 512) : EReal :=
  if h : c.val < 256 then x (ix3 (0 : Fin 1) r ⟨c.val, h⟩)
  else Ideal.div (acc (ix2 r ⟨c.val - 256, by omega⟩)) (l (ix2 r (0 : Fin 1)))

theorem catE_apply (acc : FVec Ideal S1024x256 .f32) (l : FVec Ideal S1024x1 .f32) (x : FVec Ideal S1x1024x256 .f32)
    (r : Fin 1024) (c : Fin 512) :
    concatenate S1024x512 1 [⟨S1024x256, shapeCast S1024x256 x shapeCasts_S1x1024x256_S1024x256⟩,
        ⟨S1024x256, divf acc (broadcastTo S1024x256 l broadcasts_S1024x1_S1024x256)⟩]
      concatenates_S1024x256_S1024x256_S1024x512_d1 (ix2 r c) = catE acc l x r c := by
  unfold catE
  split
  · next h => rw [cat_left_apply _ _ r c h, shapeCast_1ab_ab_apply]
  · next h => rw [cat_right_apply _ _ r c h, divf_apply, bcast_col_256_apply]

/-- The gate's pre-activation at (r, o): the features of row r against column o of the weights, plus the bias. -/
theorem preact_apply (a : FVec Ideal S1024x512 .f32) (w2 : FVec Ideal S512x256 .f32) (b2 : FVec Ideal S1x256 .f32)
    (r : Fin 1024) (o : Fin 256) :
    addf (matmul dot_S1024x512_S512x256_S1024x256_1_0_0_1_n_n none (truncf .bf16 a bitsLt_bf16_f32)
          (truncf .bf16 (shapeCast S512x256 w2 shapeCasts_S512x256_S512x256) bitsLt_bf16_f32)
          (constant (F := Ideal) S1024x256 .f32 0x00000000#32))
        (broadcastTo S1024x256 (shapeCast S1x256 b2 shapeCasts_S1x256_S1x256) broadcasts_S1x256_S1024x256) (ix2 r o)
      = ∑ c : Fin 512, a (ix2 r c) * w2 (ix2 c o) + b2 (ix2 (0 : Fin 1) o) := by
  rw [shapeCast_self, shapeCast_self, addf_apply, gate_apply, broadcastTo_1b_ab_apply]
  rfl

/-- The block at (u, r, o): σ(z) · tanh z of the pre-activation z. -/
theorem pay4_apply (acc : FVec Ideal S1024x256 .f32) (l : FVec Ideal S1024x1 .f32) (x : FVec Ideal S1x1024x256 .f32)
    (w2 : FVec Ideal S512x256 .f32) (b2 : FVec Ideal S1x256 .f32) (u : Fin 1) (r : Fin 1024) (o : Fin 256) :
    k0_pay4 (F := Ideal) acc l x w2 b2 (ix3 u r o)
      = Ideal.logistic (∑ c : Fin 512, catE acc l x r c * w2 (ix2 c o) + b2 (ix2 (0 : Fin 1) o))
        * Ideal.tanh (∑ c : Fin 512, catE acc l x r c * w2 (ix2 c o) + b2 (ix2 (0 : Fin 1) o)) := by
  unfold k0_pay4
  refine (shapeCast_ab_1ab_apply _ _ u r o).trans ?_
  have hz := preact_apply (concatenate S1024x512 1 [⟨S1024x256, shapeCast S1024x256 x shapeCasts_S1x1024x256_S1024x256⟩,
        ⟨S1024x256, divf acc (broadcastTo S1024x256 l broadcasts_S1024x1_S1024x256)⟩]
      concatenates_S1024x256_S1024x256_S1024x512_d1) w2 b2 r o
  simp only [catE_apply] at hz
  exact congrArg₂ (· * ·) (congrArg Ideal.logistic hz) (congrArg Ideal.tanh hz)

end Gate

/-! ## One update and the gate when the state is real -/

section Real
open Cert.LibReal

theorem pay6_apply (r : Fin 1024) (u : Fin 1) : k0_pay6 (F := Ideal) (ix2 r u) = (⊥ : EReal) := by
  unfold k0_pay6
  rw [shapeCast_self]
  exact ofBits_neg_inf

theorem pay7_apply (r : Fin 1024) (u : Fin 1) : k0_pay7 (F := Ideal) (ix2 r u) = ((0 : ℝ) : EReal) := by
  unfold k0_pay7
  rw [shapeCast_self]
  exact Ideal.ofBits_zero_f32

theorem pay8_apply (r : Fin 1024) (d : Fin 256) : k0_pay8 (F := Ideal) (ix2 r d) = ((0 : ℝ) : EReal) := by
  unfold k0_pay8
  rw [shapeCast_self]
  exact Ideal.ofBits_zero_f32

variable (k : FVec Ideal S1x2048x256 .bf16) (q : FVec Ideal S1024x256 .bf16) (bias : FVec Ideal S1x1x2048 .f32)
variable (s : Fin 1024 → Fin 2048 → ℝ)

/-- Each row's maximum over a tile of real scores is a real. -/
theorem rowmax_real (hs : ∀ r c, k0_pay13 (F := Ideal) k q bias (ix2 r c) = ((s r c : ℝ) : EReal)) :
    ∃ T : Fin 1024 → ℝ, ∀ r, (Finset.univ : Finset (Fin 2048)).fold max (⊥ : EReal)
      (fun c => k0_pay13 (F := Ideal) k q bias (ix2 r c)) = ((T r : ℝ) : EReal) := by
  have h : ∀ r, ∃ x : ℝ, (Finset.univ : Finset (Fin 2048)).fold max (⊥ : EReal) (fun c => ((s r c : ℝ) : EReal)) = (x : EReal) :=
    fun r => Cert.Math.fold_max_real (by norm_num) (s r)
  choose T hT using h
  refine ⟨T, fun r => ?_⟩
  simp only [hs]
  exact hT r

/-- The denominator and the accumulator after a tile, given the new maximum M and the rescaling factor α as reals. -/
theorem lacc_real (hs : ∀ r c, k0_pay13 (F := Ideal) k q bias (ix2 r c) = ((s r c : ℝ) : EReal))
    (v : FVec Ideal S1x2048x256 .bf16) (vr : Fin 2048 → Fin 256 → ℝ) (hv : ∀ c d, v (ix3 (0 : Fin 1) c d) = ((vr c d : ℝ) : EReal))
    (mp lp : FVec Ideal S1024x1 .f32) (ap : FVec Ideal S1024x256 .f32) (M α Lp : Fin 1024 → ℝ) (Ap : Fin 1024 → Fin 256 → ℝ)
    (hM : ∀ r u, k0_pay14 (F := Ideal) k q bias mp (ix2 r u) = ((M r : ℝ) : EReal))
    (hα : ∀ r u, k0_pay15 (F := Ideal) k q bias mp (ix2 r u) = ((α r : ℝ) : EReal))
    (hlp : ∀ r u, lp (ix2 r u) = ((Lp r : ℝ) : EReal)) (hap : ∀ r d, ap (ix2 r d) = ((Ap r d : ℝ) : EReal)) :
    (∀ r u, lNext (F := Ideal) k q bias mp lp (ix2 r u) = ((α r * Lp r + ∑ c, Real.exp (s r c - M r) : ℝ) : EReal))
    ∧ (∀ r d, accNext (F := Ideal) v k q bias mp ap (ix2 r d) = ((α r * Ap r d + ∑ c, Real.exp (s r c - M r) * vr c d : ℝ) : EReal)) := by
  have hp : ∀ r c, k0_pay16 (F := Ideal) k q bias mp (ix2 r c) = ((Real.exp (s r c - M r) : ℝ) : EReal) := by
    intro r c
    rw [pay16_apply, hs, hM, ← EReal.coe_sub, Ideal.exp_coe]
  constructor
  · intro r u
    unfold lNext k0_pay1
    rw [shapeCast_self, pay17_apply, hα, hlp]
    simp only [hp]
    rw [← EReal.coe_mul, ← coe_sum, ← EReal.coe_add]
  · intro r d
    unfold accNext
    rw [pay2_apply, hα, hap]
    simp only [hp, hv, ← EReal.coe_mul]
    rw [← coe_sum, ← EReal.coe_add]

/-- The first update, from (−∞, 0, 0): the state is real; the tile's sums stand alone. -/
theorem step_first (hs : ∀ r c, k0_pay13 (F := Ideal) k q bias (ix2 r c) = ((s r c : ℝ) : EReal))
    (v : FVec Ideal S1x2048x256 .bf16) (vr : Fin 2048 → Fin 256 → ℝ) (hv : ∀ c d, v (ix3 (0 : Fin 1) c d) = ((vr c d : ℝ) : EReal)) :
    ∃ M : Fin 1024 → ℝ, (∀ r u, mNext (F := Ideal) k q bias (k0_pay6 (F := Ideal)) (ix2 r u) = ((M r : ℝ) : EReal))
      ∧ (∀ r u, lNext (F := Ideal) k q bias (k0_pay6 (F := Ideal)) (k0_pay7 (F := Ideal)) (ix2 r u) = ((∑ c, Real.exp (s r c - M r) : ℝ) : EReal))
      ∧ (∀ r d, accNext (F := Ideal) v k q bias (k0_pay6 (F := Ideal)) (k0_pay8 (F := Ideal)) (ix2 r d)
          = ((∑ c, Real.exp (s r c - M r) * vr c d : ℝ) : EReal)) := by
  obtain ⟨T, hT⟩ := rowmax_real k q bias s hs
  have hM : ∀ r u, k0_pay14 (F := Ideal) k q bias (k0_pay6 (F := Ideal)) (ix2 r u) = ((T r : ℝ) : EReal) := by
    intro r u
    rw [pay14_apply, pay6_apply, hT]
    exact max_eq_right bot_le
  have hα : ∀ r u, k0_pay15 (F := Ideal) k q bias (k0_pay6 (F := Ideal)) (ix2 r u) = ((0 : ℝ) : EReal) := by
    intro r u
    rw [pay15_apply, pay6_apply, EReal.bot_sub, Ideal.exp_bot, EReal.coe_zero]
  obtain ⟨hl, ha⟩ := lacc_real k q bias s hs v vr hv (k0_pay6 (F := Ideal)) (k0_pay7 (F := Ideal)) (k0_pay8 (F := Ideal))
    T (fun _ => 0) (fun _ => 0) (fun _ _ => 0) hM hα pay7_apply pay8_apply
  refine ⟨T, fun r u => ?_, fun r u => ?_, fun r d => ?_⟩
  · unfold mNext k0_pay3
    rw [shapeCast_self]
    exact hM r u
  · rw [hl r u, zero_mul, zero_add]
  · rw [ha r d, zero_mul, zero_add]

/-- A later update, from a real state (Mp, Lp, Ap): the old state rescaled by exp (Mp − M), plus the tile's sums. -/
theorem step_next (hs : ∀ r c, k0_pay13 (F := Ideal) k q bias (ix2 r c) = ((s r c : ℝ) : EReal))
    (v : FVec Ideal S1x2048x256 .bf16) (vr : Fin 2048 → Fin 256 → ℝ) (hv : ∀ c d, v (ix3 (0 : Fin 1) c d) = ((vr c d : ℝ) : EReal))
    (mp lp : FVec Ideal S1024x1 .f32) (ap : FVec Ideal S1024x256 .f32) (Mp Lp : Fin 1024 → ℝ) (Ap : Fin 1024 → Fin 256 → ℝ)
    (hmp : ∀ r u, mp (ix2 r u) = ((Mp r : ℝ) : EReal))
    (hlp : ∀ r u, lp (ix2 r u) = ((Lp r : ℝ) : EReal)) (hap : ∀ r d, ap (ix2 r d) = ((Ap r d : ℝ) : EReal)) :
    ∃ M : Fin 1024 → ℝ,
      (∀ r u, lNext (F := Ideal) k q bias mp lp (ix2 r u) = ((Real.exp (Mp r - M r) * Lp r + ∑ c, Real.exp (s r c - M r) : ℝ) : EReal))
      ∧ (∀ r d, accNext (F := Ideal) v k q bias mp ap (ix2 r d)
          = ((Real.exp (Mp r - M r) * Ap r d + ∑ c, Real.exp (s r c - M r) * vr c d : ℝ) : EReal)) := by
  obtain ⟨T, hT⟩ := rowmax_real k q bias s hs
  have hM : ∀ r u, k0_pay14 (F := Ideal) k q bias mp (ix2 r u) = ((max (Mp r) (T r) : ℝ) : EReal) := by
    intro r u
    rw [pay14_apply, hmp, hT]
    exact (EReal.coe_strictMono.monotone.map_max).symm
  have hα : ∀ r u, k0_pay15 (F := Ideal) k q bias mp (ix2 r u) = ((Real.exp (Mp r - max (Mp r) (T r)) : ℝ) : EReal) := by
    intro r u
    rw [pay15_apply, hM, hmp, ← EReal.coe_sub, Ideal.exp_coe]
  exact ⟨fun r => max (Mp r) (T r), lacc_real k q bias s hs v vr hv mp lp ap _ _ Lp Ap hM hα hlp hap⟩

/-- The gate when the accumulator, a nonzero denominator, the query tile, the weights and the bias are real. -/
theorem pay4_real (acc : FVec Ideal S1024x256 .f32) (l : FVec Ideal S1024x1 .f32) (x : FVec Ideal S1x1024x256 .f32)
    (w2 : FVec Ideal S512x256 .f32) (b2 : FVec Ideal S1x256 .f32)
    (Ac : Fin 1024 → Fin 256 → ℝ) (L : Fin 1024 → ℝ) (X : Fin 1024 → Fin 256 → ℝ) (W : Fin 512 → Fin 256 → ℝ) (B : Fin 256 → ℝ)
    (hacc : ∀ r d, acc (ix2 r d) = ((Ac r d : ℝ) : EReal)) (hl : ∀ r u, l (ix2 r u) = ((L r : ℝ) : EReal)) (hL : ∀ r, L r ≠ 0)
    (hx : ∀ r d, x (ix3 (0 : Fin 1) r d) = ((X r d : ℝ) : EReal)) (hw : ∀ c o, w2 (ix2 c o) = ((W c o : ℝ) : EReal))
    (hb : ∀ o, b2 (ix2 (0 : Fin 1) o) = ((B o : ℝ) : EReal)) (u : Fin 1) (r : Fin 1024) (o : Fin 256) :
    k0_pay4 (F := Ideal) acc l x w2 b2 (ix3 u r o)
      = (((1 + Real.exp (-(∑ c : Fin 512, (if h : c.val < 256 then X r ⟨c.val, h⟩ else Ac r ⟨c.val - 256, by omega⟩ / L r) * W c o + B o)))⁻¹
          * Real.tanh (∑ c : Fin 512, (if h : c.val < 256 then X r ⟨c.val, h⟩ else Ac r ⟨c.val - 256, by omega⟩ / L r) * W c o + B o) : ℝ) : EReal) := by
  have hc : ∀ c : Fin 512, catE acc l x r c
      = (((if h : c.val < 256 then X r ⟨c.val, h⟩ else Ac r ⟨c.val - 256, by omega⟩ / L r) : ℝ) : EReal) := by
    intro c
    unfold catE
    split
    · next h => exact hx r _
    · next h => rw [hacc, hl, Ideal.div_coe (hL r), ← EReal.coe_mul, mul_one_div]
  rw [pay4_apply]
  simp only [hc, hw, hb, ← EReal.coe_mul]
  rw [← coe_sum, ← EReal.coe_add, Ideal.logistic_coe, Ideal.tanh_coe, ← EReal.coe_mul]

end Real

/-! ## The block is the specification's result on its rows -/

section Final
open Cert.LibReal

variable (A : Args)

/-- The block of query tile ld of batch b is the specification's result on its rows. -/
theorem outBlk_eq (b : Fin 4) (ld : Fin 4) :
    OutBlk (F := Ideal) (xB A b ld) (memB A b 0) (memB A b 1) (biasB A b 0) (biasB A b 1) (wiT A) (biR A) (wmT A) (bmR A) (w2T A) (b2R A)
      = fun y => ((out A b (row ld (y 1)) (y 2) : ℝ) : EReal) := by
  -- the scores and the values of the two key tiles are real
  have hs : ∀ (t : Fin 2) (r : Fin 1024) (c : Fin 2048),
      k0_pay13 (F := Ideal) (kR A b t) (qR A b ld) (biasB A b t) (ix2 r c) = ((sc A b (row ld r) (tile t c) : ℝ) : EReal) :=
    fun t r c => congrFun (s_eq A b ld t) (ix2 r c)
  have hv : ∀ (t : Fin 2) (c : Fin 2048) (d : Fin 256),
      vR A b t (ix3 (0 : Fin 1) c d) = ((A.mem b (tile t c) d : ℝ) : EReal) := fun t c d => rfl
  -- the state after tile 0, then after tile 1
  obtain ⟨M1, hm1, hl1, ha1⟩ := step_first (kR A b 0) (qR A b ld) (biasB A b 0) (fun r c => sc A b (row ld r) (tile 0 c)) (hs 0)
    (vR A b 0) (fun c d => A.mem b (tile 0 c) d) (hv 0)
  obtain ⟨M2, hl2, ha2⟩ := step_next (kR A b 1) (qR A b ld) (biasB A b 1) (fun r c => sc A b (row ld r) (tile 1 c)) (hs 1)
    (vR A b 1) (fun c d => A.mem b (tile 1 c) d) (hv 1) _ _ _ M1 _ _ hm1 hl1 ha1
  beta_reduce at hl2 ha2
  -- the final denominator is a sum of positive terms
  have hL : ∀ r, Real.exp (M1 r - M2 r) * (∑ c, Real.exp (sc A b (row ld r) (tile 0 c) - M1 r))
      + ∑ c, Real.exp (sc A b (row ld r) (tile 1 c) - M2 r) ≠ 0 := fun r =>
    (add_pos_of_nonneg_of_pos
      (mul_nonneg (Real.exp_pos _).le (Finset.sum_nonneg fun c _ => (Real.exp_pos _).le))
      (Finset.sum_pos (fun c _ => Real.exp_pos _) Finset.univ_nonempty)).ne'
  unfold OutBlk
  simp only [q_eq, k_eq, v_eq]
  funext y
  obtain ⟨u, r, o, rfl⟩ : ∃ (u : Fin 1) (r : Fin 1024) (o : Fin 256), y = ix3 u r o := ⟨y 0, y 1, y 2, eq_ix3 y⟩
  refine (pay4_real _ _ _ _ _ _ _ (fun r d => A.x b (row ld r) d) (fun c o => A.w2 o c) A.b2 ha2 hl2 hL
    (fun _ _ => rfl) (fun _ _ => rfl) (fun _ => rfl) u r o).trans ?_
  -- the online quotient of the two tiles is the attended value
  have hatt : ∀ d : Fin 256,
      (Real.exp (M1 r - M2 r) * (∑ c, Real.exp (sc A b (row ld r) (tile 0 c) - M1 r) * A.mem b (tile 0 c) d)
          + ∑ c, Real.exp (sc A b (row ld r) (tile 1 c) - M2 r) * A.mem b (tile 1 c) d)
        / (Real.exp (M1 r - M2 r) * (∑ c, Real.exp (sc A b (row ld r) (tile 0 c) - M1 r))
          + ∑ c, Real.exp (sc A b (row ld r) (tile 1 c) - M2 r)) = att A b (row ld r) d :=
    fun d => Cert.Math.online_two_tiles (fun j => sc A b (row ld r) j) (fun j => A.mem b j d) (M1 r) (M2 r)
  -- so the pre-activation is the specification's
  have hz : (∑ c : Fin 512, (if h : c.val < 256 then A.x b (row ld r) ⟨c.val, h⟩
        else (Real.exp (M1 r - M2 r) * (∑ c', Real.exp (sc A b (row ld r) (tile 0 c') - M1 r) * A.mem b (tile 0 c') ⟨c.val - 256, by omega⟩)
            + ∑ c', Real.exp (sc A b (row ld r) (tile 1 c') - M2 r) * A.mem b (tile 1 c') ⟨c.val - 256, by omega⟩)
          / (Real.exp (M1 r - M2 r) * (∑ c', Real.exp (sc A b (row ld r) (tile 0 c') - M1 r))
            + ∑ c', Real.exp (sc A b (row ld r) (tile 1 c') - M2 r))) * A.w2 o c + A.b2 o) = z A b (row ld r) o := by
    unfold z
    refine congrArg (· + A.b2 o) (Finset.sum_congr rfl fun c _ => congrArg (· * A.w2 o c) ?_)
    unfold cat
    split
    · rfl
    · exact hatt _
  beta_reduce
  rw [hz]
  rfl

end Final

end Cert.KernelIdeal.Blk

end
-- ==== Proof.KIValue.lean ====
/-
  The kernel's value: when the launch memory holds real arguments A, the result array ends at the specification's G A.
  The output window is written back at the last key tile of each query tile (b, ld), with the one-term block of that
  tile, which on real blocks is the specification's result on rows ld·1024 … ld·1024 + 1023 of batch b; the sixteen
  written blocks cover the array.
-/
import proofs.«409618_j42356967473584_3_alg».proof.Proof.KIFrame
import proofs.«409618_j42356967473584_3_alg».proof.Proof.KIHost
import proofs.«409618_j42356967473584_3_alg».proof.Proof.KSoft
import Idealize.ShloMosaic.Lib.Pipeline.Value

set_option maxRecDepth 16384

noncomputable section

namespace Cert.KernelIdeal.Host

open Cert.KernelIdeal Cert.KernelIdeal.Gen Cert.KernelIdeal.Body Cert.KernelIdeal.Blk
open Idealize.ShloMosaic Idealize.ShloMosaic.TcCoe Idealize.SL.Sem Cert.Spec
open Idealize.ShloMosaic.Pipeline (Dat Cfg Window)

variable {m : (ℓ : Loc nD τ sig) → Buf (Elt Ideal) ℓ} {A : Args}

/-- The specification's result at coordinates equal as naturals. -/
theorem out_congr (b b' : Fin 4) (r r' : Fin 4096) (o o' : Fin 256) (hb : b.val = b'.val) (hr : r.val = r'.val)
    (ho : o.val = o'.val) : ((out A b r o : ℝ) : EReal) = ((out A b' r' o' : ℝ) : EReal) := by
  rw [Fin.ext hb, Fin.ext hr, Fin.ext ho]

/-- The specification's result on the rows of query tile (b, ld) is G A read through the block of a point of that tile:
    a block's coordinate on an axis is index × size + the coordinate inside the block. -/
theorem read_G (t : Fin cfg0.N) :
    (cfg0.win 9).cut (grid0.coords t) (fun y : S1x1024x256.Idx => ((out A (bN t.val) (row (ldN t.val) (y 1)) (y 2) : ℝ) : EReal))
      = ((cfg0.win 9).blk t).view.read (Elt Ideal) (G A) := by
  obtain ⟨-, -, -, -, -, -, -, -, -, e0, e1, e2⟩ := idx_facts t
  have ht := lt32 t
  funext y
  refine out_congr _ (((cfg0.win 9).blk t).view.emb y (0 : Fin 3)) _ (((cfg0.win 9).blk t).view.emb y (1 : Fin 3)) _
    (((cfg0.win 9).blk t).view.emb y (2 : Fin 3)) ?_ ?_ ?_
  · show t.val / 8 % 4 = win0_9.index t (0 : Fin 3) * 1 + 1 * (y 0).val
    have hj : (y 0).val < 1 := (y 0).isLt
    omega
  · show t.val / 2 % 4 * 1024 + (y 1).val = win0_9.index t (1 : Fin 3) * 1024 + 1 * (y 1).val
    omega
  · show (y 2).val = win0_9.index t (2 : Fin 3) * 256 + 1 * (y 2).val
    omega

/-- An index of the result array is in point t's block iff each coordinate is in the block's range on its axis. -/
theorem mem_blk (t : Fin cfg0.N) (i : S4x4096x256.Idx) :
    i ∈ ((cfg0.win 9).blk t).view.set ↔ ∀ a : Fin 3, win0_9.index t a * S1x1024x256.size a ≤ (i a).val
      ∧ (i a).val < win0_9.index t a * S1x1024x256.size a + S1x1024x256.size a := by
  show i ∈ ((View.whole main_v11).slice (win0_9.rect t)).set ↔ _
  rw [View.set_slice_whole, Rect.mem_set_unit]
  exact Iff.rfl

/-- Row r of batch b is written back at the last key tile of query tile r / 1024: the point 8·b + 2·(r / 1024) + 1. -/
theorem cover (i : S4x4096x256.Idx) : ∃ t : Fin cfg0.N, (cfg0.win 9).flush t = true ∧ i ∈ ((cfg0.win 9).blk t).view.set := by
  have h0 : (i 0).val < 4 := (i 0).isLt
  have h1 : (i 1).val < 4096 := (i 1).isLt
  have h2 : (i 2).val < 256 := (i 2).isLt
  have hN : cfg0.N = 32 := N_0
  let t : Fin cfg0.N := ⟨8 * (i 0).val + 2 * ((i 1).val / 1024) + 1, by rw [hN]; omega⟩
  have htv : t.val = 8 * (i 0).val + 2 * ((i 1).val / 1024) + 1 := rfl
  obtain ⟨-, -, -, -, -, -, -, -, -, e0, e1, e2⟩ := idx_facts t
  refine ⟨t, (flush0_9 t).mpr (by omega), ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 256 ≤ (i 2).val ∧ (i 2).val < win0_9.index t (2 : Fin 3) * 256 + 256; omega

/-- The output block of query tile (b, ld) on real arguments is the specification's result on its rows. -/
theorem outAt_eq (c : Dev nD) (h : Holds m c A) (b ld : Fin 4) :
    OutAt m c b ld = fun y : S1x1024x256.Idx => ((out A b (row ld (y 1)) (y 2) : ℝ) : EReal) := by
  rw [OutAt_eq, XBk_eq h, MemBk_eq h, MemBk_eq h, BiasBk_eq h, BiasBk_eq h]
  show OutBlk _ _ _ _ _ (V m c main_v0) (V m c main_v3) (V m c main_v1) (V m c main_v4) (V m c main_v2) (V m c main_v5) = _
  rw [V_wi h, V_bi h, V_wm h, V_bm h, V_w2 h, V_b2 h, outBlk_eq]

/-- What a last key tile writes back is the specification's result read through the tile's block. -/
theorem flushed_out (c : Dev nD) (h : Holds m c A) (t : Fin cfg0.N) (hf : (cfg0.win 9).flush t = true) :
    (dats m 0 c).flushed 9 t = ((cfg0.win 9).blk t).view.read (Elt Ideal) (G A) := by
  show (cfg0.win 9).cut (grid0.coords t) ((dats m 0 c).after 9 t) = _
  rw [after0_9, outAt_eq c h]
  exact read_G t

/-- The result array after the run. -/
theorem final_out (c : Dev nD) (h : Holds m c A) : (dats m 0 c).arrAt 9 cfg0.N = G A :=
  (dats m 0 c).arrAt_eq_of_cover 9 (G A) (flushed_out c h) fun i => cover i

/-- From the frame run's post: the result buffer holds G A. -/
theorem value_of_post (hA : ∀ c, Holds m c A) (r : PUnit × MemSt nD τ sig (Elt Ideal))
    (hr : Pipeline.FramePost cfgs (dats m) 0 (V m) r) (c : Dev nD) :
    r.2.mem ((c.tc : Thread nD τ).loc main_v11) = G A :=
  ((hr c).1 9).trans (final_out c (hA c))

end Cert.KernelIdeal.Host

end
-- ==== Proof.RefValue.lean ====
/-
  The reference's result at the extended reals, index by index, when every argument is real: the specification's
  result array. The reference subtracts the row maximum inside its softmax; the maximum of finitely many reals is a
  real, and the weighted average does not depend on which real is subtracted.
-/
import proofs.«409618_j42356967473584_3_alg».proof.Proof.RefRead
import proofs.«409618_j42356967473584_3_alg».proof.Proof.ArgsE
import proofs.«409618_j42356967473584_3_alg».proof.Proof.Math
import proofs.«409618_j42356967473584_3_alg».proof.Proof.LibReal
import Idealize.ShloMosaic.Lib.IdealHost
import Idealize.ShloMosaic.PureOps.Reduce

noncomputable section

namespace Cert.ReferenceIdeal.RefValue

open Cert.ReferenceIdeal Idealize.ShloMosaic Cert.Spec
open Idealize.ShloMosaic.ValueIdx (ix1 ix2 ix3 eq_ix3)

/-! ## The constants the reference spells, as extended reals -/

/-- The word of 16.0 denotes the real 16. -/
theorem word_sixteen : Ideal.ofBits .f32 0x41800000#32 = ((16 : ℝ) : EReal) := by
  simp [Ideal.ofBits, Ideal.ieee, -EReal.coe_mul]; norm_num

/-- The word of −∞ denotes the bottom element. -/
theorem word_neg_inf : Ideal.ofBits .f32 0xFF800000#32 = (⊥ : EReal) := by
  simp [Ideal.ofBits, Ideal.ieee]

/-- The mask penalty's word denotes a real, the specification's pen. -/
theorem word_pen : Ideal.ofBits .f32 0x7149F2CA#32 = ((pen : ℝ) : EReal) := by
  unfold pen
  have h : ∃ r : ℝ, Ideal.ofBits .f32 0x7149F2CA#32 = (r : EReal) := by
    simp [Ideal.ofBits, Ideal.ieee, -EReal.coe_mul]
  obtain ⟨r, hr⟩ := h
  rw [hr, EReal.toReal_coe]

/-- The coercion of the reals into the extended reals commutes with max. -/
theorem coe_max (a b : ℝ) : ((max a b : ℝ) : EReal) = max (a : EReal) (b : EReal) :=
  EReal.coe_strictMono.monotone.map_max

variable (A : Args)

/-! ## The two projections: relu (x·Wi + bi) and relu (mem·Wm + bm) -/

/-- The rectified query projection at (b, l, h). -/
theorem query_eq (b : Fin 4) (l : Fin 4096) (h : Fin 256) :
    PRead.val_main_v4 (F := Ideal) (XA A) (WiA A) (biA A) (ix3 b l h) = ((qd A b l h : ℝ) : EReal) := by
  rw [PRead.val_main_v4_apply, PRead.val_main_v3_apply, PRead.val_main_v0_apply, PRead.val_main_v2_apply,
    PRead.val_main_v1_apply, PRead.val_main_call0_v0_apply, PRead.val_main_call0_cst_apply]
  simp only [Ideal.maximumf_def, Ideal.addf_def, Ideal.ofBits_def, Ideal.ofBits_zero_f32]
  unfold qd
  rw [coe_max, EReal.coe_add, Cert.LibReal.coe_sum, EReal.coe_zero]
  simp only [EReal.coe_mul]
  rfl

/-- The rectified key projection at (b, j, h). -/
theorem key_eq (b : Fin 4) (j : Fin 4096) (h : Fin 256) :
    PRead.val_main_v9 (F := Ideal) (MemA A) (WmA A) (bmA A) (ix3 b j h) = ((kd A b j h : ℝ) : EReal) := by
  rw [PRead.val_main_v9_apply, PRead.val_main_v8_apply, PRead.val_main_v5_apply, PRead.val_main_v7_apply,
    PRead.val_main_v6_apply, PRead.val_main_call1_v0_apply, PRead.val_main_call1_cst_apply]
  simp only [Ideal.maximumf_def, Ideal.addf_def, Ideal.ofBits_def, Ideal.ofBits_zero_f32]
  unfold kd
  rw [coe_max, EReal.coe_add, Cert.LibReal.coe_sum, EReal.coe_zero]
  simp only [EReal.coe_mul]
  rfl

/-! ## The masked, scaled score -/

theorem lidx10_eq (b : Fin 4) (l j : Fin 4096) (k : Fin 256) : PRead.lidx_main_v10 (ix3 b l j) k = ix3 b l k :=
  funext fun a => Fin.ext (by match a with | ⟨0, _⟩ => rfl | ⟨1, _⟩ => rfl | ⟨2, _⟩ => rfl)

theorem ridx10_eq (b : Fin 4) (l j : Fin 4096) (k : Fin 256) : PRead.ridx_main_v10 (ix3 b l j) k = ix3 b j k :=
  funext fun a => Fin.ext (by match a with | ⟨0, _⟩ => rfl | ⟨1, _⟩ => rfl | ⟨2, _⟩ => rfl)

/-- The dot product of the query row l with the key row j. -/
theorem dot_eq (b : Fin 4) (l j : Fin 4096) :
    PRead.val_main_v10 (F := Ideal) (XA A) (MemA A) (WiA A) (biA A) (WmA A) (bmA A) (ix3 b l j)
      = ((∑ h, qd A b l h * kd A b j h : ℝ) : EReal) := by
  rw [PRead.val_main_v10_apply, Cert.LibReal.coe_sum]
  refine Finset.sum_congr rfl fun k _ => ?_
  rw [lidx10_eq, ridx10_eq, query_eq, key_eq, EReal.coe_mul]

/-- The dot product divided by 16. -/
theorem scaled_eq (b : Fin 4) (l j : Fin 4096) :
    PRead.val_main_v12 (F := Ideal) (XA A) (MemA A) (WiA A) (biA A) (WmA A) (bmA A) (ix3 b l j)
      = (((∑ h, qd A b l h * kd A b j h) / 16 : ℝ) : EReal) := by
  rw [PRead.val_main_v12_apply, PRead.val_main_v11_apply, PRead.val_main_cst_apply, dot_eq]
  simp only [Ideal.hostDivf_def, Ideal.ofBits_def]
  rw [word_sixteen, Ideal.div_coe (by norm_num : (16 : ℝ) ≠ 0), ← EReal.coe_mul]
  congr 1
  ring

/-- The penalty pen · (1 − msk b j), the same for every query row. -/
theorem penalty_eq (b : Fin 4) (l j : Fin 4096) :
    PRead.val_main_v18 (F := Ideal) (MskA A) (ix3 b l j) = ((pen * (1 - A.msk b j) : ℝ) : EReal) := by
  rw [PRead.val_main_v18_apply, PRead.val_main_v17_apply, PRead.val_main_v16_apply, PRead.val_main_cst_1_apply,
    PRead.val_main_v15_apply, PRead.val_main_v14_apply, PRead.val_main_cst_0_apply, PRead.val_main_v13_apply]
  simp only [Ideal.mulf_def, Ideal.subf_def, Ideal.ofBits_def]
  rw [word_pen, Ideal.ofBits_one_f32, EReal.coe_mul, EReal.coe_sub, EReal.coe_one]
  rfl

/-- The masked, scaled score. -/
theorem score_eq (b : Fin 4) (l j : Fin 4096) :
    PRead.val_main_v19 (F := Ideal) (XA A) (MemA A) (MskA A) (WiA A) (biA A) (WmA A) (bmA A) (ix3 b l j)
      = ((sc A b l j : ℝ) : EReal) := by
  rw [PRead.val_main_v19_apply, scaled_eq, penalty_eq]
  simp only [Ideal.subf_def]
  unfold sc
  rw [EReal.coe_sub]

/-! ## The row maximum is a real -/

theorem reduces_keys : S4x4096x4096.Reduces [2] S4x4096 := by decide

/-- The row (b, l) with the key coordinate k put back is (b, l, k). -/
theorem lift_eq (b : Fin 4) (l : Fin 4096) (k : Fin (S4x4096x4096.size 2)) :
    reduces_keys.lift (ix2 b l) k = ix3 b l (⟨k.val, k.isLt⟩ : Fin 4096) :=
  funext fun a => Fin.ext (by match a with | ⟨0, _⟩ => rfl | ⟨1, _⟩ => rfl | ⟨2, _⟩ => rfl)

/-- The reference's row maximum (the fold of max from −∞ over the 4096 scores of the row) is a real. -/
theorem rowmax_real (b : Fin 4) (l : Fin 4096) :
    ∃ M : ℝ, PRead.val_main_v22 (F := Ideal) (XA A) (MemA A) (MskA A) (WiA A) (biA A) (WmA A) (bmA A) (ix2 b l) = (M : EReal) := by
  obtain ⟨M, hM⟩ := Cert.Math.fold_max_real (by norm_num : 0 < 4096) (fun k : Fin 4096 => sc A b l k)
  refine ⟨M, ?_⟩
  rw [PRead.val_main_v22_apply, PRead.val_main_v21_apply, PRead.val_main_cst_3_apply]
  unfold PRead.val_main_v20
  rw [Host.reduce_eq_fold_single FloatOps.maximumf _ _ Facts₀.reducesTo_S4x4096x4096_S4x4096_d2 reduces_keys Facts₀.h_S_,
    PRead.val_main_cst_2_apply]
  simp only [Ideal.maximumf_def, Ideal.ofBits_def]
  rw [word_neg_inf]
  have hf : (PRead.val_main_v19 (F := Ideal) (XA A) (MemA A) (MskA A) (WiA A) (biA A) (WmA A) (bmA A) ∘ reduces_keys.lift (ix2 b l))
      = fun k : Fin 4096 => ((sc A b l k : ℝ) : EReal) := funext fun k => by
    show PRead.val_main_v19 (F := Ideal) (XA A) (MemA A) (MskA A) (WiA A) (biA A) (WmA A) (bmA A) (reduces_keys.lift (ix2 b l) k) = _
    rw [lift_eq, score_eq]
    rfl
  rw [hf]
  exact (max_eq_right bot_le).trans hM

/-! ## The softmax weights, with the row maximum M subtracted -/

theorem idx_rowmax_eq (b : Fin 4) (l j : Fin 4096) :
    PRead.idx_main_v23 (PRead.idx_main_v24 (ix3 b l j)) = ix2 b l :=
  funext fun a => Fin.ext (by match a with | ⟨0, _⟩ => rfl | ⟨1, _⟩ => rfl)

theorem idx_rowsum_eq (b : Fin 4) (l j : Fin 4096) :
    PRead.idx_main_v28 (PRead.idx_main_v29 (ix3 b l j)) = ix2 b l :=
  funext fun a => Fin.ext (by match a with | ⟨0, _⟩ => rfl | ⟨1, _⟩ => rfl)

theorem idx27_eq (b : Fin 4) (l k : Fin 4096) : PRead.idx_main_v27 (ix2 b l) k = ix3 b l k :=
  funext fun a => Fin.ext (by match a with | ⟨0, _⟩ => rfl | ⟨1, _⟩ => rfl | ⟨2, _⟩ => rfl)

theorem lidx31_eq (b : Fin 4) (l : Fin 4096) (d : Fin 256) (k : Fin 4096) :
    PRead.lidx_main_v31 (ix3 b l d) k = ix3 b l k :=
  funext fun a => Fin.ext (by match a with | ⟨0, _⟩ => rfl | ⟨1, _⟩ => rfl | ⟨2, _⟩ => rfl)

/-- exp (score − M), M the row's maximum. -/
theorem expo_eq (b : Fin 4) (l j : Fin 4096) (M : ℝ)
    (hM : PRead.val_main_v22 (F := Ideal) (XA A) (MemA A) (MskA A) (WiA A) (biA A) (WmA A) (bmA A) (ix2 b l) = (M : EReal)) :
    PRead.val_main_v26 (F := Ideal) (XA A) (MemA A) (MskA A) (WiA A) (biA A) (WmA A) (bmA A) (ix3 b l j)
      = ((Real.exp (sc A b l j - M) : ℝ) : EReal) := by
  rw [PRead.val_main_v26_apply, PRead.val_main_v25_apply, score_eq, PRead.val_main_v24_apply, PRead.val_main_v23_apply,
    idx_rowmax_eq, hM]
  simp only [Ideal.hostUnary_exp_def, Ideal.subf_def]
  rw [← EReal.coe_sub, Ideal.exp_coe]

/-- The row's sum of those exponentials. -/
theorem rowsum_eq (b : Fin 4) (l : Fin 4096) (M : ℝ)
    (hM : PRead.val_main_v22 (F := Ideal) (XA A) (MemA A) (MskA A) (WiA A) (biA A) (WmA A) (bmA A) (ix2 b l) = (M : EReal)) :
    PRead.val_main_v27 (F := Ideal) (XA A) (MemA A) (MskA A) (WiA A) (biA A) (WmA A) (bmA A) (ix2 b l)
      = ((∑ j, Real.exp (sc A b l j - M) : ℝ) : EReal) := by
  rw [PRead.val_main_v27_apply, PRead.val_main_cst_4_apply]
  simp only [Ideal.ofBits_def, Ideal.ofBits_zero_f32]
  rw [zero_add, Cert.LibReal.coe_sum]
  refine Finset.sum_congr rfl fun k _ => ?_
  rw [idx27_eq, expo_eq A b l k M hM]

/-- The softmax weight of key row j. -/
theorem weight_eq (b : Fin 4) (l j : Fin 4096) (M : ℝ)
    (hM : PRead.val_main_v22 (F := Ideal) (XA A) (MemA A) (MskA A) (WiA A) (biA A) (WmA A) (bmA A) (ix2 b l) = (M : EReal)) :
    PRead.val_main_v30 (F := Ideal) (XA A) (MemA A) (MskA A) (WiA A) (biA A) (WmA A) (bmA A) (ix3 b l j)
      = ((Real.exp (sc A b l j - M) / ∑ j', Real.exp (sc A b l j' - M) : ℝ) : EReal) := by
  rw [PRead.val_main_v30_apply, expo_eq A b l j M hM, PRead.val_main_v29_apply, PRead.val_main_v28_apply,
    idx_rowsum_eq, rowsum_eq A b l M hM]
  simp only [Ideal.hostDivf_def]
  have hS : (∑ j', Real.exp (sc A b l j' - M)) ≠ 0 := (Cert.Math.sum_exp_pos fun j' => sc A b l j' - M).ne'
  generalize (∑ j', Real.exp (sc A b l j' - M)) = S at hS ⊢
  rw [Ideal.div_coe hS, ← EReal.coe_mul, EReal.coe_eq_coe_iff]
  ring

/-- The attended value: the weighted average of the memory rows, whatever real was subtracted. -/
theorem attended_eq (b : Fin 4) (l : Fin 4096) (d : Fin 256) :
    PRead.val_main_v31 (F := Ideal) (XA A) (MemA A) (MskA A) (WiA A) (biA A) (WmA A) (bmA A) (ix3 b l d)
      = ((att A b l d : ℝ) : EReal) := by
  obtain ⟨M, hM⟩ := rowmax_real A b l
  rw [PRead.val_main_v31_apply]
  unfold att
  rw [← Cert.Math.softmax_shift (fun j => sc A b l j) (fun j => A.mem b j d) M, Cert.LibReal.coe_sum]
  refine Finset.sum_congr rfl fun k _ => ?_
  rw [lidx31_eq, weight_eq A b l k M hM, EReal.coe_mul]
  rfl

/-! ## The gate: σ(z) · tanh z of z = [x, att]·W2 + b2 -/

theorem lidx33_eq (b : Fin 4) (l : Fin 4096) (o : Fin 256) (k : Fin 512) :
    PRead.lidx_main_v33 (ix3 b l o) k = ix3 b l k :=
  funext fun a => Fin.ext (by match a with | ⟨0, _⟩ => rfl | ⟨1, _⟩ => rfl | ⟨2, _⟩ => rfl)

theorem ridx33_eq (b : Fin 4) (l : Fin 4096) (o : Fin 256) (k : Fin 512) :
    PRead.ridx_main_v33 (ix3 b l o) k = ix2 o k :=
  funext fun a => Fin.ext (by match a with | ⟨0, _⟩ => rfl | ⟨1, _⟩ => rfl)

theorem idx_bias_eq (b : Fin 4) (l : Fin 4096) (o : Fin 256) :
    PRead.idx_main_v34 (PRead.idx_main_v35 (ix3 b l o)) = ix1 o :=
  funext fun a => Fin.ext (by match a with | ⟨0, _⟩ => rfl)

/-- The concatenated feature c of row (b, l): the input x below 256, the attended value from 256 on. -/
theorem cat_eq (b : Fin 4) (l : Fin 4096) (c : Fin 512) :
    PRead.val_main_v32 (F := Ideal) (XA A) (MemA A) (MskA A) (WiA A) (biA A) (WmA A) (bmA A) (ix3 b l c)
      = ((cat A b l c : ℝ) : EReal) := by
  unfold PRead.val_main_v32 cat
  by_cases hc : c.val < 256
  · rw [dif_pos hc]
    exact concatenate_pair_apply_left (t := S4x4096x512) (s₁ := S4x4096x256) (s₂ := S4x4096x256) (2 : Fin 3) _ _ _ (ix3 b l c) rfl (ix3 b l ⟨c.val, hc⟩)
      (fun a => by match a with | ⟨0, _⟩ => rfl | ⟨1, _⟩ => rfl | ⟨2, _⟩ => rfl)
  · rw [dif_neg hc]
    refine (concatenate_pair_apply_right (t := S4x4096x512) (s₁ := S4x4096x256) (s₂ := S4x4096x256) (2 : Fin 3) _ _ _ (ix3 b l c) rfl rfl (ix3 b l ⟨c.val - 256, by omega⟩)
      (fun a ha => by match a with | ⟨0, _⟩ => rfl | ⟨1, _⟩ => rfl | ⟨2, _⟩ => exact absurd rfl ha)
      (by show c.val - 256 + 256 = c.val; omega)).trans ?_
    exact attended_eq A b l _

/-- The gate's pre-activation z = [x, att]·W2 + b2 at (b, l, o). -/
theorem preact_eq (b : Fin 4) (l : Fin 4096) (o : Fin 256) :
    PRead.val_main_v36 (F := Ideal) (XA A) (MemA A) (MskA A) (WiA A) (biA A) (WmA A) (bmA A) (W2A A) (b2A A) (ix3 b l o)
      = ((z A b l o : ℝ) : EReal) := by
  rw [PRead.val_main_v36_apply, PRead.val_main_v33_apply, PRead.val_main_v35_apply, PRead.val_main_v34_apply,
    idx_bias_eq]
  simp only [Ideal.addf_def]
  unfold z
  rw [EReal.coe_add, Cert.LibReal.coe_sum]
  refine congrArg₂ (fun s t : EReal => s + t) (Finset.sum_congr rfl fun k _ => ?_) rfl
  rw [lidx33_eq, ridx33_eq, cat_eq, EReal.coe_mul]
  rfl

/-- On a real z the reference's gate, 1 / (1 + exp (−z)) times tanh z with the extended reals' operations, is the
    real (1 + exp (−z))⁻¹ · tanh z: 1 + exp (−z) is a positive real, so the division is the real one. -/
theorem gate_coe (t : ℝ) :
    Ideal.div 1 (1 + Ideal.exp (-(t : EReal))) * Ideal.tanh (t : EReal)
      = (((1 + Real.exp (-t))⁻¹ * Real.tanh t : ℝ) : EReal) := by
  rw [← EReal.coe_neg, Ideal.exp_coe, ← EReal.coe_one, ← EReal.coe_add,
    Ideal.div_coe (by positivity : (1 + Real.exp (-t)) ≠ 0), Ideal.tanh_coe, ← EReal.coe_mul, ← EReal.coe_mul,
    EReal.coe_eq_coe_iff, one_mul, one_div]

/-- The reference's last stage on real arguments is the specification's result. -/
theorem ref_eq (A : Args) :
    Cert.ReferenceIdeal.PRead.val_main_v44 (F := Ideal) (XA A) (MemA A) (MskA A) (WiA A) (biA A) (WmA A) (bmA A) (W2A A) (b2A A) = G A := by
  funext i
  obtain ⟨b, l, o, rfl⟩ : ∃ (b : Fin 4) (l : Fin 4096) (o : Fin 256), i = ix3 b l o := ⟨i 0, i 1, i 2, eq_ix3 i⟩
  rw [PRead.val_main_v44_apply, PRead.val_main_v42_apply, PRead.val_main_v41_apply, PRead.val_main_cst_6_apply,
    PRead.val_main_v40_apply, PRead.val_main_v39_apply, PRead.val_main_cst_5_apply, PRead.val_main_v38_apply,
    PRead.val_main_v37_apply, PRead.val_main_v43_apply, preact_eq]
  simp only [Ideal.mulf_def, Ideal.hostDivf_def, Ideal.addf_def, Ideal.hostUnary_exp_def, Ideal.hostUnary_tanh_def,
    Ideal.hostNegf_def, Ideal.negf_def, Ideal.ofBits_def, Ideal.ofBits_one_f32]
  show _ = ((out A b l o : ℝ) : EReal)
  unfold out
  exact gate_coe (z A b l o)

end Cert.ReferenceIdeal.RefValue

end
-- ==== Proof.Finite.lean ====
/-
  From the precondition to real arguments: the printed predicate is the conjunction, over the nine argument arrays, of
  "every entry's absolute value is below +∞"; an extended real whose absolute value is below +∞ is a real.
-/
import proofs.«409618_j42356967473584_3_alg».proof.Pre_finite_inputs
import proofs.«409618_j42356967473584_3_alg».proof.Proof.ArgsE
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx Cert.Spec

/-- The f32 pattern with all exponent bits set and no fraction bit denotes +∞. -/
theorem ofBits_inf : Ideal.ofBits .f32 0x7F800000#32 = (⊤ : EReal) := by
  simp [Ideal.ofBits, Ideal.ieee]

/-- The scalar shape has one index. -/
instance : Subsingleton (Cert.Pre_finite_inputs.S_).Idx := ⟨fun a b => funext fun d => d.elim0⟩

/-- An extended real whose absolute value `max x (-x)` is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One array's conjunct: if the all-reduction by `and` of "|x| < +∞" is 1, every entry of `x` is a real. -/
theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x) (broadcastInDim S ![] hb (constant (F := Ideal) Cert.Pre_finite_inputs.S_ .f32 0x7F800000#32)))
          (constantI Cert.Pre_finite_inputs.S_ 1 1#1) hr hu ix0 = 1#1) (i : S.Idx) :
    ∃ r : ℝ, x i = (r : EReal) := by
  have h1 := Host.reduce_andi_all _ _ hr hu ix0 e i
  rw [cmpf_apply, broadcastInDim_scalar_apply, constant_apply, ofBits_inf] at h1
  change BitVec.ofBool (decide (max (x i) (-(x i)) < (⊤ : EReal))) = 1#1 at h1
  refine real_of_abs_lt_top _ ?_
  by_contra hn
  rw [decide_eq_false hn] at h1
  exact absurd h1 (by decide)

/-- If the precondition holds of nine arrays of extended reals, they are the coercions of real arrays. -/
theorem args_of_pre [Cert.Pre_finite_inputs.Facts]
    (x0 x1 : FVec Ideal Cert.Pre_finite_inputs.S4x4096x256 .f32) (x2 : FVec Ideal Cert.Pre_finite_inputs.S4x4096 .f32)
    (x3 : FVec Ideal Cert.Pre_finite_inputs.S256x256 .f32) (x4 : FVec Ideal Cert.Pre_finite_inputs.S256 .f32)
    (x5 : FVec Ideal Cert.Pre_finite_inputs.S256x256 .f32) (x6 : FVec Ideal Cert.Pre_finite_inputs.S256 .f32)
    (x7 : FVec Ideal Cert.Pre_finite_inputs.S256x512 .f32) (x8 : FVec Ideal Cert.Pre_finite_inputs.S256 .f32)
    (h : Cert.Pre_finite_inputs.fn (F := Ideal) x0 x1 x2 x3 x4 x5 x6 x7 x8 = fun _ => 1#1) :
    ∃ A : Args, x0 = XA A ∧ x1 = MemA A ∧ x2 = MskA A ∧ x3 = WiA A ∧ x4 = biA A ∧ x5 = WmA A ∧ x6 = bmA A ∧ x7 = W2A A ∧ x8 = b2A A := by
  have h0 := congrFun h ix0
  dsimp only [Cert.Pre_finite_inputs.fn, Cert.Pre_finite_inputs.fn_part1, Cert.Pre_finite_inputs.fn_part2] at h0
  simp only [Idealize.ShloMosaic.andi, IntOp.andi_eq_one] at h0
  obtain ⟨⟨⟨⟨⟨⟨⟨⟨e0, e1⟩, e2⟩, e3⟩, e4⟩, e5⟩, e6⟩, e7⟩, e8⟩ := h0
  choose f0 hf0 using real_of_all x0 _ _ _ e0
  choose f1 hf1 using real_of_all x1 _ _ _ e1
  choose f2 hf2 using real_of_all x2 _ _ _ e2
  choose f3 hf3 using real_of_all x3 _ _ _ e3
  choose f4 hf4 using real_of_all x4 _ _ _ e4
  choose f5 hf5 using real_of_all x5 _ _ _ e5
  choose f6 hf6 using real_of_all x6 _ _ _ e6
  choose f7 hf7 using real_of_all x7 _ _ _ e7
  choose f8 hf8 using real_of_all x8 _ _ _ e8
  refine ⟨⟨fun a b c => f0 (ix3 a b c), fun a b c => f1 (ix3 a b c), fun a b => f2 (ix2 a b), fun a b => f3 (ix2 a b),
    fun a => f4 (ix1 a), fun a b => f5 (ix2 a b), fun a => f6 (ix1 a), fun a b => f7 (ix2 a b), fun a => f8 (ix1 a)⟩,
    ?_, ?_, ?_, ?_, ?_, ?_, ?_, ?_, ?_⟩
  · funext i; exact (congrArg x0 (eq_ix3 i)).trans (hf0 _)
  · funext i; exact (congrArg x1 (eq_ix3 i)).trans (hf1 _)
  · funext i; exact (congrArg x2 (eq_ix2 i)).trans (hf2 _)
  · funext i; exact (congrArg x3 (eq_ix2 i)).trans (hf3 _)
  · funext i; exact (congrArg x4 (eq_ix1 i)).trans (hf4 _)
  · funext i; exact (congrArg x5 (eq_ix2 i)).trans (hf5 _)
  · funext i; exact (congrArg x6 (eq_ix1 i)).trans (hf6 _)
  · funext i; exact (congrArg x7 (eq_ix2 i)).trans (hf7 _)
  · funext i; exact (congrArg x8 (eq_ix1 i)).trans (hf8 _)

end Cert.Finite

end
-- ==== Proof.lean ====
/-
  The certificate of a fused gated-attention kernel against its plain reference, over the extended reals.
  Both programs compute, for a batch b, a query row l and an output feature o,
      out b l o = σ(z) · tanh z,   z = Σ_c [x, att] b l c · W2 o c + b2 o,
      att b l d = (Σ_j exp (sc b l j) · mem b j d) / (Σ_j exp (sc b l j)),
      sc b l j  = (Σ_h relu(x·Wi + bi) b l h · relu(mem·Wm + bm) b j h) / 16 − pen · (1 − msk b j).
  The kernel visits, for each batch and each tile of 1024 query rows, two tiles of 2048 key rows, keeping a running
  maximum, denominator and accumulator (the online softmax), the query projection already scaled by 1/16, and caches of the
  projected keys and of the values filled at the first query tile of a batch; the reference forms the whole score matrix
  and a softmax. Over the reals the two agree: a softmax is unchanged by subtracting any finite number from every
  score, the running state after both key tiles is the whole sums rescaled by one positive factor that cancels in the
  quotient, and 1/16 commutes with the sum over hidden features. Finiteness of the inputs (the precondition) makes every
  intermediate value a real number, which is what these laws need.
  The three frames: the reference's run with the result dropped; for the kernel, at both readings, a run that tracks
  what the scratch buffers hold from grid point to grid point. The idealization changes no operation, so it preserves
  the program trivially.
-/
import proofs.«409618_j42356967473584_3_alg».proof.Defs
import proofs.«409618_j42356967473584_3_alg».proof.Proof.Gen.Kernel
import proofs.«409618_j42356967473584_3_alg».proof.Proof.Gen.KernelIdeal
import proofs.«409618_j42356967473584_3_alg».proof.Proof.Gen.ReferenceIdeal
import proofs.«409618_j42356967473584_3_alg».proof.Proof.Gen.Pre_finite_inputs
import proofs.«409618_j42356967473584_3_alg».proof.Proof.KWObl
import proofs.«409618_j42356967473584_3_alg».proof.Proof.KIObl
import proofs.«409618_j42356967473584_3_alg».proof.Proof.KIValue
import proofs.«409618_j42356967473584_3_alg».proof.Proof.RefValue
import proofs.«409618_j42356967473584_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Body.frame m ρ

/-- So does the kernel read over the extended reals. -/
theorem frame_kernel_ideal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.PValue.run (F := Ideal) m ρ)

/-- The idealization rewrote no operation. -/
theorem preserves : Cert.preserves_Kernel_KernelIdeal := trivial

/-- After the kernel's run the nine argument arrays are as launched. -/
theorem args_kept (m : (ℓ : Loc Cert.KernelIdeal.nD Cert.KernelIdeal.τ Cert.KernelIdeal.sig) → Buf (Elt Ideal) ℓ) (r : PUnit × MemSt Cert.KernelIdeal.nD Cert.KernelIdeal.τ Cert.KernelIdeal.sig (Elt Ideal))
    (h : Pipeline.FramePost Cert.KernelIdeal.cfgs (Cert.KernelIdeal.Body.dats m) 0 (Cert.KernelIdeal.Gen.V m) r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
    ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) :=
  ⟨((h c).1 0).trans (((Cert.KernelIdeal.Body.dats m 0 c).arrAt_in 0 rfl _).trans ((Cert.KernelIdeal.Body.A_eq m c 0).trans (Cert.KernelIdeal.Gen.V_main_arg0 m c))),
    ((h c).1 1).trans (((Cert.KernelIdeal.Body.dats m 0 c).arrAt_in 1 rfl _).trans ((Cert.KernelIdeal.Body.A_eq m c 1).trans (Cert.KernelIdeal.Gen.V_main_arg1 m c))),
    ((h c).2 Cert.KernelIdeal.main_arg2 (Pipeline.mem_restRefs_of Cert.KernelIdeal.main_arg2 (by decide) (by decide))).trans (Cert.KernelIdeal.Gen.V_main_arg2 m c),
    ((h c).2 Cert.KernelIdeal.main_arg3 (Pipeline.mem_restRefs_of Cert.KernelIdeal.main_arg3 (by decide) (by decide))).trans (Cert.KernelIdeal.Gen.V_main_arg3 m c),
    ((h c).2 Cert.KernelIdeal.main_arg4 (Pipeline.mem_restRefs_of Cert.KernelIdeal.main_arg4 (by decide) (by decide))).trans (Cert.KernelIdeal.Gen.V_main_arg4 m c),
    ((h c).2 Cert.KernelIdeal.main_arg5 (Pipeline.mem_restRefs_of Cert.KernelIdeal.main_arg5 (by decide) (by decide))).trans (Cert.KernelIdeal.Gen.V_main_arg5 m c),
    ((h c).2 Cert.KernelIdeal.main_arg6 (Pipeline.mem_restRefs_of Cert.KernelIdeal.main_arg6 (by decide) (by decide))).trans (Cert.KernelIdeal.Gen.V_main_arg6 m c),
    ((h c).2 Cert.KernelIdeal.main_arg7 (Pipeline.mem_restRefs_of Cert.KernelIdeal.main_arg7 (by decide) (by decide))).trans (Cert.KernelIdeal.Gen.V_main_arg7 m c),
    ((h c).2 Cert.KernelIdeal.main_arg8 (Pipeline.mem_restRefs_of Cert.KernelIdeal.main_arg8 (by decide) (by decide))).trans (Cert.KernelIdeal.Gen.V_main_arg8 m c)⟩

/-- Under the precondition the arguments are real arrays A; the kernel's result ends at the specification's G A, and so
    does the reference's, run from a memory agreeing on the arguments. -/
theorem algebraic : Cert.algebraic_KernelIdeal_ReferenceIdeal := by
  intro m ρ m' ρ' hpre hagree
  have hex : ∀ c : Dev Cert.KernelIdeal.nD, ∃ A : Cert.Spec.Args, Cert.KernelIdeal.Host.Holds m c A := fun c => by
    obtain ⟨A, h0, h1, h2, h3, h4, h5, h6, h7, h8⟩ := Cert.Finite.args_of_pre _ _ _ _ _ _ _ _ _ (hpre c)
    exact ⟨A, ⟨h0, h1, h2, h3, h4, h5, h6, h7, h8⟩⟩
  choose A hA using hex
  refine ⟨fun c => Cert.Spec.G (A c), ?_, ?_⟩
  · refine (θ_run Cert.KernelIdeal.defs _ _).mono (fun r hr c => ⟨?_, args_kept m r hr c⟩) (Cert.KernelIdeal.Body.run_main (F := Ideal) m ρ)
    exact ((hr c).1 9).trans (Cert.KernelIdeal.Host.final_out c (hA c))
  · refine (θ_run Cert.ReferenceIdeal.defs _ _).mono (fun r h c => ⟨(h c).1.trans ?_, (h c).2⟩)
      (Cert.ReferenceIdeal.PValue.run (F := Ideal) m' ρ')
    obtain ⟨e0, e1, e2, e3, e4, e5, e6, e7, e8⟩ := hagree c
    rw [Cert.ReferenceIdeal.PRead.val_main_v44_eq, e0, e1, e2, e3, e4, e5, e6, e7, e8,
      (hA c).h0, (hA c).h1, (hA c).h2, (hA c).h3, (hA c).h4, (hA c).h5, (hA c).h6, (hA c).h7, (hA c).h8]
    exact Cert.ReferenceIdeal.RefValue.ref_eq (A c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
